-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S100000 : Shape := ⟨1, ![100000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S64 .f32) (main_arg7 : FVec F S64x1 .f32) (main_arg8 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg7
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x64 .f32) (main_arg1 : IVec S2x1000000 32) (main_arg2 : IVec S100000 32) (main_arg3 : FVec F S64x64 .f32) (main_arg4 : FVec F S64 .f32) (main_arg5 : FVec F S64x64 .f32) (main_arg6 : FVec F S64 .f32) (main_arg7 : FVec F S64x1 .f32) (main_arg8 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S100000x64 : Shape := ⟨2, ![100000, 64]⟩
abbrev S2x1000000 : Shape := ⟨2, ![2, 1000000]⟩
abbrev S100000 : Shape := ⟨1, ![100000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x1000000 : Shape := ⟨2, ![1, 1000000]⟩
abbrev S1000000 : Shape := ⟨1, ![1000000]⟩
abbrev S1100000 : Shape := ⟨1, ![1100000]⟩
abbrev S_ : Shape := ⟨0, ![]⟩
abbrev S1100000x1 : Shape := ⟨2, ![1100000, 1]⟩
abbrev S100000x1 : Shape := ⟨2, ![100000, 1]⟩
abbrev S4000x64 : Shape := ⟨2, ![4000, 64]⟩
abbrev S4000x1 : Shape := ⟨2, ![4000, 1]⟩
abbrev S1100000x64 : Shape := ⟨2, ![1100000, 64]⟩
abbrev S1x64 : Shape := ⟨2, ![1, 64]⟩
abbrev S100352x64 : Shape := ⟨2, ![100352, 64]⟩
abbrev S100352x1 : Shape := ⟨2, ![100352, 1]⟩
abbrev S100352 : Shape := ⟨1, ![100352]⟩
abbrev S1x100352 : Shape := ⟨2, ![1, 100352]⟩
abbrev S2x1024x64 : Shape := ⟨3, ![2, 1024, 64]⟩
abbrev S1024x64 : Shape := ⟨2, ![1024, 64]⟩
abbrev S1024x1 : Shape := ⟨2, ![1024, 1]⟩
abbrev S1x1024 : Shape := ⟨2, ![1, 1024]⟩
abbrev S1x1024x64 : Shape := ⟨3, ![1, 1024, 64]⟩
abbrev S1024x1024 : Shape := ⟨2, ![1024, 1024]⟩
abbrev S1x1 : Shape := ⟨2, ![1, 1]⟩

abbrev nBuf : Space → Nat
  | .hbm => 78
  | .vmem => 25
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S100000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S1x1000000, .i32⟩
  | .hbm, ⟨10, _⟩ => ⟨S1000000, .i32⟩
  | .hbm, ⟨11, _⟩ => ⟨S1x1000000, .i32⟩
  | .hbm, ⟨12, _⟩ => ⟨S1000000, .i32⟩
  | .hbm, ⟨13, _⟩ => ⟨S100000, .i32⟩
  | .hbm, ⟨14, _⟩ => ⟨S1100000, .i32⟩
  | .hbm, ⟨15, _⟩ => ⟨S1100000, .i32⟩
  | .hbm, ⟨16, _⟩ => ⟨S_, .f32⟩
  | .hbm, ⟨17, _⟩ => ⟨S1100000, .f32⟩
  | .hbm, ⟨18, _⟩ => ⟨S_, .f32⟩
  | .hbm, ⟨19, _⟩ => ⟨S100000, .f32⟩
  | .hbm, ⟨20, _⟩ => ⟨S1100000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000x64, .f32⟩
  | .hbm, ⟨32, _⟩ => ⟨S_, .i32⟩
  | .hbm, ⟨33, _⟩ => ⟨S1100000, .i32⟩
  | .hbm, ⟨34, _⟩ => ⟨S1100000, .i1⟩
  | .hbm, ⟨35, _⟩ => ⟨S_, .i32⟩
  | .hbm, ⟨36, _⟩ => ⟨S1100000, .i32⟩
  | .hbm, ⟨37, _⟩ => ⟨S1100000, .i32⟩
  | .hbm, ⟨38, _⟩ => ⟨S1100000, .i32⟩
  | .hbm, ⟨39, _⟩ => ⟨S1100000x1, .i32⟩
  | .hbm, ⟨40, _⟩ => ⟨S1100000x64, .f32⟩
  | .hbm, ⟨41, _⟩ => ⟨S_, .f32⟩
  | .hbm, ⟨42, _⟩ => ⟨S100000x64, .f32⟩
  | .hbm, ⟨43, _⟩ => ⟨S1100000x1, .i32⟩
  | .hbm, ⟨44, _⟩ => ⟨S100000x64, .f32⟩
  | .hbm, ⟨45, _⟩ => ⟨S1x64, .f32⟩
  | .hbm, ⟨46, _⟩ => ⟨S100000x64, .f32⟩
  | .hbm, ⟨47, _⟩ => ⟨S_, .i32⟩
  | .hbm, ⟨48, _⟩ => ⟨S1100000, .i32⟩
  | .hbm, ⟨49, _⟩ => ⟨S1100000, .i1⟩
  | .hbm, ⟨50, _⟩ => ⟨S_, .i32⟩
  | .hbm, ⟨51, _⟩ => ⟨S1100000, .i32⟩
  | .hbm, ⟨52, _⟩ => ⟨S1100000, .i32⟩
  | .hbm, ⟨53, _⟩ => ⟨S1100000, .i32⟩
  | .hbm, ⟨54, _⟩ => ⟨S1100000x1, .i32⟩
  | .hbm, ⟨55, _⟩ => ⟨S1100000x64, .f32⟩
  | .hbm, ⟨56, _⟩ => ⟨S_, .f32⟩
  | .hbm, ⟨57, _⟩ => ⟨S100352x64, .f32⟩
  | .hbm, ⟨58, _⟩ => ⟨S1100000x1, .i32⟩
  | .hbm, ⟨59, _⟩ => ⟨S100352x64, .f32⟩
  | .hbm, ⟨60, _⟩ => ⟨S_, .i32⟩
  | .hbm, ⟨61, _⟩ => ⟨S_, .f32⟩
  | .hbm, ⟨62, _⟩ => ⟨S100352x1, .f32⟩
  | .hbm, ⟨63, _⟩ => ⟨S_, .i32⟩
  | .hbm, ⟨64, _⟩ => ⟨S_, .i32⟩
  | .hbm, ⟨65, _⟩ => ⟨S100352, .i32⟩
  | .hbm, ⟨66, _⟩ => ⟨S1x64, .f32⟩
  | .hbm, ⟨67, _⟩ => ⟨S1x100352, .i32⟩
  | .hbm, ⟨68, _⟩ => ⟨S2x1024x64, .f32⟩
  | .hbm, ⟨69, _⟩ => ⟨S1x1024x64, .f32⟩
  | .hbm, ⟨70, _⟩ => ⟨S1024x64, .f32⟩
  | .hbm, ⟨71, _⟩ => ⟨S1x1024x64, .f32⟩
  | .hbm, ⟨72, _⟩ => ⟨S1024x64, .f32⟩
  | .hbm, ⟨73, _⟩ => ⟨S1024x64, .f32⟩
  | .hbm, ⟨74, _⟩ => ⟨S1024x1, .f32⟩
  | .hbm, ⟨75, _⟩ => ⟨S1x1, .f32⟩
  | .hbm, ⟨76, _⟩ => ⟨S1024x1, .f32⟩
  | .hbm, ⟨77, _⟩ => ⟨S1024x1, .f32⟩
  | .local _ .vmem, ⟨0, _⟩ => ⟨S4000x64, .f32⟩
  | .local _ .vmem, ⟨1, _⟩ => ⟨S4000x64, .f32⟩
  | .local _ .vmem, ⟨2, _⟩ => ⟨S64x64, .f32⟩
  | .local _ .vmem, ⟨3, _⟩ => ⟨S4000x1, .f32⟩
  | .local _ .vmem, ⟨4, _⟩ => ⟨S4000x1, .f32⟩
  | .local _ .vmem, ⟨5, _⟩ => ⟨S4000x64, .f32⟩
  | .local _ .vmem, ⟨6, _⟩ => ⟨S4000x64, .f32⟩
  | .local _ .vmem, ⟨7, _⟩ => ⟨S4000x64, .f32⟩
  | .local _ .vmem, ⟨8, _⟩ => ⟨S4000x64, .f32⟩
  | .local _ .vmem, ⟨9, _⟩ => ⟨S4000x1, .f32⟩
  | .local _ .vmem, ⟨10, _⟩ => ⟨S4000x1, .f32⟩
  | .local _ .vmem, ⟨11, _⟩ => ⟨S1x64, .f32⟩
  | .local _ .vmem, ⟨12, _⟩ => ⟨S64x64, .f32⟩
  | .local _ .vmem, ⟨13, _⟩ => ⟨S4000x64, .f32⟩
  | .local _ .vmem, ⟨14, _⟩ => ⟨S4000x64, .f32⟩
  | .local _ .vmem, ⟨15, _⟩ => ⟨S1024x64, .f32⟩
  | .local _ .vmem, ⟨16, _⟩ => ⟨S1024x64, .f32⟩
  | .local _ .vmem, ⟨17, _⟩ => ⟨S1024x1, .f32⟩
  | .local _ .vmem, ⟨18, _⟩ => ⟨S1024x1, .f32⟩
  | .local _ .vmem, ⟨19, _⟩ => ⟨S1x64, .f32⟩
  | .local _ .vmem, ⟨20, _⟩ => ⟨S1x1024, .i32⟩
  | .local _ .vmem, ⟨21, _⟩ => ⟨S1x1024, .i32⟩
  | .local _ .vmem, ⟨22, _⟩ => ⟨S1x1024x64, .f32⟩
  | .local _ .vmem, ⟨23, _⟩ => ⟨S1x1024x64, .f32⟩
  | .local _ .vmem, ⟨24, _⟩ => ⟨S1024x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_c_8 : Ref sig .tc := ⟨.hbm, 60, rfl⟩
abbrev main_call1_v0 : Ref sig .tc := ⟨.hbm, 61, rfl⟩
abbrev main_v39 : Ref sig .tc := ⟨.hbm, 62, rfl⟩
abbrev main_c_9 : Ref sig .tc := ⟨.hbm, 63, rfl⟩
abbrev main_call2_v0 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg4_1 : Ref sig .tc := ⟨.vmem, 23, rfl⟩
abbrev cc2_scratch0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨2, ![2, 49], ![false, false]⟩

def k2_cond2 (i : grid2.Coords) : BitVec 1 :=
  let arg1 : BitVec 32 := BitVec.ofNat 32 (i 1).val
  let c48_i32 : BitVec 32 := 48#32
  let v30 : BitVec 1 := Scalar.cmpi .eq arg1 c48_i32
  let v31 : BitVec 32 := Scalar.extui v30
  let c0_i32_13 : BitVec 32 := 0#32
  let v32 : BitVec 1 := Scalar.cmpi .ne v31 c0_i32_13
  v32

def cc2_transform_0 (i : grid2.Coords) : Fin 2 → Nat :=
  let arg0 : BitVec 32 := BitVec.ofNat 32 (i 0).val
  let arg1 : BitVec 32 := BitVec.ofNat 32 (i 1).val
  let c49_i32 : BitVec 32 := 49#32
  let v0 : BitVec 32 := Scalar.muli arg0 c49_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 2 → Nat :=
  let arg0 : BitVec 32 := BitVec.ofNat 32 (i 0).val
  let arg1 : BitVec 32 := BitVec.ofNat 32 (i 1).val
  let c49_i32 : BitVec 32 := 49#32
  let v0 : BitVec 32 := Scalar.muli arg0 c49_i32
  let v1 : BitVec 32 := Scalar.addi v0 arg1
  let c0_i32 : BitVec 32 := 0#32
  let c0_i32_0 : BitVec 32 := 0#32
  ![v1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c49_i32 : BitVec 32 := 49#32
  let v0 : BitVec 32 := Scalar.muli arg0 c49_i32
  let v1 : BitVec 32 := Scalar.addi v0 arg1
  let c0_i32 : BitVec 32 := 0#32
  let c0_i32_0 : BitVec 32 := 0#32
  ![c0_i32.toNat, v1.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1024x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1x1024 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x1024x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  concatenates_S1000000_S100000_S1100000_d0 : Shape.Concatenates [S1000000, S100000] S1100000 0
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  shapeCasts_S100000_S100000x1 : S100000.ShapeCasts S100000x1
  inb_S4000x64_S4000x64_0_0 : ∀ a, (![0, 0] : Fin 2 → Nat) a + S4000x64.size a ≤ S4000x64.size a
  h_S4000x64 : 0 < S4000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  bcast_S_S100000x64 : S_.BroadcastsInDim S100000x64 (![] : Fin 0 → Fin S100000x64.rank)
  shapeCasts_S64_S1x64 : S64.ShapeCasts S1x64
  shapeCasts_S4000x64_S4000x64 : S4000x64.ShapeCasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  bcast_S_S100352x64 : S_.BroadcastsInDim S100352x64 (![] : Fin 0 → Fin S100352x64.rank)
  pads_S100000x1_S100352x1_03520_000 : S100000x1.Pads (![0, 0] : Fin 2 → Nat) ![352, 0] ![0, 0] S100352x1
  h_S_ : 0 < S_.numel
  pads_S100000_S100352_03520 : S100000.Pads (![0] : Fin 1 → Nat) ![352] ![0] S100352
  shapeCasts_S100352_S1x100352 : S100352.ShapeCasts S1x100352
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x64 : S1024x1.Broadcasts S1024x64
  broadcasts_S1x64_S1024x64 : S1x64.Broadcasts S1024x64
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  iota_S1024x1024_d0_w32 : S1024x1024.Iotas .tc 32 [0]
  broadcasts_S1x1024_S1024x1024 : S1x1024.Broadcasts S1024x1024
  natLt_1_32 : 1 < 32
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  shapeCasts_S1024x64_S1x1024x64 : S1024x64.ShapeCasts S1x1024x64
  slices_S2x1024x64_S1x1024x64_0_0_0 : S2x1024x64.Slices ![0, 0, 0] S1x1024x64
  slices_S2x1024x64_S1x1024x64_1_0_0 : S2x1024x64.Slices ![1, 0, 0] S1x1024x64
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  scatter_S100000_S1100000x1_S1100000_n_0_0_1_wf : ScatterDims.WF S100000 S1100000x1 S1100000 [] [0] [0] 1
  dot_S4000x64_S64x64_S4000x64_1_0_0_1_n_n_wf : DotDims.WF S4000x64 S64x64 S4000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  scatter_S100352x64_S1100000x1_S1100000x64_1_0_0_1_wf : ScatterDims.WF S100352x64 S1100000x1 S1100000x64 [1] [0] [0] 1
  dot_S1024x1024_S1024x64_S1024x64_1_0_0_1_n_n_wf : DotDims.WF S1024x1024 S1024x64 S1024x64 [1] [0] [0] [1] [] []
  dot_S1024x64_S64x1_S1024x1_1_0_0_1_n_n_wf : DotDims.WF S1024x64 S64x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x64.size a ≤ S100000x64.size a
  hwx0_3 : ∀ i : grid0.Coords, EltTy.bits .f32 = 32 ∨ (Rect.block (s := S100000x64) S4000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x64.size a ≤ S100000x64.size a
  hwx1_4 : ∀ i : grid1.Coords, EltTy.bits .f32 = 32 ∨ (Rect.block (s := S100000x64) S4000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x64.size a ≤ S100352x64.size a
  hwx2_0 : ∀ i : grid2.Coords, EltTy.bits .f32 = 32 ∨ (Rect.block (s := S100352x64) S1024x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1.size a ≤ S100352x1.size a
  hwx2_1 : ∀ i : grid2.Coords, EltTy.bits .f32 = 32 ∨ (Rect.block (s := S100352x1) S1024x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1024.size a ≤ S1x100352.size a
  hwx2_3 : ∀ i : grid2.Coords, EltTy.bits .i32 = 32 ∨ (Rect.block (s := S1x100352) S1x1024.size (cc2_transform_3 i) (hinb2_3 i)).WholeWords (EltTy.packing .i32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x1024x64.size a ≤ S2x1024x64.size a
  hwx2_4 : ∀ i : grid2.Coords, EltTy.bits .f32 = 32 ∨ (Rect.block (s := S2x1024x64) S1x1024x64.size (cc2_transform_4 i) (hinb2_4 i)).WholeWords (EltTy.packing .f32)

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def scatter_S100352x64_S1100000x1_S1100000x64_1_0_0_1 : ScatterDims S100352x64 S1100000x1 S1100000x64 where
  updateWindowDims := [1]
  insertedWindowDims := [0]
  scatterDimsToOperandDims := [0]
  indexVectorDim := 1
  wf := scatter_S100352x64_S1100000x1_S1100000x64_1_0_0_1_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x64_S64x1_S1024x1_1_0_0_1_n_n : DotDims S1024x64 S64x1 S1024x1 where
  lhsContracting := [1]
  rhsContracting := [0]
  lhsNonContracting := [0]
  rhsNonContracting := [1]
  lhsBatch := []
  rhsBatch := []
  wf := dot_S1024x64_S64x1_S1024x1_1_0_0_1_n_n_wf

abbrev win0_0 : Pipeline.Window sig grid0 :=
  Pipeline.Window.ofSpec (Memref.whole main_arg0) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S4000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S4000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v38) S1024x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S1024x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v42) S1x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v43) S1x1024x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

class Facts : Prop extends Facts₀ where

variable [Facts]
-- ==== ReferenceIdeal.lean ====
abbrev S100000x64 : Shape := ⟨2, ![100000, 64]⟩
abbrev S2x1000000 : Shape := ⟨2, ![2, 1000000]⟩
abbrev S100000 : Shape := ⟨1, ![100000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x1000000 : Shape := ⟨2, ![1, 1000000]⟩
abbrev S1000000 : Shape := ⟨1, ![1000000]⟩
abbrev S1100000 : Shape := ⟨1, ![1100000]⟩
abbrev S_ : Shape := ⟨0, ![]⟩
abbrev S1100000x1 : Shape := ⟨2, ![1100000, 1]⟩
abbrev S1100000x64 : Shape := ⟨2, ![1100000, 64]⟩
abbrev S1x64 : Shape := ⟨2, ![1, 64]⟩
abbrev S1024x64 : Shape := ⟨2, ![1024, 64]⟩
abbrev S100000x1 : Shape := ⟨2, ![100000, 1]⟩
abbrev S1024x1 : Shape := ⟨2, ![1024, 1]⟩
abbrev S1x1 : Shape := ⟨2, ![1, 1]⟩

abbrev nBuf : Space → Nat
  | .hbm => 103
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S100000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S1x1000000, .i32⟩
  | .hbm, ⟨10, _⟩ => ⟨S1000000, .i32⟩
  | .hbm, ⟨11, _⟩ => ⟨S1x1000000, .i32⟩
  | .hbm, ⟨12, _⟩ => ⟨S1000000, .i32⟩
  | .hbm, ⟨13, _⟩ => ⟨S100000, .i32⟩
  | .hbm, ⟨14, _⟩ => ⟨S1100000, .i32⟩
  | .hbm, ⟨15, _⟩ => ⟨S1100000, .i32⟩
  | .hbm, ⟨16, _⟩ => ⟨S_, .f32⟩
  | .hbm, ⟨17, _⟩ => ⟨S1100000, .f32⟩
  | .hbm, ⟨18, _⟩ => ⟨S_, .f32⟩
  | .hbm, ⟨19, _⟩ => ⟨S100000, .f32⟩
  | .hbm, ⟨20, _⟩ => ⟨S1100000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1100000, .i32⟩
  | .hbm, ⟨32, _⟩ => ⟨S1100000, .i1⟩
  | .hbm, ⟨33, _⟩ => ⟨S_, .i32⟩
  | .hbm, ⟨34, _⟩ => ⟨S1100000, .i32⟩
  | .hbm, ⟨35, _⟩ => ⟨S1100000, .i32⟩
  | .hbm, ⟨36, _⟩ => ⟨S1100000, .i32⟩
  | .hbm, ⟨37, _⟩ => ⟨S1100000x1, .i32⟩
  | .hbm, ⟨38, _⟩ => ⟨S1100000, .f32⟩
  | .hbm, ⟨39, _⟩ => ⟨S_, .i32⟩
  | .hbm, ⟨40, _⟩ => ⟨S1100000, .i32⟩
  | .hbm, ⟨41, _⟩ => ⟨S1100000, .i1⟩
  | .hbm, ⟨42, _⟩ => ⟨S_, .i32⟩
  | .hbm, ⟨43, _⟩ => ⟨S1100000, .i32⟩
  | .hbm, ⟨44, _⟩ => ⟨S1100000, .i32⟩
  | .hbm, ⟨45, _⟩ => ⟨S1100000, .i32⟩
  | .hbm, ⟨46, _⟩ => ⟨S1100000x1, .i32⟩
  | .hbm, ⟨47, _⟩ => ⟨S1100000, .f32⟩
  | .hbm, ⟨48, _⟩ => ⟨S1100000, .f32⟩
  | .hbm, ⟨49, _⟩ => ⟨S100000x64, .f32⟩
  | .hbm, ⟨50, _⟩ => ⟨S_, .i32⟩
  | .hbm, ⟨51, _⟩ => ⟨S1100000, .i32⟩
  | .hbm, ⟨52, _⟩ => ⟨S1100000, .i1⟩
  | .hbm, ⟨53, _⟩ => ⟨S_, .i32⟩
  | .hbm, ⟨54, _⟩ => ⟨S1100000, .i32⟩
  | .hbm, ⟨55, _⟩ => ⟨S1100000, .i32⟩
  | .hbm, ⟨56, _⟩ => ⟨S1100000, .i32⟩
  | .hbm, ⟨57, _⟩ => ⟨S1100000x1, .i32⟩
  | .hbm, ⟨58, _⟩ => ⟨S1100000x64, .f32⟩
  | .hbm, ⟨59, _⟩ => ⟨S1100000x1, .f32⟩
  | .hbm, ⟨60, _⟩ => ⟨S1100000x64, .f32⟩
  | .hbm, ⟨61, _⟩ => ⟨S1100000x64, .f32⟩
  | .hbm, ⟨62, _⟩ => ⟨S_, .f32⟩
  | .hbm, ⟨63, _⟩ => ⟨S100000x64, .f32⟩
  | .hbm, ⟨64, _⟩ => ⟨S1100000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S_, .f32⟩
  | .hbm, ⟨70, _⟩ => ⟨S100000x64, .f32⟩
  | .hbm, ⟨71, _⟩ => ⟨S100000x64, .f32⟩
  | .hbm, ⟨72, _⟩ => ⟨S100000x64, .f32⟩
  | .hbm, ⟨73, _⟩ => ⟨S_, .i32⟩
  | .hbm, ⟨74, _⟩ => ⟨S1100000, .i32⟩
  | .hbm, ⟨75, _⟩ => ⟨S1100000, .i1⟩
  | .hbm, ⟨76, _⟩ => ⟨S_, .i32⟩
  | .hbm, ⟨77, _⟩ => ⟨S1100000, .i32⟩
  | .hbm, ⟨78, _⟩ => ⟨S1100000, .i32⟩
  | .hbm, ⟨79, _⟩ => ⟨S1100000, .i32⟩
  | .hbm, ⟨80, _⟩ => ⟨S1100000x1, .i32⟩
  | .hbm, ⟨81, _⟩ => ⟨S1100000x64, .f32⟩
  | .hbm, ⟨82, _⟩ => ⟨S1100000x1, .f32⟩
  | .hbm, ⟨83, _⟩ => ⟨S1100000x64, .f32⟩
  | .hbm, ⟨84, _⟩ => ⟨S1100000x64, .f32⟩
  | .hbm, ⟨85, _⟩ => ⟨S_, .f32⟩
  | .hbm, ⟨86, _⟩ => ⟨S100000x64, .f32⟩
  | .hbm, ⟨87, _⟩ => ⟨S1100000x1, .i32⟩
  | .hbm, ⟨88, _⟩ => ⟨S100000x64, .f32⟩
  | .hbm, ⟨89, _⟩ => ⟨S1x64, .f32⟩
  | .hbm, ⟨90, _⟩ => ⟨S100000x64, .f32⟩
  | .hbm, ⟨91, _⟩ => ⟨S100000x64, .f32⟩
  | .hbm, ⟨92, _⟩ => ⟨S_, .f32⟩
  | .hbm, ⟨93, _⟩ => ⟨S100000x64, .f32⟩
  | .hbm, ⟨94, _⟩ => ⟨S100000x64, .f32⟩
  | .hbm, ⟨95, _⟩ => ⟨S_, .f32⟩
  | .hbm, ⟨96, _⟩ => ⟨S1024x64, .f32⟩
  | .hbm, ⟨97, _⟩ => ⟨S100000x1, .i32⟩
  | .hbm, ⟨98, _⟩ => ⟨S1024x64, .f32⟩
  | .hbm, ⟨99, _⟩ => ⟨S1024x1, .f32⟩
  | .hbm, ⟨100, _⟩ => ⟨S1x1, .f32⟩
  | .hbm, ⟨101, _⟩ => ⟨S1024x1, .f32⟩
  | .hbm, ⟨102, _⟩ => ⟨S1024x1, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_c_9 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_call2_cst : Ref sig .tc := ⟨.hbm, 92, rfl⟩
abbrev main_call2_v0 : Ref sig .tc := ⟨.hbm, 93, rfl⟩
abbrev main_v65 : Ref sig .tc := ⟨.hbm, 94, rfl⟩
abbrev main_cst_12 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  concatenates_S1000000_S100000_S1100000_d0 : Shape.Concatenates [S1000000, S100000] S1100000 0
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1024x64 : S_.BroadcastsInDim S1024x64 (![] : Fin 0 → Fin S1024x64.rank)
  bcast_S100000_S100000x1_0 : S100000.BroadcastsInDim S100000x1 (![0] : Fin 1 → Fin S100000x1.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S100000x64_S64x64_S100000x64_1_0_0_1_n_n_wf : DotDims.WF S100000x64 S64x64 S100000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  scatter_S1024x64_S100000x1_S100000x64_1_0_0_1_wf : ScatterDims.WF S1024x64 S100000x1 S100000x64 [1] [0] [0] 1
  dot_S1024x64_S64x1_S1024x1_1_0_0_1_n_n_wf : DotDims.WF S1024x64 S64x1 S1024x1 [1] [0] [0] [1] [] []

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def scatter_S1024x64_S100000x1_S100000x64_1_0_0_1 : ScatterDims S1024x64 S100000x1 S100000x64 where
  updateWindowDims := [1]
  insertedWindowDims := [0]
  scatterDimsToOperandDims := [0]
  indexVectorDim := 1
  wf := scatter_S1024x64_S100000x1_S100000x64_1_0_0_1_wf
def dot_S1024x64_S64x1_S1024x1_1_0_0_1_n_n : DotDims S1024x64 S64x1 S1024x1 where
  lhsContracting := [1]
  rhsContracting := [0]
  lhsNonContracting := [0]
  rhsNonContracting := [1]
  lhsBatch := []
  rhsBatch := []
  wf := dot_S1024x64_S64x1_S1024x1_1_0_0_1_n_n_wf

class Facts : Prop extends Facts₀ where

variable [Facts]
-- ==== Proof.KB.Reg0.lean ====
/-
  The first pallas_call (the feature transform scaled by the inverse square-root degree), at a parameter `V`: the
  buffer contents the region is entered with. Each grid point reads one block of 4000 rows of the node features,
  the whole 64 by 64 weight matrix and the matching 4000 by 1 block of the degree column, and stores one block of
  4000 rows of the result: the block's matrix product scaled row by row. Stated here: the blocks, what the body
  leaves in the output's staging buffer, the body's triple, the proof data and the body obligation at every point.
-/
import proofs.«400187_j27350351741543_3_alg».proof.Proof.Gen.Kernel.Launch
import proofs.«400187_j27350351741543_3_alg».proof.Proof.Gen.Kernel.Skeleton
import proofs.«400187_j27350351741543_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev r0_a : Rect S4000x64 := Rect.unit (s := S4000x64) ![0, 0] S4000x64.size inb_S4000x64_S4000x64_0_0
abbrev r0_b : Rect S64x64 := Rect.unit (s := S64x64) ![0, 0] S64x64.size inb_S64x64_S64x64_0_0
abbrev r0_c : Rect S4000x1 := Rect.unit (s := S4000x1) ![0, 0] S4000x1.size inb_S4000x1_S4000x1_0_0

/-- The output's staging buffer after the body, from the three input blocks: its one whole-block store. -/
def out0_3 (x0 : Vec F S4000x64 .f32) (x1 : Vec F S64x64 .f32) (x2 : Vec F S4000x1 .f32) : Vec F S4000x64 .f32 :=
  View.canon [⟨r0_a, k0_pay1 (View.ld x0 r0_a) (View.ld x1 r0_b) (View.ld x2 r0_c)⟩]

/-- The one store covers the buffer. -/
theorem cover0_3 (p0 : Vec F S4000x64 .f32) (y : S4000x64.Idx) :
    ∃ pc ∈ ([⟨r0_a, p0⟩] : List (View.Piece (Elt F) S4000x64 .f32)), y ∈ pc.1.set :=
  View.cover_of_tiled [⟨r0_a, p0⟩] S4000x64.size (by rfl) y

set_option maxHeartbeats 1000000 in
/-- The body on whole staging memrefs: the inputs keep their contents, the output ends at `out0_3` of them. -/
theorem sound_kernel0 (c : Dev nD) (E : Set ℕ) (i : grid0.Coords) (arg1 : Memref sig .tc .vmem S4000x64 .f32) (harg1 : arg1.IsWhole)
    (arg2 : Memref sig .tc .vmem S64x64 .f32) (harg2 : arg2.IsWhole) (arg3 : Memref sig .tc .vmem S4000x1 .f32) (harg3 : arg3.IsWhole)
    (arg4 : Memref sig .tc .vmem S4000x64 .f32) (harg4 : arg4.IsWhole)
    (x0 : Vec F S4000x64 .f32) (x1 : Vec F S64x64 .f32) (x2 : Vec F S4000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__matmul_dinv_kernel i arg1 harg1 arg2 harg2 arg3 harg3 arg4 harg4) K := by
  simp only [cc0__matmul_dinv_kernel_eq_skeleton]; unfold cc0__matmul_dinv_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of the first pipeline on core `c`: the arrays as the region finds them; after the body each input's
    buffer at its block and the output's at `out0_3` of the input blocks; the class's invariant; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Gen

end
-- ==== Proof.KB.Reg1.lean ====
/-
  The second pallas_call (bias, rectifier, feature transform and degree scaling fused), at a parameter `V`: the buffer
  contents the region is entered with. Each grid point reads one block of 4000 rows of the aggregated features, the
  matching block of the degree column, the bias row and the whole weight matrix, and stores one block of 4000 rows:
  the rectified, degree-scaled and biased block times the weights, scaled row by row again.
-/
import proofs.«400187_j27350351741543_3_alg».proof.Proof.KB.Reg0

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangle of the bias row. -/
abbrev r0_e : Rect S1x64 := Rect.unit (s := S1x64) ![0, 0] S1x64.size inb_S1x64_S1x64_0_0

/-- The output's staging buffer after the body, from the four input blocks (aggregated features, degree column,
    bias row, weights): its one whole-block store. -/
def out1_4 (x0 : Vec F S4000x64 .f32) (x1 : Vec F S4000x1 .f32) (x2 : Vec F S1x64 .f32) (x3 : Vec F S64x64 .f32) : Vec F S4000x64 .f32 :=
  View.canon [⟨r0_a, k1_pay1 (View.ld x1 r0_c) (View.ld x0 r0_a) (View.ld x2 r0_e) (View.ld x3 r0_b) (View.ld x1 r0_c)⟩]

set_option maxHeartbeats 1000000 in
/-- The body on whole staging memrefs: the inputs keep their contents, the output ends at `out1_4` of them. -/
theorem sound_kernel1 (c : Dev nD) (E : Set ℕ) (i : grid1.Coords) (arg1 : Memref sig .tc .vmem S4000x64 .f32) (harg1 : arg1.IsWhole)
    (arg2 : Memref sig .tc .vmem S4000x1 .f32) (harg2 : arg2.IsWhole) (arg3 : Memref sig .tc .vmem S1x64 .f32) (harg3 : arg3.IsWhole)
    (arg4 : Memref sig .tc .vmem S64x64 .f32) (harg4 : arg4.IsWhole) (arg5 : Memref sig .tc .vmem S4000x64 .f32) (harg5 : arg5.IsWhole)
    (x0 : Vec F S4000x64 .f32) (x1 : Vec F S4000x1 .f32) (x2 : Vec F S1x64 .f32) (x3 : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__bias_relu_matmul_dinv_kernel i arg1 harg1 arg2 harg2 arg3 harg3 arg4 harg4 arg5 harg5) K := by
  simp only [cc1__bias_relu_matmul_dinv_kernel_eq_skeleton]; unfold cc1__bias_relu_matmul_dinv_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_3 _)

/-- The proof data of the second pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end Region1

end Cert.Kernel.Gen

end
-- ==== Proof.KB.Acc2.lean ====
/-
  The third pallas_call (rectifier and segment-sum pooling as a one-hot matrix product, over a 2 by 49 grid), at a
  parameter `V`: the blocks its points read, and the ACCUMULATOR the kernel carries in scratch: at the first of a
  core's 49 points it is reset to zero and the point's one-hot product added, at every later point that point's
  product is added to what the point before left.
-/
import proofs.«400187_j27350351741543_3_alg».proof.Proof.Gen.Kernel.Launch
import proofs.«400187_j27350351741543_3_alg».proof.Proof.Gen.Kernel.Skeleton
import proofs.«400187_j27350351741543_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The four input blocks of a point at their literal types: 1024 rows of the aggregated features, the matching rows
    of the padded degree column, the bias row, the matching 1024 entries of the padded graph ids. -/
abbrev xa2 (c : Dev nD) (t : Fin cfg2.N) : Vec F S1024x64 .f32 := iblk2 V c 0 t
abbrev xd2 (c : Dev nD) (t : Fin cfg2.N) : Vec F S1024x1 .f32 := iblk2 V c 1 t
abbrev xb2 (c : Dev nD) (t : Fin cfg2.N) : Vec F S1x64 .f32 := iblk2 V c 2 t
abbrev xg2 (c : Dev nD) (t : Fin cfg2.N) : Vec F S1x1024 .i32 := iblk2 V c 3 t

/-- THE ACCUMULATOR after point `n`: reset at the points that are multiples of 49 (a core's first), stepped from the
    point before elsewhere; a step adds the point's one-hot product (the kernel's second payload, whose last argument is
    the accumulator it reads back; the first payload is the zero block the reset stores). -/
def acc2 (c : Dev nD) : (n : ℕ) → n < cfg2.N → Vec F S1024x64 .f32
  | 0, hn => k2_pay2 (xd2 V c ⟨0, hn⟩) (xa2 V c ⟨0, hn⟩) (xb2 V c ⟨0, hn⟩) (xg2 V c ⟨0, hn⟩) (k2_pay1 (F := F))
  | n + 1, hn =>
    if (n + 1) % 49 = 0 then
      k2_pay2 (xd2 V c ⟨n + 1, hn⟩) (xa2 V c ⟨n + 1, hn⟩) (xb2 V c ⟨n + 1, hn⟩) (xg2 V c ⟨n + 1, hn⟩) (k2_pay1 (F := F))
    else
      k2_pay2 (xd2 V c ⟨n + 1, hn⟩) (xa2 V c ⟨n + 1, hn⟩) (xb2 V c ⟨n + 1, hn⟩) (xg2 V c ⟨n + 1, hn⟩) (acc2 c n (Nat.lt_of_succ_lt hn))

/-- At a core's first point the accumulator is the point's product over the zero block. -/
theorem acc2_reset (c : Dev nD) (n : ℕ) (hn : n < cfg2.N) (h : n % 49 = 0) :
    acc2 V c n hn = k2_pay2 (xd2 V c ⟨n, hn⟩) (xa2 V c ⟨n, hn⟩) (xb2 V c ⟨n, hn⟩) (xg2 V c ⟨n, hn⟩) (k2_pay1 (F := F)) := by
  cases n with
  | zero => rfl
  | succ n => exact if_pos h

/-- At every other point it is the point's product over what the point before left. -/
theorem acc2_step (c : Dev nD) (n : ℕ) (hn : n + 1 < cfg2.N) (h : ¬(n + 1) % 49 = 0) :
    acc2 V c (n + 1) hn = k2_pay2 (xd2 V c ⟨n + 1, hn⟩) (xa2 V c ⟨n + 1, hn⟩) (xb2 V c ⟨n + 1, hn⟩) (xg2 V c ⟨n + 1, hn⟩)
      (acc2 V c n (Nat.lt_of_succ_lt hn)) := if_neg h

end Region2

end Cert.Kernel.Gen

end
-- ==== Proof.KB.Reg2.lean ====
/-
  The third pallas_call (rectifier and segment-sum pooling as a one-hot matrix product, over a 2 by 49 grid), at a
  parameter `V`: the frame half. The body has three control cases, decided by the second grid coordinate: at a
  core's first point (position ≡ 0 mod 49) it stores the zero block over the whole scratch accumulator and then adds
  the point's one-hot product; at the middle points it adds the product to what the point before left; at a core's
  last point (position ≡ 48 mod 49) it does the same and copies the accumulator into the output block, which is
  written back there and only there. Stated here: the conditions in closed form, the body's triple per case, what
  the output's staging buffer and the scratch hold after every point, the invariant that carries the scratch from
  point to point, the proof data and the body obligation; then the scratch's contents identified with the
  accumulator defined beside the blocks.
-/
import proofs.«400187_j27350351741543_3_alg».proof.Proof.Gen.Kernel.Launch
import proofs.«400187_j27350351741543_3_alg».proof.Proof.Gen.Kernel.Skeleton
import proofs.«400187_j27350351741543_3_alg».proof.Proof.Gen.Kernel.Points
import proofs.«400187_j27350351741543_3_alg».proof.Proof.KB.Acc2
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-! ## The body's two conditions, in closed form -/

/-- The first conditional's condition from the grid coordinates: the second coordinate is zero. -/
abbrev cond2_0 (i : grid2.Coords) : Prop := (Scalar.cmpi .ne (Scalar.extui (Scalar.cmpi .eq (BitVec.ofNat 32 (i 1).val) 0#32)) 0#32) = 1#1
/-- It holds exactly at the positions that are multiples of 49: each core's first point. -/
theorem hcond2_0 : ∀ t : Fin cfg2.N, cond2_0 (grid2.coords t) ↔ t.val % 49 = 0 :=
  (by decide +kernel : ∀ t : Fin grid2.N, cond2_0 (grid2.coords t) ↔ t.val % 49 = 0)

/-- The second conditional's condition: the second coordinate is 48. -/
abbrev cond2_1 (i : grid2.Coords) : Prop := k2_cond2 i = 1#1
/-- It holds exactly at the positions ≡ 48 (mod 49): each core's last point. -/
theorem hcond2_1 : ∀ t : Fin cfg2.N, cond2_1 (grid2.coords t) ↔ t.val % 49 = 48 :=
  (by decide +kernel : ∀ t : Fin grid2.N, cond2_1 (grid2.coords t) ↔ t.val % 49 = 48)

/-! ## Where the windows are idle -/

/-- The four inputs are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
/-- At a core's first point the output is idle: nothing is stored into it, -/
theorem idleAt2_4_A : ∀ t : Fin cfg2.N, cond2_0 (grid2.coords t) → ¬cond2_1 (grid2.coords t) → cfg2.idle 4 (grid2.coords t) = true := by decide +kernel
/-- and its block is not written back there. -/
theorem noFlush2_4_A : ∀ t : Fin cfg2.N, cond2_0 (grid2.coords t) → ¬cond2_1 (grid2.coords t) → (cfg2.win 4).flush t = false := by decide +kernel
/-- The same at the middle points. -/
theorem idleAt2_4_B : ∀ t : Fin cfg2.N, ¬cond2_0 (grid2.coords t) → ¬cond2_1 (grid2.coords t) → cfg2.idle 4 (grid2.coords t) = true := by decide +kernel
theorem noFlush2_4_B : ∀ t : Fin cfg2.N, ¬cond2_0 (grid2.coords t) → ¬cond2_1 (grid2.coords t) → (cfg2.win 4).flush t = false := by decide +kernel
/-- At a core's last point the output is live: the accumulator is copied into it. -/
theorem liveAt2_4_C : ∀ t : Fin cfg2.N, ¬cond2_0 (grid2.coords t) → cond2_1 (grid2.coords t) → cfg2.idle 4 (grid2.coords t) = false := by decide +kernel

/-! ## The memrefs the body is called on -/

/-- One staging buffer of the output, through which its contents are stated (which one does not matter). -/
abbrev VO2_4 : View sig .tc .vmem S1x1024x64 .f32 := (Memref.whole cc2_stg4_0 : Memref sig .tc .vmem S1x1024x64 .f32).view
/-- Each window's current staging memref at point `t`, and its wholeness. -/
abbrev ms2_0 (t : Fin cfg2.N) : Memref sig .tc .vmem S1024x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1024 .i32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1024x64 .f32 := win2_4.stage (cfg2.slots t 4)
abbrev hs2_4 (t : Fin cfg2.N) : (ms2_4 t).IsWhole := hstage2_4 ((cfg2.slots t 4).cast nbuf2_4)
/-- The scratch accumulator: a whole scoped buffer of the kernel's own, passed beside the windows, -/
abbrev scM2_0 : Memref sig .tc .vmem S1024x64 .f32 := Memref.whole cc2_scratch0
/-- and the view through which its contents are stated. -/
abbrev VS2_0 : View sig .tc .vmem S1024x64 .f32 := scM2_0.view

/-- Every other scoped buffer of the core that is no staging buffer of this call (the other calls' staging buffers),
    at some contents each: carried through the region unopened. -/
def rest2 (c : Dev nD) : sProp 𝕄 :=
  Pipeline.scopedRestBut (Ix := Unit) (Name := ℕ) (U := UR sig nD τ) (Lvl := ℕ) (Val := Elt F) spec2 c [cc2_scratch0]

/-- The class invariant with the scratch split off as a memref owned at some contents. -/
theorem PhiA2_eq (c : Dev nD) :
    (Pipeline.ΦA spec2 c : sProp 𝕄)
      = iprop(iprop((∃ d, owns (c : Thread nD τ) scM2_0 fullShare d) ∗ rest2 (F := F) c) ∗ (∃ r, prngReg c r)) := by
  unfold Pipeline.ΦA rest2
  rw [Pipeline.scopedRest_split_of_list spec2 c [cc2_scratch0] (by decide) (by decide)]
  simp only [scM2_0, owns_whole]; try rfl

/-! ## The body's triple, case by case -/

set_option maxHeartbeats 1000000 in
/-- AT A CORE'S FIRST POINT (first conditional taken, second not). On whole memrefs, the inputs at their contents, the
    output at contents `xi4` that are handed back untouched, the scratch at anything, the body runs to the
    continuation holding the inputs as they were, the output as it was, and the scratch with its stores written: the
    zero block over all of it, then the point's product over all of it. The pieces stored are the witness. -/
noncomputable def kernelRun2_A (c : Dev nD) (i : grid2.Coords) (arg2 : Memref sig .tc .vmem S1024x64 .f32) (harg2 : arg2.IsWhole) (arg3 : Memref sig .tc .vmem S1024x1 .f32) (harg3 : arg3.IsWhole) (arg4 : Memref sig .tc .vmem S1x64 .f32) (harg4 : arg4.IsWhole) (arg5 : Memref sig .tc .vmem S1x1024 .i32) (harg5 : arg5.IsWhole) (arg6 : Memref sig .tc .vmem S1x1024x64 .f32) (harg6 : arg6.IsWhole) (arg7 : Memref sig .tc .vmem S1024x64 .f32) (harg7 : arg7.IsWhole) (hc0 : cond2_0 i) (hc1 : ¬cond2_1 i)
    (x0 : Vec F S1024x64 .f32) (x1 : Vec F S1024x1 .f32) (x2 : Vec F S1x64 .f32) (x3 : Vec F S1x1024 .i32) :
    Σ' (L4 : List (View.Piece (Elt F) S1x1024x64 .f32)), { LS0 : List (View.Piece (Elt F) S1024x64 .f32) //
      ∀ (xi4 : Vec F S1x1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc2__pool_kernel i arg2 harg2 arg3 harg3 arg4 harg4 arg5 harg5 arg6 harg6 arg7 harg7) K } := by
  refine ⟨[], ?_, fun xi4 E K => ?run⟩
  case run =>
    simp only [cc2__pool_kernel_eq_skeleton]; unfold cc2__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- AT A MIDDLE POINT (neither conditional taken). The same, the scratch coming in at the contents `xs0` the point
    before left: one store, the point's product added to `xs0`, over all of it. -/
noncomputable def kernelRun2_B (c : Dev nD) (i : grid2.Coords) (arg2 : Memref sig .tc .vmem S1024x64 .f32) (harg2 : arg2.IsWhole) (arg3 : Memref sig .tc .vmem S1024x1 .f32) (harg3 : arg3.IsWhole) (arg4 : Memref sig .tc .vmem S1x64 .f32) (harg4 : arg4.IsWhole) (arg5 : Memref sig .tc .vmem S1x1024 .i32) (harg5 : arg5.IsWhole) (arg6 : Memref sig .tc .vmem S1x1024x64 .f32) (harg6 : arg6.IsWhole) (arg7 : Memref sig .tc .vmem S1024x64 .f32) (harg7 : arg7.IsWhole) (hc0 : ¬cond2_0 i) (hc1 : ¬cond2_1 i)
    (x0 : Vec F S1024x64 .f32) (x1 : Vec F S1024x1 .f32) (x2 : Vec F S1x64 .f32) (x3 : Vec F S1x1024 .i32) (xs0 : Vec F S1024x64 .f32) :
    Σ' (L4 : List (View.Piece (Elt F) S1x1024x64 .f32)), { LS0 : List (View.Piece (Elt F) S1024x64 .f32) //
      ∀ (xi4 : Vec F S1x1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc2__pool_kernel i arg2 harg2 arg3 harg3 arg4 harg4 arg5 harg5 arg6 harg6 arg7 harg7) K } := by
  refine ⟨[], ?_, fun xi4 E K => ?run⟩
  case run =>
    simp only [cc2__pool_kernel_eq_skeleton]; unfold cc2__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- AT A CORE'S LAST POINT (first conditional not taken, second taken). The output comes in at anything and ends with
    its one store written, the accumulator recast to the output block's shape, over all of it; the scratch as at a
    middle point. -/
noncomputable def kernelRun2_C (c : Dev nD) (i : grid2.Coords) (arg2 : Memref sig .tc .vmem S1024x64 .f32) (harg2 : arg2.IsWhole) (arg3 : Memref sig .tc .vmem S1024x1 .f32) (harg3 : arg3.IsWhole) (arg4 : Memref sig .tc .vmem S1x64 .f32) (harg4 : arg4.IsWhole) (arg5 : Memref sig .tc .vmem S1x1024 .i32) (harg5 : arg5.IsWhole) (arg6 : Memref sig .tc .vmem S1x1024x64 .f32) (harg6 : arg6.IsWhole) (arg7 : Memref sig .tc .vmem S1024x64 .f32) (harg7 : arg7.IsWhole) (hc0 : ¬cond2_0 i) (hc1 : cond2_1 i)
    (x0 : Vec F S1024x64 .f32) (x1 : Vec F S1024x1 .f32) (x2 : Vec F S1x64 .f32) (x3 : Vec F S1x1024 .i32) (xs0 : Vec F S1024x64 .f32) :
    Σ' (L4 : List (View.Piece (Elt F) S1x1024x64 .f32)), { LS0 : List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc2__pool_kernel i arg2 harg2 arg3 harg3 arg4 harg4 arg5 harg5 arg6 harg6 arg7 harg7) K } := by
  refine ⟨?_, ?_, fun E K => ?run⟩
  case run =>
    simp only [cc2__pool_kernel_eq_skeleton]; unfold cc2__pool_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

/-! ## What each case leaves in the output's staging buffer and in the scratch -/

/-- At a core's first point nothing is stored into the output: no pieces, a placeholder that nothing consults (the window is
    neither written back there nor read at the next point). -/
def out2_A_4 (c : Dev nD) (i : grid2.Coords) (arg2 : Memref sig .tc .vmem S1024x64 .f32) (harg2 : arg2.IsWhole) (arg3 : Memref sig .tc .vmem S1024x1 .f32) (harg3 : arg3.IsWhole) (arg4 : Memref sig .tc .vmem S1x64 .f32) (harg4 : arg4.IsWhole) (arg5 : Memref sig .tc .vmem S1x1024 .i32) (harg5 : arg5.IsWhole) (arg6 : Memref sig .tc .vmem S1x1024x64 .f32) (harg6 : arg6.IsWhole) (arg7 : Memref sig .tc .vmem S1024x64 .f32) (harg7 : arg7.IsWhole) (hc0 : cond2_0 i) (hc1 : ¬cond2_1 i)
    (x0 : Vec F S1024x64 .f32) (x1 : Vec F S1024x1 .f32) (x2 : Vec F S1x64 .f32) (x3 : Vec F S1x1024 .i32) : Vec F S1x1024x64 .f32 :=
  VO2_4.read (Elt F) (VO2_4.writes (Elt F) VO2_4.junk (kernelRun2_A c i arg2 harg2 arg3 harg3 arg4 harg4 arg5 harg5 arg6 harg6 arg7 harg7 hc0 hc1 x0 x1 x2 x3).1)

/-- At a core's first point the stores into the scratch cover it (each is the whole buffer). -/
theorem scover2_A_0 (c : Dev nD) (i : grid2.Coords) (arg2 : Memref sig .tc .vmem S1024x64 .f32) (harg2 : arg2.IsWhole) (arg3 : Memref sig .tc .vmem S1024x1 .f32) (harg3 : arg3.IsWhole) (arg4 : Memref sig .tc .vmem S1x64 .f32) (harg4 : arg4.IsWhole) (arg5 : Memref sig .tc .vmem S1x1024 .i32) (harg5 : arg5.IsWhole) (arg6 : Memref sig .tc .vmem S1x1024x64 .f32) (harg6 : arg6.IsWhole) (arg7 : Memref sig .tc .vmem S1024x64 .f32) (harg7 : arg7.IsWhole) (hc0 : cond2_0 i) (hc1 : ¬cond2_1 i)
    (x0 : Vec F S1024x64 .f32) (x1 : Vec F S1024x1 .f32) (x2 : Vec F S1x64 .f32) (x3 : Vec F S1x1024 .i32) (y : S1024x64.Idx) :
    ∃ pc ∈ (kernelRun2_A c i arg2 harg2 arg3 harg3 arg4 harg4 arg5 harg5 arg6 harg6 arg7 harg7 hc0 hc1 x0 x1 x2 x3).2.1, y ∈ pc.1.set :=
  View.cover_of_tiledL (kernelRun2_A c i arg2 harg2 arg3 harg3 arg4 harg4 arg5 harg5 arg6 harg6 arg7 harg7 hc0 hc1 x0 x1 x2 x3).2.1 S1024x64.size (by sl_kernel_rfl) y

/-- What the scratch holds after a core's first point: its stores read back. -/
def sout2_A_0 (c : Dev nD) (i : grid2.Coords) (arg2 : Memref sig .tc .vmem S1024x64 .f32) (harg2 : arg2.IsWhole) (arg3 : Memref sig .tc .vmem S1024x1 .f32) (harg3 : arg3.IsWhole) (arg4 : Memref sig .tc .vmem S1x64 .f32) (harg4 : arg4.IsWhole) (arg5 : Memref sig .tc .vmem S1x1024 .i32) (harg5 : arg5.IsWhole) (arg6 : Memref sig .tc .vmem S1x1024x64 .f32) (harg6 : arg6.IsWhole) (arg7 : Memref sig .tc .vmem S1024x64 .f32) (harg7 : arg7.IsWhole) (hc0 : cond2_0 i) (hc1 : ¬cond2_1 i)
    (x0 : Vec F S1024x64 .f32) (x1 : Vec F S1024x1 .f32) (x2 : Vec F S1x64 .f32) (x3 : Vec F S1x1024 .i32) : Vec F S1024x64 .f32 :=
  VS2_0.read (Elt F) (VS2_0.writes (Elt F) VS2_0.junk (kernelRun2_A c i arg2 harg2 arg3 harg3 arg4 harg4 arg5 harg5 arg6 harg6 arg7 harg7 hc0 hc1 x0 x1 x2 x3).2.1)

/-- At a middle point nothing is stored into the output: no pieces, a placeholder that nothing consults (the window is
    neither written back there nor read at the next point). -/
def out2_B_4 (c : Dev nD) (i : grid2.Coords) (arg2 : Memref sig .tc .vmem S1024x64 .f32) (harg2 : arg2.IsWhole) (arg3 : Memref sig .tc .vmem S1024x1 .f32) (harg3 : arg3.IsWhole) (arg4 : Memref sig .tc .vmem S1x64 .f32) (harg4 : arg4.IsWhole) (arg5 : Memref sig .tc .vmem S1x1024 .i32) (harg5 : arg5.IsWhole) (arg6 : Memref sig .tc .vmem S1x1024x64 .f32) (harg6 : arg6.IsWhole) (arg7 : Memref sig .tc .vmem S1024x64 .f32) (harg7 : arg7.IsWhole) (hc0 : ¬cond2_0 i) (hc1 : ¬cond2_1 i)
    (x0 : Vec F S1024x64 .f32) (x1 : Vec F S1024x1 .f32) (x2 : Vec F S1x64 .f32) (x3 : Vec F S1x1024 .i32) (xs0 : Vec F S1024x64 .f32) : Vec F S1x1024x64 .f32 :=
  VO2_4.read (Elt F) (VO2_4.writes (Elt F) VO2_4.junk (kernelRun2_B c i arg2 harg2 arg3 harg3 arg4 harg4 arg5 harg5 arg6 harg6 arg7 harg7 hc0 hc1 x0 x1 x2 x3 xs0).1)

/-- At a middle point the stores into the scratch cover it (each is the whole buffer). -/
theorem scover2_B_0 (c : Dev nD) (i : grid2.Coords) (arg2 : Memref sig .tc .vmem S1024x64 .f32) (harg2 : arg2.IsWhole) (arg3 : Memref sig .tc .vmem S1024x1 .f32) (harg3 : arg3.IsWhole) (arg4 : Memref sig .tc .vmem S1x64 .f32) (harg4 : arg4.IsWhole) (arg5 : Memref sig .tc .vmem S1x1024 .i32) (harg5 : arg5.IsWhole) (arg6 : Memref sig .tc .vmem S1x1024x64 .f32) (harg6 : arg6.IsWhole) (arg7 : Memref sig .tc .vmem S1024x64 .f32) (harg7 : arg7.IsWhole) (hc0 : ¬cond2_0 i) (hc1 : ¬cond2_1 i)
    (x0 : Vec F S1024x64 .f32) (x1 : Vec F S1024x1 .f32) (x2 : Vec F S1x64 .f32) (x3 : Vec F S1x1024 .i32) (xs0 : Vec F S1024x64 .f32) (y : S1024x64.Idx) :
    ∃ pc ∈ (kernelRun2_B c i arg2 harg2 arg3 harg3 arg4 harg4 arg5 harg5 arg6 harg6 arg7 harg7 hc0 hc1 x0 x1 x2 x3 xs0).2.1, y ∈ pc.1.set :=
  View.cover_of_tiledL (kernelRun2_B c i arg2 harg2 arg3 harg3 arg4 harg4 arg5 harg5 arg6 harg6 arg7 harg7 hc0 hc1 x0 x1 x2 x3 xs0).2.1 S1024x64.size (by sl_kernel_rfl) y

/-- What the scratch holds after a middle point: its stores read back. -/
def sout2_B_0 (c : Dev nD) (i : grid2.Coords) (arg2 : Memref sig .tc .vmem S1024x64 .f32) (harg2 : arg2.IsWhole) (arg3 : Memref sig .tc .vmem S1024x1 .f32) (harg3 : arg3.IsWhole) (arg4 : Memref sig .tc .vmem S1x64 .f32) (harg4 : arg4.IsWhole) (arg5 : Memref sig .tc .vmem S1x1024 .i32) (harg5 : arg5.IsWhole) (arg6 : Memref sig .tc .vmem S1x1024x64 .f32) (harg6 : arg6.IsWhole) (arg7 : Memref sig .tc .vmem S1024x64 .f32) (harg7 : arg7.IsWhole) (hc0 : ¬cond2_0 i) (hc1 : ¬cond2_1 i)
    (x0 : Vec F S1024x64 .f32) (x1 : Vec F S1024x1 .f32) (x2 : Vec F S1x64 .f32) (x3 : Vec F S1x1024 .i32) (xs0 : Vec F S1024x64 .f32) : Vec F S1024x64 .f32 :=
  VS2_0.read (Elt F) (VS2_0.writes (Elt F) VS2_0.junk (kernelRun2_B c i arg2 harg2 arg3 harg3 arg4 harg4 arg5 harg5 arg6 harg6 arg7 harg7 hc0 hc1 x0 x1 x2 x3 xs0).2.1)

/-- At a core's last point the one store into the output covers its block. -/
theorem cover2_C_4 (c : Dev nD) (i : grid2.Coords) (arg2 : Memref sig .tc .vmem S1024x64 .f32) (harg2 : arg2.IsWhole) (arg3 : Memref sig .tc .vmem S1024x1 .f32) (harg3 : arg3.IsWhole) (arg4 : Memref sig .tc .vmem S1x64 .f32) (harg4 : arg4.IsWhole) (arg5 : Memref sig .tc .vmem S1x1024 .i32) (harg5 : arg5.IsWhole) (arg6 : Memref sig .tc .vmem S1x1024x64 .f32) (harg6 : arg6.IsWhole) (arg7 : Memref sig .tc .vmem S1024x64 .f32) (harg7 : arg7.IsWhole) (hc0 : ¬cond2_0 i) (hc1 : cond2_1 i)
    (x0 : Vec F S1024x64 .f32) (x1 : Vec F S1024x1 .f32) (x2 : Vec F S1x64 .f32) (x3 : Vec F S1x1024 .i32) (xs0 : Vec F S1024x64 .f32) (y : S1x1024x64.Idx) :
    ∃ pc ∈ (kernelRun2_C c i arg2 harg2 arg3 harg3 arg4 harg4 arg5 harg5 arg6 harg6 arg7 harg7 hc0 hc1 x0 x1 x2 x3 xs0).1, y ∈ pc.1.set :=
  View.cover_of_tiledL (kernelRun2_C c i arg2 harg2 arg3 harg3 arg4 harg4 arg5 harg5 arg6 harg6 arg7 harg7 hc0 hc1 x0 x1 x2 x3 xs0).1 S1x1024x64.size (by sl_kernel_rfl) y

/-- What it leaves there: the store read back. -/
def out2_C_4 (c : Dev nD) (i : grid2.Coords) (arg2 : Memref sig .tc .vmem S1024x64 .f32) (harg2 : arg2.IsWhole) (arg3 : Memref sig .tc .vmem S1024x1 .f32) (harg3 : arg3.IsWhole) (arg4 : Memref sig .tc .vmem S1x64 .f32) (harg4 : arg4.IsWhole) (arg5 : Memref sig .tc .vmem S1x1024 .i32) (harg5 : arg5.IsWhole) (arg6 : Memref sig .tc .vmem S1x1024x64 .f32) (harg6 : arg6.IsWhole) (arg7 : Memref sig .tc .vmem S1024x64 .f32) (harg7 : arg7.IsWhole) (hc0 : ¬cond2_0 i) (hc1 : cond2_1 i)
    (x0 : Vec F S1024x64 .f32) (x1 : Vec F S1024x1 .f32) (x2 : Vec F S1x64 .f32) (x3 : Vec F S1x1024 .i32) (xs0 : Vec F S1024x64 .f32) : Vec F S1x1024x64 .f32 :=
  VO2_4.read (Elt F) (VO2_4.writes (Elt F) VO2_4.junk (kernelRun2_C c i arg2 harg2 arg3 harg3 arg4 harg4 arg5 harg5 arg6 harg6 arg7 harg7 hc0 hc1 x0 x1 x2 x3 xs0).1)

/-- At a core's last point the stores into the scratch cover it (each is the whole buffer). -/
theorem scover2_C_0 (c : Dev nD) (i : grid2.Coords) (arg2 : Memref sig .tc .vmem S1024x64 .f32) (harg2 : arg2.IsWhole) (arg3 : Memref sig .tc .vmem S1024x1 .f32) (harg3 : arg3.IsWhole) (arg4 : Memref sig .tc .vmem S1x64 .f32) (harg4 : arg4.IsWhole) (arg5 : Memref sig .tc .vmem S1x1024 .i32) (harg5 : arg5.IsWhole) (arg6 : Memref sig .tc .vmem S1x1024x64 .f32) (harg6 : arg6.IsWhole) (arg7 : Memref sig .tc .vmem S1024x64 .f32) (harg7 : arg7.IsWhole) (hc0 : ¬cond2_0 i) (hc1 : cond2_1 i)
    (x0 : Vec F S1024x64 .f32) (x1 : Vec F S1024x1 .f32) (x2 : Vec F S1x64 .f32) (x3 : Vec F S1x1024 .i32) (xs0 : Vec F S1024x64 .f32) (y : S1024x64.Idx) :
    ∃ pc ∈ (kernelRun2_C c i arg2 harg2 arg3 harg3 arg4 harg4 arg5 harg5 arg6 harg6 arg7 harg7 hc0 hc1 x0 x1 x2 x3 xs0).2.1, y ∈ pc.1.set :=
  View.cover_of_tiledL (kernelRun2_C c i arg2 harg2 arg3 harg3 arg4 harg4 arg5 harg5 arg6 harg6 arg7 harg7 hc0 hc1 x0 x1 x2 x3 xs0).2.1 S1024x64.size (by sl_kernel_rfl) y

/-- What the scratch holds after a core's last point: its stores read back. -/
def sout2_C_0 (c : Dev nD) (i : grid2.Coords) (arg2 : Memref sig .tc .vmem S1024x64 .f32) (harg2 : arg2.IsWhole) (arg3 : Memref sig .tc .vmem S1024x1 .f32) (harg3 : arg3.IsWhole) (arg4 : Memref sig .tc .vmem S1x64 .f32) (harg4 : arg4.IsWhole) (arg5 : Memref sig .tc .vmem S1x1024 .i32) (harg5 : arg5.IsWhole) (arg6 : Memref sig .tc .vmem S1x1024x64 .f32) (harg6 : arg6.IsWhole) (arg7 : Memref sig .tc .vmem S1024x64 .f32) (harg7 : arg7.IsWhole) (hc0 : ¬cond2_0 i) (hc1 : cond2_1 i)
    (x0 : Vec F S1024x64 .f32) (x1 : Vec F S1024x1 .f32) (x2 : Vec F S1x64 .f32) (x3 : Vec F S1x1024 .i32) (xs0 : Vec F S1024x64 .f32) : Vec F S1024x64 .f32 :=
  VS2_0.read (Elt F) (VS2_0.writes (Elt F) VS2_0.junk (kernelRun2_C c i arg2 harg2 arg3 harg3 arg4 harg4 arg5 harg5 arg6 harg6 arg7 harg7 hc0 hc1 x0 x1 x2 x3 xs0).2.1)

/-! ## What they hold after each point -/

/-- THE ACCUMULATION. What the output's staging buffer and the scratch hold after the body at position `n` (a pair):
    the case the closed forms select at `n`, run at the point's memrefs and input blocks, the scratch coming in at what
    position `n - 1` left in it. Both conditions at once is no case. -/
def outsAt2 (c : Dev nD) : (n : ℕ) → n < cfg2.N → Vec F S1x1024x64 .f32 × Vec F S1024x64 .f32
  | 0, hn => (out2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) ((hcond2_0 ⟨0, hn⟩).mpr (Nat.zero_mod _)) (fun h => (fun h => by (try dsimp only at h); omega) ((hcond2_1 ⟨0, hn⟩).mp h)) (xa2 V c ⟨0, hn⟩) (xd2 V c ⟨0, hn⟩) (xb2 V c ⟨0, hn⟩) (xg2 V c ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) ((hcond2_0 ⟨0, hn⟩).mpr (Nat.zero_mod _)) (fun h => (fun h => by (try dsimp only at h); omega) ((hcond2_1 ⟨0, hn⟩).mp h)) (xa2 V c ⟨0, hn⟩) (xd2 V c ⟨0, hn⟩) (xb2 V c ⟨0, hn⟩) (xg2 V c ⟨0, hn⟩))
  | n + 1, hn =>
    if h0 : (n + 1) % 49 = 0 then
      if h1 : (n + 1) % 49 = 48 then
        False.elim (by omega)
      else
        (out2_A_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) ((hcond2_0 ⟨n + 1, hn⟩).mpr h0) (fun h => h1 ((hcond2_1 ⟨n + 1, hn⟩).mp h)) (xa2 V c ⟨n + 1, hn⟩) (xd2 V c ⟨n + 1, hn⟩) (xb2 V c ⟨n + 1, hn⟩) (xg2 V c ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) ((hcond2_0 ⟨n + 1, hn⟩).mpr h0) (fun h => h1 ((hcond2_1 ⟨n + 1, hn⟩).mp h)) (xa2 V c ⟨n + 1, hn⟩) (xd2 V c ⟨n + 1, hn⟩) (xb2 V c ⟨n + 1, hn⟩) (xg2 V c ⟨n + 1, hn⟩))
    else
      if h1 : (n + 1) % 49 = 48 then
        (out2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) ((hcond2_1 ⟨n + 1, hn⟩).mpr h1) (xa2 V c ⟨n + 1, hn⟩) (xd2 V c ⟨n + 1, hn⟩) (xb2 V c ⟨n + 1, hn⟩) (xg2 V c ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) ((hcond2_1 ⟨n + 1, hn⟩).mpr h1) (xa2 V c ⟨n + 1, hn⟩) (xd2 V c ⟨n + 1, hn⟩) (xb2 V c ⟨n + 1, hn⟩) (xg2 V c ⟨n + 1, hn⟩) (outsAt2 c n (Nat.lt_of_succ_lt hn)).2)
      else
        (out2_B_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) (fun h => h1 ((hcond2_1 ⟨n + 1, hn⟩).mp h)) (xa2 V c ⟨n + 1, hn⟩) (xd2 V c ⟨n + 1, hn⟩) (xb2 V c ⟨n + 1, hn⟩) (xg2 V c ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) (fun h => h1 ((hcond2_1 ⟨n + 1, hn⟩).mp h)) (xa2 V c ⟨n + 1, hn⟩) (xd2 V c ⟨n + 1, hn⟩) (xb2 V c ⟨n + 1, hn⟩) (xg2 V c ⟨n + 1, hn⟩) (outsAt2 c n (Nat.lt_of_succ_lt hn)).2)

/-- `outsAt2` at a core's first point. -/
theorem outsAt2_A (c : Dev nD) (t : Fin cfg2.N) (h0 : t.val % 49 = 0) (h1 : ¬t.val % 49 = 48) :
    outsAt2 V c t.val t.isLt = (out2_A_4 c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) (xa2 V c t) (xd2 V c t) (xb2 V c t) (xg2 V c t), sout2_A_0 c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) (xa2 V c t) (xd2 V c t) (xb2 V c t) (xg2 V c t)) := by
  obtain ⟨n, hn⟩ := t
  cases n with
  | zero => exact rfl
  | succ n => exact (dif_pos h0).trans ((dif_neg h1).trans rfl)

/-- `outsAt2` at a middle point: over what the point before left in the scratch. -/
theorem outsAt2_B (c : Dev nD) (t : Fin cfg2.N) (h0 : ¬t.val % 49 = 0) (h1 : ¬t.val % 49 = 48) :
    outsAt2 V c t.val t.isLt = (out2_B_4 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) (xa2 V c t) (xd2 V c t) (xb2 V c t) (xg2 V c t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) (xa2 V c t) (xd2 V c t) (xb2 V c t) (xg2 V c t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt2` at a core's last point: over what the point before left in the scratch. -/
theorem outsAt2_C (c : Dev nD) (t : Fin cfg2.N) (h0 : ¬t.val % 49 = 0) (h1 : t.val % 49 = 48) :
    outsAt2 V c t.val t.isLt = (out2_C_4 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (xa2 V c t) (xd2 V c t) (xb2 V c t) (xg2 V c t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (xa2 V c t) (xd2 V c t) (xb2 V c t) (xg2 V c t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the scratch -/

/-- The region invariant before position `n`: before the first point the class's (the scratch at anything);
    afterwards the scratch at what the point before left in it, the other scoped buffers unopened, the generator
    register at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ rest2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((outsAt2 V c n hn).2) ∗ rest2 (F := F) c) ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ rest2 (F := F) c) ∗ (∃ r, prngReg c r)) := by
  cases n with
  | zero => exact absurd rfl hz
  | succ n => rfl

/-! ## The proof data -/

/-- The proof data of the third pipeline on core `c`: the arrays as the region finds them; after the body at point
    `t` each input's buffer at its block and the output's at `outsAt2`'s first component; the invariant that carries
    the scratch; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

/-- The invariant at a point's start, restated at the point's position. -/
theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point. The inputs' memrefs hold their blocks; the closed forms say which case the point is in;
    that case's triple applies. The invariant hands the body the scratch (at anything before the first point, at what
    the point before left afterwards) and takes it back at this point's contents, the stores covering it; the other
    scoped buffers and the generator register pass through; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hN : t.val < 98 := lt_of_lt_of_eq t.isLt (show cfg2.N = 98 from N_2)
  by_cases h0 : t.val % 49 = 0
  · by_cases h1 : t.val % 49 = 48
    · exfalso; omega
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [Dat.leavesExact_idle (dat2 V c) 4 t (idleAt2_4_A t ((hcond2_0 t).mpr h0) (fun h => h1 ((hcond2_1 t).mp h))) (noFlush2_4_A t ((hcond2_0 t).mpr h0) (fun h => h1 ((hcond2_1 t).mp h)))]
      rw [outsAt2_A V c t h0 h1]
      unfold sout2_A_0; (try dsimp only)
      by_cases hz : t.val = 0
      · rw [PhiS2_castSucc V c t, PhiS2_zero V c _ _ hz, PhiA2_eq]
        iintro ⟨⟨⟨HS0, Hr⟩, Hg⟩, Ho, ⟨%d0, H0⟩, ⟨%d1, H1⟩, ⟨%d2, H2⟩, ⟨%d3, H3⟩, ⟨%d4, H4⟩⟩
        iapply ((kernelRun2_A c (grid2.coords t) _ _ _ _ _ _ _ _ _ _ _ _ ((hcond2_0 t).mpr h0) (fun h => h1 ((hcond2_1 t).mp h)) (xa2 V c t) (xd2 V c t) (xb2 V c t) (xg2 V c t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover2_A_0 c _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        iexists _; iexact H4
      · rw [PhiS2_castSucc V c t, PhiS2_pos V c _ _ hz]
        iintro ⟨⟨⟨HS0, Hr⟩, Hg⟩, Ho, ⟨%d0, H0⟩, ⟨%d1, H1⟩, ⟨%d2, H2⟩, ⟨%d3, H3⟩, ⟨%d4, H4⟩⟩
        iapply ((kernelRun2_A c (grid2.coords t) _ _ _ _ _ _ _ _ _ _ _ _ ((hcond2_0 t).mpr h0) (fun h => h1 ((hcond2_1 t).mp h)) (xa2 V c t) (xd2 V c t) (xb2 V c t) (xg2 V c t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover2_A_0 c _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        iexists _; iexact H4
  · by_cases h1 : t.val % 49 = 48
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4_C t (fun h => h0 ((hcond2_0 t).mp h)) ((hcond2_1 t).mpr h1)], after2_4]
      rw [outsAt2_C V c t h0 h1]
      unfold out2_C_4 sout2_C_0; (try dsimp only)
      by_cases hz : t.val = 0
      · exfalso; omega
      · rw [PhiS2_castSucc V c t, PhiS2_pos V c _ _ hz]
        iintro ⟨⟨⟨HS0, Hr⟩, Hg⟩, Ho, ⟨%d0, H0⟩, ⟨%d1, H1⟩, ⟨%d2, H2⟩, ⟨%d3, H3⟩, ⟨%d4, H4⟩⟩
        iapply ((kernelRun2_C c (grid2.coords t) _ _ _ _ _ _ _ _ _ _ _ _ (fun h => h0 ((hcond2_0 t).mp h)) ((hcond2_1 t).mpr h1) (xa2 V c t) (xd2 V c t) (xb2 V c t) (xg2 V c t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover2_C_0 c _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover2_C_4 c _ _ _ _ _ _ _ _ _ _ _ _ _ _ _ _ _ _ _ _)
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [Dat.leavesExact_idle (dat2 V c) 4 t (idleAt2_4_B t (fun h => h0 ((hcond2_0 t).mp h)) (fun h => h1 ((hcond2_1 t).mp h))) (noFlush2_4_B t (fun h => h0 ((hcond2_0 t).mp h)) (fun h => h1 ((hcond2_1 t).mp h)))]
      rw [outsAt2_B V c t h0 h1]
      unfold sout2_B_0; (try dsimp only)
      by_cases hz : t.val = 0
      · exfalso; omega
      · rw [PhiS2_castSucc V c t, PhiS2_pos V c _ _ hz]
        iintro ⟨⟨⟨HS0, Hr⟩, Hg⟩, Ho, ⟨%d0, H0⟩, ⟨%d1, H1⟩, ⟨%d2, H2⟩, ⟨%d3, H3⟩, ⟨%d4, H4⟩⟩
        iapply ((kernelRun2_B c (grid2.coords t) _ _ _ _ _ _ _ _ _ _ _ _ (fun h => h0 ((hcond2_0 t).mp h)) (fun h => h1 ((hcond2_1 t).mp h)) (xa2 V c t) (xd2 V c t) (xb2 V c t) (xg2 V c t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover2_B_0 c _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: the scratch's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, Hr⟩, Hg⟩
  isplitl [HS0 Hr]
  · isplitl [HS0]
    · iexists _; iexact HS0
    iexact Hr
  iexact Hg

/-- The same after the last point. -/
theorem hout2 (c : Dev nD) : (dat2 V c).Φ (Fin.last cfg2.N) ⊢ Pipeline.ΦA spec2 c :=
  Phi_out2 V c _ (by rw [Fin.val_last]; have : cfg2.N = 98 := N_2; omega)

/-- The core owes nothing at any point. -/
theorem owed2 (c : Dev nD) (t) : (dat2 V c).owed t = 0 := rfl

end Region2

end Cert.Kernel.Gen

end
-- ==== Proof.KB.Run.lean ====
/-
  The run of the whole program: the buffer contents at every boundary of @main as a fold from the launch memory, the three
  regions as segments between the host stretches, and the launch: every weakly fair execution terminates with every
  unscoped buffer at the last boundary's contents.
-/
import proofs.«400187_j27350351741543_3_alg».proof.Proof.KB.Reg1
import proofs.«400187_j27350351741543_3_alg».proof.Proof.KB.Reg2
import proofs.«400187_j27350351741543_3_alg».proof.Proof.Gen.Kernel.Regions

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

section Run
variable (m : (ℓ : Loc nD τ sig) → Buf (Elt F) ℓ) (ρ : Dev nD → PrngReg)

/-! ## The buffer contents at each boundary of @main

Between two items of @main every unscoped buffer holds a value that is a function of the launch memory: a host
stretch applies its operations; a kernel region replaces its output array by what its write-backs leave. -/

/-- The contents the first region is entered with, read at the TensorCore's references. -/
abbrev E3 : (c : Dev nD) → (b : Ref sig .tc) → Buf (Elt F) ((c : Thread nD τ).loc b) := fun c b => V3 m c b
/-- What the first region leaves in its output array: the scaled feature transform, block by block. -/
def o4 (c : Dev nD) : Buf (Elt F) ((c : Thread nD τ).loc main_v16) := (dat0 (E3 m) c).arrAt 3 cfg0.N
/-- After the first region. -/
def U4 (c : Dev nD) : Valuation τ sig (Elt F) := Function.update (V3 m c) main_v16 (o4 m c)
/-- After the gather and scatter-add between the first two regions. -/
def U5 (c : Dev nD) : Valuation τ sig (Elt F) := StableHlo.after hostOps1 (U4 m c)
abbrev E5 : (c : Dev nD) → (b : Ref sig .tc) → Buf (Elt F) ((c : Thread nD τ).loc b) := fun c b => U5 m c b
/-- What the second region leaves in its output array. -/
def o6 (c : Dev nD) : Buf (Elt F) ((c : Thread nD τ).loc main_v28) := (dat1 (E5 m) c).arrAt 4 cfg1.N
def U6 (c : Dev nD) : Valuation τ sig (Elt F) := Function.update (U5 m c) main_v28 (o6 m c)
def U7 (c : Dev nD) : Valuation τ sig (Elt F) := StableHlo.after hostOps2 (U6 m c)
def U8 (c : Dev nD) : Valuation τ sig (Elt F) := StableHlo.after hostOps2_1 (U7 m c)
def U9 (c : Dev nD) : Valuation τ sig (Elt F) := StableHlo.after hostOps2_2 (U8 m c)
def U10 (c : Dev nD) : Valuation τ sig (Elt F) := StableHlo.after hostOps2_3 (U9 m c)
def U11 (c : Dev nD) : Valuation τ sig (Elt F) := StableHlo.after hostOps2_4 (U10 m c)
abbrev E11 : (c : Dev nD) → (b : Ref sig .tc) → Buf (Elt F) ((c : Thread nD τ).loc b) := fun c b => U11 m c b
/-- What the third region leaves in its output array: the two cores' pooled partial sums. -/
def o12 (c : Dev nD) : Buf (Elt F) ((c : Thread nD τ).loc main_v43) := (dat2 (E11 m) c).arrAt 4 cfg2.N
def U12 (c : Dev nD) : Valuation τ sig (Elt F) := Function.update (U11 m c) main_v43 (o12 m c)
def U13 (c : Dev nD) : Valuation τ sig (Elt F) := StableHlo.after hostOps3 (U12 m c)

/-- What the three regions leave, as the unknowns the boundary valuations are written over. -/
def outs : Outs (F := F) := fun J r c => match J with
  | 4 => U4 m c r
  | 6 => U6 m c r
  | _ => U12 m c r

/-! ## The generated boundary valuations at these unknowns are the ones above -/

theorem V4_eq (c : Dev nD) : V4 m (outs m ) c = U4 m c := by
  unfold V4 outs U4; simp only [Function.update_self]
theorem V5_eq (c : Dev nD) : V5 m (outs m ) c = U5 m c := by unfold V5 U5; rw [V4_eq]
theorem V6_eq (c : Dev nD) : V6 m (outs m ) c = U6 m c := by
  unfold V6; rw [V5_eq]; unfold outs U6; simp only [Function.update_self]
theorem V7_eq (c : Dev nD) : V7 m (outs m ) c = U7 m c := by unfold V7 U7; rw [V6_eq]
theorem V8_eq (c : Dev nD) : V8 m (outs m ) c = U8 m c := by unfold V8 U8; rw [V7_eq]
theorem V9_eq (c : Dev nD) : V9 m (outs m ) c = U9 m c := by unfold V9 U9; rw [V8_eq]
theorem V10_eq (c : Dev nD) : V10 m (outs m ) c = U10 m c := by unfold V10 U10; rw [V9_eq]
theorem V11_eq (c : Dev nD) : V11 m (outs m ) c = U11 m c := by unfold V11 U11; rw [V10_eq]
theorem V12_eq (c : Dev nD) : V12 m (outs m ) c = U12 m c := by
  unfold V12; rw [V11_eq]; unfold outs U12; simp only [Function.update_self]
theorem V13_eq (c : Dev nD) : V13 m (outs m ) c = U13 m c := by unfold V13 U13; rw [V12_eq]

/-! ## The proof data family and the thread state -/

/-- Every pipeline's proof data, each at its region's entry contents. -/
def pdats : (p : Fin 3) → (c : Dev nD) → Dat τ (Elt F) Unit ℕ (UR sig nD τ) ℕ (cfgs p) c
  | ⟨0, _⟩ => fun c => dat0 (E3 m) c
  | ⟨1, _⟩ => fun c => dat1 (E5 m) c
  | ⟨2, _⟩ => fun c => dat2 (E11 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its
    debts, which are none. -/
abbrev R (c : Dev nD) : sProp 𝕄 := iprop((∃ r, prngReg c r) ∗ ∃ W, owes (c : Thread nD τ) (0 : CellTallies nD τ sig Unit) W)
abbrev ER : Fin 4 → Dev nD → sProp 𝕄 := fun _ c => R c

/-! ## A region's exit contents: its output array at what the write-backs leave, every other buffer as entered -/

theorem U4_of (c : Dev nD) (r : Ref sig .tc) (h : r ∉ ([main_v16] : List (Ref sig .tc))) : U4 m c r = V3 m c r := by
  simp only [U4, Function.update_of_ne (StableHlo.devRef_ne_of_ne (List.ne_of_not_mem_cons h) : (Proc.devRef .tc r : DevRef τ sig) ≠ Proc.devRef .tc main_v16)]
theorem U4_out (c : Dev nD) : U4 m c main_v16 = o4 m c := by unfold U4; simp only [Function.update_self]
theorem U6_of (c : Dev nD) (r : Ref sig .tc) (h : r ∉ ([main_v28] : List (Ref sig .tc))) : U6 m c r = U5 m c r := by
  simp only [U6, Function.update_of_ne (StableHlo.devRef_ne_of_ne (List.ne_of_not_mem_cons h) : (Proc.devRef .tc r : DevRef τ sig) ≠ Proc.devRef .tc main_v28)]
theorem U6_out (c : Dev nD) : U6 m c main_v28 = o6 m c := by unfold U6; simp only [Function.update_self]
theorem U12_of (c : Dev nD) (r : Ref sig .tc) (h : r ∉ ([main_v43] : List (Ref sig .tc))) : U12 m c r = U11 m c r := by
  simp only [U12, Function.update_of_ne (StableHlo.devRef_ne_of_ne (List.ne_of_not_mem_cons h) : (Proc.devRef .tc r : DevRef τ sig) ≠ Proc.devRef .tc main_v43)]
theorem U12_out (c : Dev nD) : U12 m c main_v43 = o12 m c := by unfold U12; simp only [Function.update_self]

theorem hF0 (c : Dev nD) (w : Fin cfg0.W) : (pdats m 0 c).arrAt w cfg0.N = U4 m c (Pipeline.arrRef spec0 w) := by
  match w with
  | ⟨0, _⟩ => exact ((dat0 (E3 m) c).arrAt_in 0 rfl _).trans ((A_eq0 (E3 m) c 0).trans (U4_of m c main_arg0 (by decide)).symm)
  | ⟨1, _⟩ => exact ((dat0 (E3 m) c).arrAt_in 1 rfl _).trans ((A_eq0 (E3 m) c 1).trans (U4_of m c main_arg3 (by decide)).symm)
  | ⟨2, _⟩ => exact ((dat0 (E3 m) c).arrAt_in 2 rfl _).trans ((A_eq0 (E3 m) c 2).trans (U4_of m c main_v15 (by decide)).symm)
  | ⟨3, _⟩ => exact (U4_out m c).symm
theorem hrest0 (c : Dev nD) : ∀ b, b ∉ Finset.univ.image (Pipeline.arrRef spec0) → U4 m c b = E3 m c b :=
  fun b hb => U4_of m c b (fun h => hb (Finset.mem_image.mpr ⟨3, Finset.mem_univ _, (List.mem_singleton.mp h).symm⟩))

theorem hF1 (c : Dev nD) (w : Fin cfg1.W) : (pdats m 1 c).arrAt w cfg1.N = U6 m c (Pipeline.arrRef spec1 w) := by
  match w with
  | ⟨0, _⟩ => exact ((dat1 (E5 m) c).arrAt_in 0 rfl _).trans ((A_eq1 (E5 m) c 0).trans (U6_of m c main_v26 (by decide)).symm)
  | ⟨1, _⟩ => exact ((dat1 (E5 m) c).arrAt_in 1 rfl _).trans ((A_eq1 (E5 m) c 1).trans (U6_of m c main_v15 (by decide)).symm)
  | ⟨2, _⟩ => exact ((dat1 (E5 m) c).arrAt_in 2 rfl _).trans ((A_eq1 (E5 m) c 2).trans (U6_of m c main_v27 (by decide)).symm)
  | ⟨3, _⟩ => exact ((dat1 (E5 m) c).arrAt_in 3 rfl _).trans ((A_eq1 (E5 m) c 3).trans (U6_of m c main_arg5 (by decide)).symm)
  | ⟨4, _⟩ => exact (U6_out m c).symm
theorem hrest1 (c : Dev nD) : ∀ b, b ∉ Finset.univ.image (Pipeline.arrRef spec1) → U6 m c b = E5 m c b :=
  fun b hb => U6_of m c b (fun h => hb (Finset.mem_image.mpr ⟨4, Finset.mem_univ _, (List.mem_singleton.mp h).symm⟩))

theorem hF2 (c : Dev nD) (w : Fin cfg2.W) : (pdats m 2 c).arrAt w cfg2.N = U12 m c (Pipeline.arrRef spec2 w) := by
  match w with
  | ⟨0, _⟩ => exact ((dat2 (E11 m) c).arrAt_in 0 rfl _).trans ((A_eq2 (E11 m) c 0).trans (U12_of m c main_v38 (by decide)).symm)
  | ⟨1, _⟩ => exact ((dat2 (E11 m) c).arrAt_in 1 rfl _).trans ((A_eq2 (E11 m) c 1).trans (U12_of m c main_v39 (by decide)).symm)
  | ⟨2, _⟩ => exact ((dat2 (E11 m) c).arrAt_in 2 rfl _).trans ((A_eq2 (E11 m) c 2).trans (U12_of m c main_v41 (by decide)).symm)
  | ⟨3, _⟩ => exact ((dat2 (E11 m) c).arrAt_in 3 rfl _).trans ((A_eq2 (E11 m) c 3).trans (U12_of m c main_v42 (by decide)).symm)
  | ⟨4, _⟩ => exact (U12_out m c).symm
theorem hrest2 (c : Dev nD) : ∀ b, b ∉ Finset.univ.image (Pipeline.arrRef spec2) → U12 m c b = E11 m c b :=
  fun b hb => U12_of m c b (fun h => hb (Finset.mem_image.mpr ⟨4, Finset.mem_univ _, (List.mem_singleton.mp h).symm⟩))

set_option backward.isDefEq.respectTransparency.types false in
/-- The first region over the thread state: entered with every unscoped buffer at its entry contents, left with
    its output array replaced by what its write-backs leave and every other buffer as entered. -/
def reg0 : Pipeline.RegionSeg (pcfgs (F := F)) adm (pdats m ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E3 m) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (U4 m c) ∗ R c)
  X c := iprop(∃ r, prngReg c r)
  Y c := iprop(∃ r, prngReg c r)
  Z c := Pipeline.unscopedRest (Ix := Unit) (Name := ℕ) (U := UR sig nD τ) (Lvl := ℕ) spec0 c (E3 m c)
  hentry c := by
    rw [Pipeline.ownSems0_none]
    have hsplit := Pipeline.arrays_of_unscopedBufs (p := 0) (pcfgs (F := F)) adm (pdats m ) launch0.win launch0.arr_whole c
      ((pdats m 0 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ) ((pdats m 0 c).share_full fun _ => rfl)
      (E3 m c) (fun b => U4 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered with every unscoped buffer at its entry contents, left with
    its output array replaced by what its write-backs leave and every other buffer as entered. -/
def reg1 : Pipeline.RegionSeg (pcfgs (F := F)) adm (pdats m ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E5 m) c).loose
  hwaits := Pipeline.hwaits_of_owed_zero _ _ _ _ L lv 1 fun _ _ => rfl
  pre c := iprop(StableHlo.held (c : Thread nD τ) (Pipeline.ucRefs τ sig) (U5 m c) ∗ R c)
  post c := iprop(StableHlo.held (c : Thread nD τ) (Pipeline.ucRefs τ sig) (U6 m c) ∗ R c)
  X c := iprop(∃ r, prngReg c r)
  Y c := iprop(∃ r, prngReg c r)
  Z c := Pipeline.unscopedRest (Ix := Unit) (Name := ℕ) (U := UR sig nD τ) (Lvl := ℕ) spec1 c (E5 m c)
  hentry c := by
    rw [Pipeline.ownSems0_none]
    have hsplit := Pipeline.arrays_of_unscopedBufs (p := 1) (pcfgs (F := F)) adm (pdats m ) launch1.win launch1.arr_whole c
      ((pdats m 1 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ) ((pdats m 1 c).share_full fun _ => rfl)
      (E5 m c) (fun b => U6 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third region over the thread state: entered with every unscoped buffer at its entry contents, left with
    its output array replaced by what its write-backs leave and every other buffer as entered. -/
def reg2 : Pipeline.RegionSeg (pcfgs (F := F)) adm (pdats m ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E11 m) c).loose
  hwaits := Pipeline.hwaits_of_owed_zero _ _ _ _ L lv 2 fun _ _ => rfl
  pre c := iprop(StableHlo.held (c : Thread nD τ) (Pipeline.ucRefs τ sig) (U11 m c) ∗ R c)
  post c := iprop(StableHlo.held (c : Thread nD τ) (Pipeline.ucRefs τ sig) (U12 m c) ∗ R c)
  X c := iprop(∃ r, prngReg c r)
  Y c := iprop(∃ r, prngReg c r)
  Z c := Pipeline.unscopedRest (Ix := Unit) (Name := ℕ) (U := UR sig nD τ) (Lvl := ℕ) spec2 c (E11 m c)
  hentry c := by
    rw [Pipeline.ownSems0_none]
    have hsplit := Pipeline.arrays_of_unscopedBufs (p := 2) (pcfgs (F := F)) adm (pdats m ) launch2.win launch2.arr_whole c
      ((pdats m 2 c).share_full fun _ => rfl) (E11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (E11 m) c); unfold Pipeline.ΦA
    iintro ⟨Hp, -, Hr⟩
    isplitl [Hr]; · iexact Hr
    iexact Hp
  hout c := by
    rw [Pipeline.ownSems0_none]
    refine BIBase.Entails.trans (hout2 (E11 m) c) ?_; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ) ((pdats m 2 c).share_full fun _ => rfl)
      (E11 m c) (fun b => U12 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters every weakly fair execution of @main terminates, and in every final
    memory each unscoped buffer holds the last boundary's contents: the launch memory folded through the host
    stretches and the three regions. The frame claim and the value claim are both read off this post. -/
theorem run_all : θ_run defs (onTc (τ := τ) (main (F := F))) ⟨m, fun _ => 0, ρ⟩ (fun r => ∀ c : Dev nD,
      ∀ b ∈ Pipeline.ucRefs τ sig, r.2.mem ((c : Thread nD τ).1, b) = U13 m c b) := by
  refine Pipeline.θ_run_regions_kit_dev (pcfgs (F := F)) adm (pdats m ) () cellOf_inj emb₁ defs₀ 𝒱₀ L lv m ρ main
    (segs m (outs m ) 𝒱₀ L lv ER () (pdats m ) (reg0 m ) (reg1 m ) (reg2 m ))
    (fun c Q => by
      rewrite [main_chain c, Pipeline.Seg.run_eq_chain,
        show (segs m (outs m ) 𝒱₀ L lv ER () (pdats m ) (reg0 m ) (reg1 m ) (reg2 m ) c).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4,
          Prog.lift (.customCall (Pipeline.entry 2) ()),
          StableHlo.seq hostOps3 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (V13 m (outs m ) c) ∗ ∃ r, prngReg c r))
    (hch := fun c => ⟨.rfl, .rfl, .rfl, .rfl,
      (show iprop(StableHlo.held (c : Thread nD τ) (Pipeline.ucRefs τ sig) (U4 m c) ∗ R c)
          ⊢ iprop(StableHlo.held (c : Thread nD τ) (Pipeline.ucRefs τ sig) (V4 m (outs m) c) ∗ R c) from by rw [V4_eq]),
      (show iprop(StableHlo.held (c : Thread nD τ) (Pipeline.ucRefs τ sig) (V5 m (outs m) c) ∗ R c)
          ⊢ iprop(StableHlo.held (c : Thread nD τ) (Pipeline.ucRefs τ sig) (U5 m c) ∗ R c) from by rw [V5_eq]),
      (show iprop(StableHlo.held (c : Thread nD τ) (Pipeline.ucRefs τ sig) (U6 m c) ∗ R c)
          ⊢ iprop(StableHlo.held (c : Thread nD τ) (Pipeline.ucRefs τ sig) (V6 m (outs m) c) ∗ R c) from by rw [V6_eq]),
      .rfl, .rfl, .rfl, .rfl,
      (show iprop(StableHlo.held (c : Thread nD τ) (Pipeline.ucRefs τ sig) (V11 m (outs m) c) ∗ R c)
          ⊢ iprop(StableHlo.held (c : Thread nD τ) (Pipeline.ucRefs τ sig) (U11 m c) ∗ R c) from by rw [V11_eq]),
      (show iprop(StableHlo.held (c : Thread nD τ) (Pipeline.ucRefs τ sig) (U12 m c) ∗ R c)
          ⊢ iprop(StableHlo.held (c : Thread nD τ) (Pipeline.ucRefs τ sig) (V12 m (outs m) c) ∗ R c) from by rw [V12_eq]),
      (show iprop(StableHlo.held (c : Thread nD τ) (Pipeline.ucRefs τ sig) (V13 m (outs m) c) ∗ R c)
          ⊢ iprop((StableHlo.held (c : Thread nD τ) (Pipeline.ucRefs τ sig) (V13 m (outs m) c) ∗ ∃ r, prngReg c r)
              ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U13 m c b)
    (hfin := fun c s' => by
      rw [V13_eq]
      iintro ⟨⟨Hh, -⟩, HSI⟩
      unfold StableHlo.held
      imodintro
      iapply (pointsTo_read_all (Pipeline.ucRefs τ sig) (fun b => (((c : Thread nD τ)).1, b)) (U13 m c) s')
      isplitl [Hh] <;> iassumption)
    (hQ := fun s h c => h c)

end Run

end Cert.Kernel.Gen

end
-- ==== Proof.KB.Frame.lean ====
/-
  The frame claim read off the run: no host stretch and no region writes an argument array, so the last boundary's
  contents at each argument are the launch contents.
-/
import proofs.«400187_j27350351741543_3_alg».proof.Proof.KB.Run

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

section Frame
variable (m : (ℓ : Loc nD τ sig) → Buf (Elt F) ℓ) (ρ : Dev nD → PrngReg)

/-- Argument 0 ends as launched. -/
theorem U13_main_arg0 (c : Dev nD) : U13 m c main_arg0 = m ((c : Thread nD τ).loc main_arg0) :=
  (congrFun (V13_eq m c) _).symm.trans (V13_main_arg0 m (outs m) c)
/-- Argument 1 ends as launched. -/
theorem U13_main_arg1 (c : Dev nD) : U13 m c main_arg1 = m ((c : Thread nD τ).loc main_arg1) :=
  (congrFun (V13_eq m c) _).symm.trans (V13_main_arg1 m (outs m) c)
/-- Argument 2 ends as launched. -/
theorem U13_main_arg2 (c : Dev nD) : U13 m c main_arg2 = m ((c : Thread nD τ).loc main_arg2) :=
  (congrFun (V13_eq m c) _).symm.trans (V13_main_arg2 m (outs m) c)
/-- Argument 3 ends as launched. -/
theorem U13_main_arg3 (c : Dev nD) : U13 m c main_arg3 = m ((c : Thread nD τ).loc main_arg3) :=
  (congrFun (V13_eq m c) _).symm.trans (V13_main_arg3 m (outs m) c)
/-- Argument 4 ends as launched. -/
theorem U13_main_arg4 (c : Dev nD) : U13 m c main_arg4 = m ((c : Thread nD τ).loc main_arg4) :=
  (congrFun (V13_eq m c) _).symm.trans (V13_main_arg4 m (outs m) c)
/-- Argument 5 ends as launched. -/
theorem U13_main_arg5 (c : Dev nD) : U13 m c main_arg5 = m ((c : Thread nD τ).loc main_arg5) :=
  (congrFun (V13_eq m c) _).symm.trans (V13_main_arg5 m (outs m) c)
/-- Argument 6 ends as launched. -/
theorem U13_main_arg6 (c : Dev nD) : U13 m c main_arg6 = m ((c : Thread nD τ).loc main_arg6) :=
  (congrFun (V13_eq m c) _).symm.trans (V13_main_arg6 m (outs m) c)
/-- Argument 7 ends as launched. -/
theorem U13_main_arg7 (c : Dev nD) : U13 m c main_arg7 = m ((c : Thread nD τ).loc main_arg7) :=
  (congrFun (V13_eq m c) _).symm.trans (V13_main_arg7 m (outs m) c)
/-- Argument 8 ends as launched. -/
theorem U13_main_arg8 (c : Dev nD) : U13 m c main_arg8 = m ((c : Thread nD τ).loc main_arg8) :=
  (congrFun (V13_eq m c) _).symm.trans (V13_main_arg8 m (outs m) c)

/-- THE FRAME: every weakly fair execution of @main terminates, nothing faulting, and every argument array ends as launched. -/
theorem frame_run : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (U13_main_arg0 m c),
     (h c _ (mem_uc main_arg1 (by decide))).trans (U13_main_arg1 m c),
     (h c _ (mem_uc main_arg2 (by decide))).trans (U13_main_arg2 m c),
     (h c _ (mem_uc main_arg3 (by decide))).trans (U13_main_arg3 m c),
     (h c _ (mem_uc main_arg4 (by decide))).trans (U13_main_arg4 m c),
     (h c _ (mem_uc main_arg5 (by decide))).trans (U13_main_arg5 m c),
     (h c _ (mem_uc main_arg6 (by decide))).trans (U13_main_arg6 m c),
     (h c _ (mem_uc main_arg7 (by decide))).trans (U13_main_arg7 m c),
     (h c _ (mem_uc main_arg8 (by decide))).trans (U13_main_arg8 m c)⟩) (run_all m ρ)

/-- THE VALUE RUN: the same executions end with the result array at the last boundary's contents, beside the frame. -/
theorem value_run : θ_run defs (onTc (τ := τ) (main (F := F))) ⟨m, fun _ => 0, ρ⟩ (fun r => ∀ c : Dev nD,
      r.2.mem ((c.tc : Thread nD τ).loc main_v52) = U13 m c main_v52
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨h c _ (mem_uc main_v52 (by decide)),
     (h c _ (mem_uc main_arg0 (by decide))).trans (U13_main_arg0 m c),
     (h c _ (mem_uc main_arg1 (by decide))).trans (U13_main_arg1 m c),
     (h c _ (mem_uc main_arg2 (by decide))).trans (U13_main_arg2 m c),
     (h c _ (mem_uc main_arg3 (by decide))).trans (U13_main_arg3 m c),
     (h c _ (mem_uc main_arg4 (by decide))).trans (U13_main_arg4 m c),
     (h c _ (mem_uc main_arg5 (by decide))).trans (U13_main_arg5 m c),
     (h c _ (mem_uc main_arg6 (by decide))).trans (U13_main_arg6 m c),
     (h c _ (mem_uc main_arg7 (by decide))).trans (U13_main_arg7 m c),
     (h c _ (mem_uc main_arg8 (by decide))).trans (U13_main_arg8 m c)⟩) (run_all m ρ)

end Frame

end Cert.Kernel.Gen

end
-- ==== Proof.KI.Reg0.lean ====
/-
  The first pallas_call (the feature transform scaled by the inverse square-root degree), at a parameter `V`: the
  buffer contents the region is entered with. Each grid point reads one block of 4000 rows of the node features,
  the whole 64 by 64 weight matrix and the matching 4000 by 1 block of the degree column, and stores one block of
  4000 rows of the result: the block's matrix product scaled row by row. Stated here: the blocks, what the body
  leaves in the output's staging buffer, the body's triple, the proof data and the body obligation at every point.
-/
import proofs.«400187_j27350351741543_3_alg».proof.Proof.Gen.KernelIdeal.Launch
import proofs.«400187_j27350351741543_3_alg».proof.Proof.Gen.KernelIdeal.Skeleton
import proofs.«400187_j27350351741543_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev r0_a : Rect S4000x64 := Rect.unit (s := S4000x64) ![0, 0] S4000x64.size inb_S4000x64_S4000x64_0_0
abbrev r0_b : Rect S64x64 := Rect.unit (s := S64x64) ![0, 0] S64x64.size inb_S64x64_S64x64_0_0
abbrev r0_c : Rect S4000x1 := Rect.unit (s := S4000x1) ![0, 0] S4000x1.size inb_S4000x1_S4000x1_0_0

/-- The output's staging buffer after the body, from the three input blocks: its one whole-block store. -/
def out0_3 (x0 : Vec F S4000x64 .f32) (x1 : Vec F S64x64 .f32) (x2 : Vec F S4000x1 .f32) : Vec F S4000x64 .f32 :=
  View.canon [⟨r0_a, k0_pay1 (View.ld x0 r0_a) (View.ld x1 r0_b) (View.ld x2 r0_c)⟩]

/-- The one store covers the buffer. -/
theorem cover0_3 (p0 : Vec F S4000x64 .f32) (y : S4000x64.Idx) :
    ∃ pc ∈ ([⟨r0_a, p0⟩] : List (View.Piece (Elt F) S4000x64 .f32)), y ∈ pc.1.set :=
  View.cover_of_tiled [⟨r0_a, p0⟩] S4000x64.size (by rfl) y

set_option maxHeartbeats 1000000 in
/-- The body on whole staging memrefs: the inputs keep their contents, the output ends at `out0_3` of them. -/
theorem sound_kernel0 (c : Dev nD) (E : Set ℕ) (i : grid0.Coords) (arg1 : Memref sig .tc .vmem S4000x64 .f32) (harg1 : arg1.IsWhole)
    (arg2 : Memref sig .tc .vmem S64x64 .f32) (harg2 : arg2.IsWhole) (arg3 : Memref sig .tc .vmem S4000x1 .f32) (harg3 : arg3.IsWhole)
    (arg4 : Memref sig .tc .vmem S4000x64 .f32) (harg4 : arg4.IsWhole)
    (x0 : Vec F S4000x64 .f32) (x1 : Vec F S64x64 .f32) (x2 : Vec F S4000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__matmul_dinv_kernel i arg1 harg1 arg2 harg2 arg3 harg3 arg4 harg4) K := by
  simp only [cc0__matmul_dinv_kernel_eq_skeleton]; unfold cc0__matmul_dinv_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of the first pipeline on core `c`: the arrays as the region finds them; after the body each input's
    buffer at its block and the output's at `out0_3` of the input blocks; the class's invariant; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Gen

end
-- ==== Proof.KI.Reg1.lean ====
/-
  The second pallas_call (bias, rectifier, feature transform and degree scaling fused), at a parameter `V`: the buffer
  contents the region is entered with. Each grid point reads one block of 4000 rows of the aggregated features, the
  matching block of the degree column, the bias row and the whole weight matrix, and stores one block of 4000 rows:
  the rectified, degree-scaled and biased block times the weights, scaled row by row again.
-/
import proofs.«400187_j27350351741543_3_alg».proof.Proof.KI.Reg0

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangle of the bias row. -/
abbrev r0_e : Rect S1x64 := Rect.unit (s := S1x64) ![0, 0] S1x64.size inb_S1x64_S1x64_0_0

/-- The output's staging buffer after the body, from the four input blocks (aggregated features, degree column,
    bias row, weights): its one whole-block store. -/
def out1_4 (x0 : Vec F S4000x64 .f32) (x1 : Vec F S4000x1 .f32) (x2 : Vec F S1x64 .f32) (x3 : Vec F S64x64 .f32) : Vec F S4000x64 .f32 :=
  View.canon [⟨r0_a, k1_pay1 (View.ld x1 r0_c) (View.ld x0 r0_a) (View.ld x2 r0_e) (View.ld x3 r0_b) (View.ld x1 r0_c)⟩]

set_option maxHeartbeats 1000000 in
/-- The body on whole staging memrefs: the inputs keep their contents, the output ends at `out1_4` of them. -/
theorem sound_kernel1 (c : Dev nD) (E : Set ℕ) (i : grid1.Coords) (arg1 : Memref sig .tc .vmem S4000x64 .f32) (harg1 : arg1.IsWhole)
    (arg2 : Memref sig .tc .vmem S4000x1 .f32) (harg2 : arg2.IsWhole) (arg3 : Memref sig .tc .vmem S1x64 .f32) (harg3 : arg3.IsWhole)
    (arg4 : Memref sig .tc .vmem S64x64 .f32) (harg4 : arg4.IsWhole) (arg5 : Memref sig .tc .vmem S4000x64 .f32) (harg5 : arg5.IsWhole)
    (x0 : Vec F S4000x64 .f32) (x1 : Vec F S4000x1 .f32) (x2 : Vec F S1x64 .f32) (x3 : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__bias_relu_matmul_dinv_kernel i arg1 harg1 arg2 harg2 arg3 harg3 arg4 harg4 arg5 harg5) K := by
  simp only [cc1__bias_relu_matmul_dinv_kernel_eq_skeleton]; unfold cc1__bias_relu_matmul_dinv_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_3 _)

/-- The proof data of the second pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end Region1

end Cert.KernelIdeal.Gen

end
-- ==== Proof.KI.Acc2.lean ====
/-
  The third pallas_call (rectifier and segment-sum pooling as a one-hot matrix product, over a 2 by 49 grid), at a
  parameter `V`: the blocks its points read, and the ACCUMULATOR the kernel carries in scratch: at the first of a
  core's 49 points it is reset to zero and the point's one-hot product added, at every later point that point's
  product is added to what the point before left.
-/
import proofs.«400187_j27350351741543_3_alg».proof.Proof.Gen.KernelIdeal.Launch
import proofs.«400187_j27350351741543_3_alg».proof.Proof.Gen.KernelIdeal.Skeleton
import proofs.«400187_j27350351741543_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The four input blocks of a point at their literal types: 1024 rows of the aggregated features, the matching rows
    of the padded degree column, the bias row, the matching 1024 entries of the padded graph ids. -/
abbrev xa2 (c : Dev nD) (t : Fin cfg2.N) : Vec F S1024x64 .f32 := iblk2 V c 0 t
abbrev xd2 (c : Dev nD) (t : Fin cfg2.N) : Vec F S1024x1 .f32 := iblk2 V c 1 t
abbrev xb2 (c : Dev nD) (t : Fin cfg2.N) : Vec F S1x64 .f32 := iblk2 V c 2 t
abbrev xg2 (c : Dev nD) (t : Fin cfg2.N) : Vec F S1x1024 .i32 := iblk2 V c 3 t

/-- THE ACCUMULATOR after point `n`: reset at the points that are multiples of 49 (a core's first), stepped from the
    point before elsewhere; a step adds the point's one-hot product (the kernel's second payload, whose last argument is
    the accumulator it reads back; the first payload is the zero block the reset stores). -/
def acc2 (c : Dev nD) : (n : ℕ) → n < cfg2.N → Vec F S1024x64 .f32
  | 0, hn => k2_pay2 (xd2 V c ⟨0, hn⟩) (xa2 V c ⟨0, hn⟩) (xb2 V c ⟨0, hn⟩) (xg2 V c ⟨0, hn⟩) (k2_pay1 (F := F))
  | n + 1, hn =>
    if (n + 1) % 49 = 0 then
      k2_pay2 (xd2 V c ⟨n + 1, hn⟩) (xa2 V c ⟨n + 1, hn⟩) (xb2 V c ⟨n + 1, hn⟩) (xg2 V c ⟨n + 1, hn⟩) (k2_pay1 (F := F))
    else
      k2_pay2 (xd2 V c ⟨n + 1, hn⟩) (xa2 V c ⟨n + 1, hn⟩) (xb2 V c ⟨n + 1, hn⟩) (xg2 V c ⟨n + 1, hn⟩) (acc2 c n (Nat.lt_of_succ_lt hn))

/-- At a core's first point the accumulator is the point's product over the zero block. -/
theorem acc2_reset (c : Dev nD) (n : ℕ) (hn : n < cfg2.N) (h : n % 49 = 0) :
    acc2 V c n hn = k2_pay2 (xd2 V c ⟨n, hn⟩) (xa2 V c ⟨n, hn⟩) (xb2 V c ⟨n, hn⟩) (xg2 V c ⟨n, hn⟩) (k2_pay1 (F := F)) := by
  cases n with
  | zero => rfl
  | succ n => exact if_pos h

/-- At every other point it is the point's product over what the point before left. -/
theorem acc2_step (c : Dev nD) (n : ℕ) (hn : n + 1 < cfg2.N) (h : ¬(n + 1) % 49 = 0) :
    acc2 V c (n + 1) hn = k2_pay2 (xd2 V c ⟨n + 1, hn⟩) (xa2 V c ⟨n + 1, hn⟩) (xb2 V c ⟨n + 1, hn⟩) (xg2 V c ⟨n + 1, hn⟩)
      (acc2 V c n (Nat.lt_of_succ_lt hn)) := if_neg h

end Region2

end Cert.KernelIdeal.Gen

end
-- ==== Proof.KI.Reg2.lean ====
/-
  The third pallas_call (rectifier and segment-sum pooling as a one-hot matrix product, over a 2 by 49 grid), at a
  parameter `V`: the frame half. The body has three control cases, decided by the second grid coordinate: at a
  core's first point (position ≡ 0 mod 49) it stores the zero block over the whole scratch accumulator and then adds
  the point's one-hot product; at the middle points it adds the product to what the point before left; at a core's
  last point (position ≡ 48 mod 49) it does the same and copies the accumulator into the output block, which is
  written back there and only there. Stated here: the conditions in closed form, the body's triple per case, what
  the output's staging buffer and the scratch hold after every point, the invariant that carries the scratch from
  point to point, the proof data and the body obligation; then the scratch's contents identified with the
  accumulator defined beside the blocks.
-/
import proofs.«400187_j27350351741543_3_alg».proof.Proof.Gen.KernelIdeal.Launch
import proofs.«400187_j27350351741543_3_alg».proof.Proof.Gen.KernelIdeal.Skeleton
import proofs.«400187_j27350351741543_3_alg».proof.Proof.Gen.KernelIdeal.Points
import proofs.«400187_j27350351741543_3_alg».proof.Proof.KI.Acc2
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-! ## The body's two conditions, in closed form -/

/-- The first conditional's condition from the grid coordinates: the second coordinate is zero. -/
abbrev cond2_0 (i : grid2.Coords) : Prop := (Scalar.cmpi .ne (Scalar.extui (Scalar.cmpi .eq (BitVec.ofNat 32 (i 1).val) 0#32)) 0#32) = 1#1
/-- It holds exactly at the positions that are multiples of 49: each core's first point. -/
theorem hcond2_0 : ∀ t : Fin cfg2.N, cond2_0 (grid2.coords t) ↔ t.val % 49 = 0 :=
  (by decide +kernel : ∀ t : Fin grid2.N, cond2_0 (grid2.coords t) ↔ t.val % 49 = 0)

/-- The second conditional's condition: the second coordinate is 48. -/
abbrev cond2_1 (i : grid2.Coords) : Prop := k2_cond2 i = 1#1
/-- It holds exactly at the positions ≡ 48 (mod 49): each core's last point. -/
theorem hcond2_1 : ∀ t : Fin cfg2.N, cond2_1 (grid2.coords t) ↔ t.val % 49 = 48 :=
  (by decide +kernel : ∀ t : Fin grid2.N, cond2_1 (grid2.coords t) ↔ t.val % 49 = 48)

/-! ## Where the windows are idle -/

/-- The four inputs are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
/-- At a core's first point the output is idle: nothing is stored into it, -/
theorem idleAt2_4_A : ∀ t : Fin cfg2.N, cond2_0 (grid2.coords t) → ¬cond2_1 (grid2.coords t) → cfg2.idle 4 (grid2.coords t) = true := by decide +kernel
/-- and its block is not written back there. -/
theorem noFlush2_4_A : ∀ t : Fin cfg2.N, cond2_0 (grid2.coords t) → ¬cond2_1 (grid2.coords t) → (cfg2.win 4).flush t = false := by decide +kernel
/-- The same at the middle points. -/
theorem idleAt2_4_B : ∀ t : Fin cfg2.N, ¬cond2_0 (grid2.coords t) → ¬cond2_1 (grid2.coords t) → cfg2.idle 4 (grid2.coords t) = true := by decide +kernel
theorem noFlush2_4_B : ∀ t : Fin cfg2.N, ¬cond2_0 (grid2.coords t) → ¬cond2_1 (grid2.coords t) → (cfg2.win 4).flush t = false := by decide +kernel
/-- At a core's last point the output is live: the accumulator is copied into it. -/
theorem liveAt2_4_C : ∀ t : Fin cfg2.N, ¬cond2_0 (grid2.coords t) → cond2_1 (grid2.coords t) → cfg2.idle 4 (grid2.coords t) = false := by decide +kernel

/-! ## The memrefs the body is called on -/

/-- One staging buffer of the output, through which its contents are stated (which one does not matter). -/
abbrev VO2_4 : View sig .tc .vmem S1x1024x64 .f32 := (Memref.whole cc2_stg4_0 : Memref sig .tc .vmem S1x1024x64 .f32).view
/-- Each window's current staging memref at point `t`, and its wholeness. -/
abbrev ms2_0 (t : Fin cfg2.N) : Memref sig .tc .vmem S1024x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1024 .i32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1024x64 .f32 := win2_4.stage (cfg2.slots t 4)
abbrev hs2_4 (t : Fin cfg2.N) : (ms2_4 t).IsWhole := hstage2_4 ((cfg2.slots t 4).cast nbuf2_4)
/-- The scratch accumulator: a whole scoped buffer of the kernel's own, passed beside the windows, -/
abbrev scM2_0 : Memref sig .tc .vmem S1024x64 .f32 := Memref.whole cc2_scratch0
/-- and the view through which its contents are stated. -/
abbrev VS2_0 : View sig .tc .vmem S1024x64 .f32 := scM2_0.view

/-- Every other scoped buffer of the core that is no staging buffer of this call (the other calls' staging buffers),
    at some contents each: carried through the region unopened. -/
def rest2 (c : Dev nD) : sProp 𝕄 :=
  Pipeline.scopedRestBut (Ix := Unit) (Name := ℕ) (U := UR sig nD τ) (Lvl := ℕ) (Val := Elt F) spec2 c [cc2_scratch0]

/-- The class invariant with the scratch split off as a memref owned at some contents. -/
theorem PhiA2_eq (c : Dev nD) :
    (Pipeline.ΦA spec2 c : sProp 𝕄)
      = iprop(iprop((∃ d, owns (c : Thread nD τ) scM2_0 fullShare d) ∗ rest2 (F := F) c) ∗ (∃ r, prngReg c r)) := by
  unfold Pipeline.ΦA rest2
  rw [Pipeline.scopedRest_split_of_list spec2 c [cc2_scratch0] (by decide) (by decide)]
  simp only [scM2_0, owns_whole]; try rfl

/-! ## The body's triple, case by case -/

set_option maxHeartbeats 1000000 in
/-- AT A CORE'S FIRST POINT (first conditional taken, second not). On whole memrefs, the inputs at their contents, the
    output at contents `xi4` that are handed back untouched, the scratch at anything, the body runs to the
    continuation holding the inputs as they were, the output as it was, and the scratch with its stores written: the
    zero block over all of it, then the point's product over all of it. The pieces stored are the witness. -/
noncomputable def kernelRun2_A (c : Dev nD) (i : grid2.Coords) (arg2 : Memref sig .tc .vmem S1024x64 .f32) (harg2 : arg2.IsWhole) (arg3 : Memref sig .tc .vmem S1024x1 .f32) (harg3 : arg3.IsWhole) (arg4 : Memref sig .tc .vmem S1x64 .f32) (harg4 : arg4.IsWhole) (arg5 : Memref sig .tc .vmem S1x1024 .i32) (harg5 : arg5.IsWhole) (arg6 : Memref sig .tc .vmem S1x1024x64 .f32) (harg6 : arg6.IsWhole) (arg7 : Memref sig .tc .vmem S1024x64 .f32) (harg7 : arg7.IsWhole) (hc0 : cond2_0 i) (hc1 : ¬cond2_1 i)
    (x0 : Vec F S1024x64 .f32) (x1 : Vec F S1024x1 .f32) (x2 : Vec F S1x64 .f32) (x3 : Vec F S1x1024 .i32) :
    Σ' (L4 : List (View.Piece (Elt F) S1x1024x64 .f32)), { LS0 : List (View.Piece (Elt F) S1024x64 .f32) //
      ∀ (xi4 : Vec F S1x1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc2__pool_kernel i arg2 harg2 arg3 harg3 arg4 harg4 arg5 harg5 arg6 harg6 arg7 harg7) K } := by
  refine ⟨[], ?_, fun xi4 E K => ?run⟩
  case run =>
    simp only [cc2__pool_kernel_eq_skeleton]; unfold cc2__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- AT A MIDDLE POINT (neither conditional taken). The same, the scratch coming in at the contents `xs0` the point
    before left: one store, the point's product added to `xs0`, over all of it. -/
noncomputable def kernelRun2_B (c : Dev nD) (i : grid2.Coords) (arg2 : Memref sig .tc .vmem S1024x64 .f32) (harg2 : arg2.IsWhole) (arg3 : Memref sig .tc .vmem S1024x1 .f32) (harg3 : arg3.IsWhole) (arg4 : Memref sig .tc .vmem S1x64 .f32) (harg4 : arg4.IsWhole) (arg5 : Memref sig .tc .vmem S1x1024 .i32) (harg5 : arg5.IsWhole) (arg6 : Memref sig .tc .vmem S1x1024x64 .f32) (harg6 : arg6.IsWhole) (arg7 : Memref sig .tc .vmem S1024x64 .f32) (harg7 : arg7.IsWhole) (hc0 : ¬cond2_0 i) (hc1 : ¬cond2_1 i)
    (x0 : Vec F S1024x64 .f32) (x1 : Vec F S1024x1 .f32) (x2 : Vec F S1x64 .f32) (x3 : Vec F S1x1024 .i32) (xs0 : Vec F S1024x64 .f32) :
    Σ' (L4 : List (View.Piece (Elt F) S1x1024x64 .f32)), { LS0 : List (View.Piece (Elt F) S1024x64 .f32) //
      ∀ (xi4 : Vec F S1x1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc2__pool_kernel i arg2 harg2 arg3 harg3 arg4 harg4 arg5 harg5 arg6 harg6 arg7 harg7) K } := by
  refine ⟨[], ?_, fun xi4 E K => ?run⟩
  case run =>
    simp only [cc2__pool_kernel_eq_skeleton]; unfold cc2__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- AT A CORE'S LAST POINT (first conditional not taken, second taken). The output comes in at anything and ends with
    its one store written, the accumulator recast to the output block's shape, over all of it; the scratch as at a
    middle point. -/
noncomputable def kernelRun2_C (c : Dev nD) (i : grid2.Coords) (arg2 : Memref sig .tc .vmem S1024x64 .f32) (harg2 : arg2.IsWhole) (arg3 : Memref sig .tc .vmem S1024x1 .f32) (harg3 : arg3.IsWhole) (arg4 : Memref sig .tc .vmem S1x64 .f32) (harg4 : arg4.IsWhole) (arg5 : Memref sig .tc .vmem S1x1024 .i32) (harg5 : arg5.IsWhole) (arg6 : Memref sig .tc .vmem S1x1024x64 .f32) (harg6 : arg6.IsWhole) (arg7 : Memref sig .tc .vmem S1024x64 .f32) (harg7 : arg7.IsWhole) (hc0 : ¬cond2_0 i) (hc1 : cond2_1 i)
    (x0 : Vec F S1024x64 .f32) (x1 : Vec F S1024x1 .f32) (x2 : Vec F S1x64 .f32) (x3 : Vec F S1x1024 .i32) (xs0 : Vec F S1024x64 .f32) :
    Σ' (L4 : List (View.Piece (Elt F) S1x1024x64 .f32)), { LS0 : List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc2__pool_kernel i arg2 harg2 arg3 harg3 arg4 harg4 arg5 harg5 arg6 harg6 arg7 harg7) K } := by
  refine ⟨?_, ?_, fun E K => ?run⟩
  case run =>
    simp only [cc2__pool_kernel_eq_skeleton]; unfold cc2__pool_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

/-! ## What each case leaves in the output's staging buffer and in the scratch -/

/-- At a core's first point nothing is stored into the output: no pieces, a placeholder that nothing consults (the window is
    neither written back there nor read at the next point). -/
def out2_A_4 (c : Dev nD) (i : grid2.Coords) (arg2 : Memref sig .tc .vmem S1024x64 .f32) (harg2 : arg2.IsWhole) (arg3 : Memref sig .tc .vmem S1024x1 .f32) (harg3 : arg3.IsWhole) (arg4 : Memref sig .tc .vmem S1x64 .f32) (harg4 : arg4.IsWhole) (arg5 : Memref sig .tc .vmem S1x1024 .i32) (harg5 : arg5.IsWhole) (arg6 : Memref sig .tc .vmem S1x1024x64 .f32) (harg6 : arg6.IsWhole) (arg7 : Memref sig .tc .vmem S1024x64 .f32) (harg7 : arg7.IsWhole) (hc0 : cond2_0 i) (hc1 : ¬cond2_1 i)
    (x0 : Vec F S1024x64 .f32) (x1 : Vec F S1024x1 .f32) (x2 : Vec F S1x64 .f32) (x3 : Vec F S1x1024 .i32) : Vec F S1x1024x64 .f32 :=
  VO2_4.read (Elt F) (VO2_4.writes (Elt F) VO2_4.junk (kernelRun2_A c i arg2 harg2 arg3 harg3 arg4 harg4 arg5 harg5 arg6 harg6 arg7 harg7 hc0 hc1 x0 x1 x2 x3).1)

/-- At a core's first point the stores into the scratch cover it (each is the whole buffer). -/
theorem scover2_A_0 (c : Dev nD) (i : grid2.Coords) (arg2 : Memref sig .tc .vmem S1024x64 .f32) (harg2 : arg2.IsWhole) (arg3 : Memref sig .tc .vmem S1024x1 .f32) (harg3 : arg3.IsWhole) (arg4 : Memref sig .tc .vmem S1x64 .f32) (harg4 : arg4.IsWhole) (arg5 : Memref sig .tc .vmem S1x1024 .i32) (harg5 : arg5.IsWhole) (arg6 : Memref sig .tc .vmem S1x1024x64 .f32) (harg6 : arg6.IsWhole) (arg7 : Memref sig .tc .vmem S1024x64 .f32) (harg7 : arg7.IsWhole) (hc0 : cond2_0 i) (hc1 : ¬cond2_1 i)
    (x0 : Vec F S1024x64 .f32) (x1 : Vec F S1024x1 .f32) (x2 : Vec F S1x64 .f32) (x3 : Vec F S1x1024 .i32) (y : S1024x64.Idx) :
    ∃ pc ∈ (kernelRun2_A c i arg2 harg2 arg3 harg3 arg4 harg4 arg5 harg5 arg6 harg6 arg7 harg7 hc0 hc1 x0 x1 x2 x3).2.1, y ∈ pc.1.set :=
  View.cover_of_tiledL (kernelRun2_A c i arg2 harg2 arg3 harg3 arg4 harg4 arg5 harg5 arg6 harg6 arg7 harg7 hc0 hc1 x0 x1 x2 x3).2.1 S1024x64.size (by sl_kernel_rfl) y

/-- What the scratch holds after a core's first point: its stores read back. -/
def sout2_A_0 (c : Dev nD) (i : grid2.Coords) (arg2 : Memref sig .tc .vmem S1024x64 .f32) (harg2 : arg2.IsWhole) (arg3 : Memref sig .tc .vmem S1024x1 .f32) (harg3 : arg3.IsWhole) (arg4 : Memref sig .tc .vmem S1x64 .f32) (harg4 : arg4.IsWhole) (arg5 : Memref sig .tc .vmem S1x1024 .i32) (harg5 : arg5.IsWhole) (arg6 : Memref sig .tc .vmem S1x1024x64 .f32) (harg6 : arg6.IsWhole) (arg7 : Memref sig .tc .vmem S1024x64 .f32) (harg7 : arg7.IsWhole) (hc0 : cond2_0 i) (hc1 : ¬cond2_1 i)
    (x0 : Vec F S1024x64 .f32) (x1 : Vec F S1024x1 .f32) (x2 : Vec F S1x64 .f32) (x3 : Vec F S1x1024 .i32) : Vec F S1024x64 .f32 :=
  VS2_0.read (Elt F) (VS2_0.writes (Elt F) VS2_0.junk (kernelRun2_A c i arg2 harg2 arg3 harg3 arg4 harg4 arg5 harg5 arg6 harg6 arg7 harg7 hc0 hc1 x0 x1 x2 x3).2.1)

/-- At a middle point nothing is stored into the output: no pieces, a placeholder that nothing consults (the window is
    neither written back there nor read at the next point). -/
def out2_B_4 (c : Dev nD) (i : grid2.Coords) (arg2 : Memref sig .tc .vmem S1024x64 .f32) (harg2 : arg2.IsWhole) (arg3 : Memref sig .tc .vmem S1024x1 .f32) (harg3 : arg3.IsWhole) (arg4 : Memref sig .tc .vmem S1x64 .f32) (harg4 : arg4.IsWhole) (arg5 : Memref sig .tc .vmem S1x1024 .i32) (harg5 : arg5.IsWhole) (arg6 : Memref sig .tc .vmem S1x1024x64 .f32) (harg6 : arg6.IsWhole) (arg7 : Memref sig .tc .vmem S1024x64 .f32) (harg7 : arg7.IsWhole) (hc0 : ¬cond2_0 i) (hc1 : ¬cond2_1 i)
    (x0 : Vec F S1024x64 .f32) (x1 : Vec F S1024x1 .f32) (x2 : Vec F S1x64 .f32) (x3 : Vec F S1x1024 .i32) (xs0 : Vec F S1024x64 .f32) : Vec F S1x1024x64 .f32 :=
  VO2_4.read (Elt F) (VO2_4.writes (Elt F) VO2_4.junk (kernelRun2_B c i arg2 harg2 arg3 harg3 arg4 harg4 arg5 harg5 arg6 harg6 arg7 harg7 hc0 hc1 x0 x1 x2 x3 xs0).1)

/-- At a middle point the stores into the scratch cover it (each is the whole buffer). -/
theorem scover2_B_0 (c : Dev nD) (i : grid2.Coords) (arg2 : Memref sig .tc .vmem S1024x64 .f32) (harg2 : arg2.IsWhole) (arg3 : Memref sig .tc .vmem S1024x1 .f32) (harg3 : arg3.IsWhole) (arg4 : Memref sig .tc .vmem S1x64 .f32) (harg4 : arg4.IsWhole) (arg5 : Memref sig .tc .vmem S1x1024 .i32) (harg5 : arg5.IsWhole) (arg6 : Memref sig .tc .vmem S1x1024x64 .f32) (harg6 : arg6.IsWhole) (arg7 : Memref sig .tc .vmem S1024x64 .f32) (harg7 : arg7.IsWhole) (hc0 : ¬cond2_0 i) (hc1 : ¬cond2_1 i)
    (x0 : Vec F S1024x64 .f32) (x1 : Vec F S1024x1 .f32) (x2 : Vec F S1x64 .f32) (x3 : Vec F S1x1024 .i32) (xs0 : Vec F S1024x64 .f32) (y : S1024x64.Idx) :
    ∃ pc ∈ (kernelRun2_B c i arg2 harg2 arg3 harg3 arg4 harg4 arg5 harg5 arg6 harg6 arg7 harg7 hc0 hc1 x0 x1 x2 x3 xs0).2.1, y ∈ pc.1.set :=
  View.cover_of_tiledL (kernelRun2_B c i arg2 harg2 arg3 harg3 arg4 harg4 arg5 harg5 arg6 harg6 arg7 harg7 hc0 hc1 x0 x1 x2 x3 xs0).2.1 S1024x64.size (by sl_kernel_rfl) y

/-- What the scratch holds after a middle point: its stores read back. -/
def sout2_B_0 (c : Dev nD) (i : grid2.Coords) (arg2 : Memref sig .tc .vmem S1024x64 .f32) (harg2 : arg2.IsWhole) (arg3 : Memref sig .tc .vmem S1024x1 .f32) (harg3 : arg3.IsWhole) (arg4 : Memref sig .tc .vmem S1x64 .f32) (harg4 : arg4.IsWhole) (arg5 : Memref sig .tc .vmem S1x1024 .i32) (harg5 : arg5.IsWhole) (arg6 : Memref sig .tc .vmem S1x1024x64 .f32) (harg6 : arg6.IsWhole) (arg7 : Memref sig .tc .vmem S1024x64 .f32) (harg7 : arg7.IsWhole) (hc0 : ¬cond2_0 i) (hc1 : ¬cond2_1 i)
    (x0 : Vec F S1024x64 .f32) (x1 : Vec F S1024x1 .f32) (x2 : Vec F S1x64 .f32) (x3 : Vec F S1x1024 .i32) (xs0 : Vec F S1024x64 .f32) : Vec F S1024x64 .f32 :=
  VS2_0.read (Elt F) (VS2_0.writes (Elt F) VS2_0.junk (kernelRun2_B c i arg2 harg2 arg3 harg3 arg4 harg4 arg5 harg5 arg6 harg6 arg7 harg7 hc0 hc1 x0 x1 x2 x3 xs0).2.1)

/-- At a core's last point the one store into the output covers its block. -/
theorem cover2_C_4 (c : Dev nD) (i : grid2.Coords) (arg2 : Memref sig .tc .vmem S1024x64 .f32) (harg2 : arg2.IsWhole) (arg3 : Memref sig .tc .vmem S1024x1 .f32) (harg3 : arg3.IsWhole) (arg4 : Memref sig .tc .vmem S1x64 .f32) (harg4 : arg4.IsWhole) (arg5 : Memref sig .tc .vmem S1x1024 .i32) (harg5 : arg5.IsWhole) (arg6 : Memref sig .tc .vmem S1x1024x64 .f32) (harg6 : arg6.IsWhole) (arg7 : Memref sig .tc .vmem S1024x64 .f32) (harg7 : arg7.IsWhole) (hc0 : ¬cond2_0 i) (hc1 : cond2_1 i)
    (x0 : Vec F S1024x64 .f32) (x1 : Vec F S1024x1 .f32) (x2 : Vec F S1x64 .f32) (x3 : Vec F S1x1024 .i32) (xs0 : Vec F S1024x64 .f32) (y : S1x1024x64.Idx) :
    ∃ pc ∈ (kernelRun2_C c i arg2 harg2 arg3 harg3 arg4 harg4 arg5 harg5 arg6 harg6 arg7 harg7 hc0 hc1 x0 x1 x2 x3 xs0).1, y ∈ pc.1.set :=
  View.cover_of_tiledL (kernelRun2_C c i arg2 harg2 arg3 harg3 arg4 harg4 arg5 harg5 arg6 harg6 arg7 harg7 hc0 hc1 x0 x1 x2 x3 xs0).1 S1x1024x64.size (by sl_kernel_rfl) y

/-- What it leaves there: the store read back. -/
def out2_C_4 (c : Dev nD) (i : grid2.Coords) (arg2 : Memref sig .tc .vmem S1024x64 .f32) (harg2 : arg2.IsWhole) (arg3 : Memref sig .tc .vmem S1024x1 .f32) (harg3 : arg3.IsWhole) (arg4 : Memref sig .tc .vmem S1x64 .f32) (harg4 : arg4.IsWhole) (arg5 : Memref sig .tc .vmem S1x1024 .i32) (harg5 : arg5.IsWhole) (arg6 : Memref sig .tc .vmem S1x1024x64 .f32) (harg6 : arg6.IsWhole) (arg7 : Memref sig .tc .vmem S1024x64 .f32) (harg7 : arg7.IsWhole) (hc0 : ¬cond2_0 i) (hc1 : cond2_1 i)
    (x0 : Vec F S1024x64 .f32) (x1 : Vec F S1024x1 .f32) (x2 : Vec F S1x64 .f32) (x3 : Vec F S1x1024 .i32) (xs0 : Vec F S1024x64 .f32) : Vec F S1x1024x64 .f32 :=
  VO2_4.read (Elt F) (VO2_4.writes (Elt F) VO2_4.junk (kernelRun2_C c i arg2 harg2 arg3 harg3 arg4 harg4 arg5 harg5 arg6 harg6 arg7 harg7 hc0 hc1 x0 x1 x2 x3 xs0).1)

/-- At a core's last point the stores into the scratch cover it (each is the whole buffer). -/
theorem scover2_C_0 (c : Dev nD) (i : grid2.Coords) (arg2 : Memref sig .tc .vmem S1024x64 .f32) (harg2 : arg2.IsWhole) (arg3 : Memref sig .tc .vmem S1024x1 .f32) (harg3 : arg3.IsWhole) (arg4 : Memref sig .tc .vmem S1x64 .f32) (harg4 : arg4.IsWhole) (arg5 : Memref sig .tc .vmem S1x1024 .i32) (harg5 : arg5.IsWhole) (arg6 : Memref sig .tc .vmem S1x1024x64 .f32) (harg6 : arg6.IsWhole) (arg7 : Memref sig .tc .vmem S1024x64 .f32) (harg7 : arg7.IsWhole) (hc0 : ¬cond2_0 i) (hc1 : cond2_1 i)
    (x0 : Vec F S1024x64 .f32) (x1 : Vec F S1024x1 .f32) (x2 : Vec F S1x64 .f32) (x3 : Vec F S1x1024 .i32) (xs0 : Vec F S1024x64 .f32) (y : S1024x64.Idx) :
    ∃ pc ∈ (kernelRun2_C c i arg2 harg2 arg3 harg3 arg4 harg4 arg5 harg5 arg6 harg6 arg7 harg7 hc0 hc1 x0 x1 x2 x3 xs0).2.1, y ∈ pc.1.set :=
  View.cover_of_tiledL (kernelRun2_C c i arg2 harg2 arg3 harg3 arg4 harg4 arg5 harg5 arg6 harg6 arg7 harg7 hc0 hc1 x0 x1 x2 x3 xs0).2.1 S1024x64.size (by sl_kernel_rfl) y

/-- What the scratch holds after a core's last point: its stores read back. -/
def sout2_C_0 (c : Dev nD) (i : grid2.Coords) (arg2 : Memref sig .tc .vmem S1024x64 .f32) (harg2 : arg2.IsWhole) (arg3 : Memref sig .tc .vmem S1024x1 .f32) (harg3 : arg3.IsWhole) (arg4 : Memref sig .tc .vmem S1x64 .f32) (harg4 : arg4.IsWhole) (arg5 : Memref sig .tc .vmem S1x1024 .i32) (harg5 : arg5.IsWhole) (arg6 : Memref sig .tc .vmem S1x1024x64 .f32) (harg6 : arg6.IsWhole) (arg7 : Memref sig .tc .vmem S1024x64 .f32) (harg7 : arg7.IsWhole) (hc0 : ¬cond2_0 i) (hc1 : cond2_1 i)
    (x0 : Vec F S1024x64 .f32) (x1 : Vec F S1024x1 .f32) (x2 : Vec F S1x64 .f32) (x3 : Vec F S1x1024 .i32) (xs0 : Vec F S1024x64 .f32) : Vec F S1024x64 .f32 :=
  VS2_0.read (Elt F) (VS2_0.writes (Elt F) VS2_0.junk (kernelRun2_C c i arg2 harg2 arg3 harg3 arg4 harg4 arg5 harg5 arg6 harg6 arg7 harg7 hc0 hc1 x0 x1 x2 x3 xs0).2.1)

/-! ## What they hold after each point -/

/-- THE ACCUMULATION. What the output's staging buffer and the scratch hold after the body at position `n` (a pair):
    the case the closed forms select at `n`, run at the point's memrefs and input blocks, the scratch coming in at what
    position `n - 1` left in it. Both conditions at once is no case. -/
def outsAt2 (c : Dev nD) : (n : ℕ) → n < cfg2.N → Vec F S1x1024x64 .f32 × Vec F S1024x64 .f32
  | 0, hn => (out2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) ((hcond2_0 ⟨0, hn⟩).mpr (Nat.zero_mod _)) (fun h => (fun h => by (try dsimp only at h); omega) ((hcond2_1 ⟨0, hn⟩).mp h)) (xa2 V c ⟨0, hn⟩) (xd2 V c ⟨0, hn⟩) (xb2 V c ⟨0, hn⟩) (xg2 V c ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) ((hcond2_0 ⟨0, hn⟩).mpr (Nat.zero_mod _)) (fun h => (fun h => by (try dsimp only at h); omega) ((hcond2_1 ⟨0, hn⟩).mp h)) (xa2 V c ⟨0, hn⟩) (xd2 V c ⟨0, hn⟩) (xb2 V c ⟨0, hn⟩) (xg2 V c ⟨0, hn⟩))
  | n + 1, hn =>
    if h0 : (n + 1) % 49 = 0 then
      if h1 : (n + 1) % 49 = 48 then
        False.elim (by omega)
      else
        (out2_A_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) ((hcond2_0 ⟨n + 1, hn⟩).mpr h0) (fun h => h1 ((hcond2_1 ⟨n + 1, hn⟩).mp h)) (xa2 V c ⟨n + 1, hn⟩) (xd2 V c ⟨n + 1, hn⟩) (xb2 V c ⟨n + 1, hn⟩) (xg2 V c ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) ((hcond2_0 ⟨n + 1, hn⟩).mpr h0) (fun h => h1 ((hcond2_1 ⟨n + 1, hn⟩).mp h)) (xa2 V c ⟨n + 1, hn⟩) (xd2 V c ⟨n + 1, hn⟩) (xb2 V c ⟨n + 1, hn⟩) (xg2 V c ⟨n + 1, hn⟩))
    else
      if h1 : (n + 1) % 49 = 48 then
        (out2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) ((hcond2_1 ⟨n + 1, hn⟩).mpr h1) (xa2 V c ⟨n + 1, hn⟩) (xd2 V c ⟨n + 1, hn⟩) (xb2 V c ⟨n + 1, hn⟩) (xg2 V c ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) ((hcond2_1 ⟨n + 1, hn⟩).mpr h1) (xa2 V c ⟨n + 1, hn⟩) (xd2 V c ⟨n + 1, hn⟩) (xb2 V c ⟨n + 1, hn⟩) (xg2 V c ⟨n + 1, hn⟩) (outsAt2 c n (Nat.lt_of_succ_lt hn)).2)
      else
        (out2_B_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) (fun h => h1 ((hcond2_1 ⟨n + 1, hn⟩).mp h)) (xa2 V c ⟨n + 1, hn⟩) (xd2 V c ⟨n + 1, hn⟩) (xb2 V c ⟨n + 1, hn⟩) (xg2 V c ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) (fun h => h1 ((hcond2_1 ⟨n + 1, hn⟩).mp h)) (xa2 V c ⟨n + 1, hn⟩) (xd2 V c ⟨n + 1, hn⟩) (xb2 V c ⟨n + 1, hn⟩) (xg2 V c ⟨n + 1, hn⟩) (outsAt2 c n (Nat.lt_of_succ_lt hn)).2)

/-- `outsAt2` at a core's first point. -/
theorem outsAt2_A (c : Dev nD) (t : Fin cfg2.N) (h0 : t.val % 49 = 0) (h1 : ¬t.val % 49 = 48) :
    outsAt2 V c t.val t.isLt = (out2_A_4 c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) (xa2 V c t) (xd2 V c t) (xb2 V c t) (xg2 V c t), sout2_A_0 c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) (xa2 V c t) (xd2 V c t) (xb2 V c t) (xg2 V c t)) := by
  obtain ⟨n, hn⟩ := t
  cases n with
  | zero => exact rfl
  | succ n => exact (dif_pos h0).trans ((dif_neg h1).trans rfl)

/-- `outsAt2` at a middle point: over what the point before left in the scratch. -/
theorem outsAt2_B (c : Dev nD) (t : Fin cfg2.N) (h0 : ¬t.val % 49 = 0) (h1 : ¬t.val % 49 = 48) :
    outsAt2 V c t.val t.isLt = (out2_B_4 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) (xa2 V c t) (xd2 V c t) (xb2 V c t) (xg2 V c t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) (xa2 V c t) (xd2 V c t) (xb2 V c t) (xg2 V c t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt2` at a core's last point: over what the point before left in the scratch. -/
theorem outsAt2_C (c : Dev nD) (t : Fin cfg2.N) (h0 : ¬t.val % 49 = 0) (h1 : t.val % 49 = 48) :
    outsAt2 V c t.val t.isLt = (out2_C_4 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (xa2 V c t) (xd2 V c t) (xb2 V c t) (xg2 V c t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (xa2 V c t) (xd2 V c t) (xb2 V c t) (xg2 V c t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the scratch -/

/-- The region invariant before position `n`: before the first point the class's (the scratch at anything);
    afterwards the scratch at what the point before left in it, the other scoped buffers unopened, the generator
    register at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ rest2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((outsAt2 V c n hn).2) ∗ rest2 (F := F) c) ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ rest2 (F := F) c) ∗ (∃ r, prngReg c r)) := by
  cases n with
  | zero => exact absurd rfl hz
  | succ n => rfl

/-! ## The proof data -/

/-- The proof data of the third pipeline on core `c`: the arrays as the region finds them; after the body at point
    `t` each input's buffer at its block and the output's at `outsAt2`'s first component; the invariant that carries
    the scratch; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

/-- The invariant at a point's start, restated at the point's position. -/
theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point. The inputs' memrefs hold their blocks; the closed forms say which case the point is in;
    that case's triple applies. The invariant hands the body the scratch (at anything before the first point, at what
    the point before left afterwards) and takes it back at this point's contents, the stores covering it; the other
    scoped buffers and the generator register pass through; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hN : t.val < 98 := lt_of_lt_of_eq t.isLt (show cfg2.N = 98 from N_2)
  by_cases h0 : t.val % 49 = 0
  · by_cases h1 : t.val % 49 = 48
    · exfalso; omega
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [Dat.leavesExact_idle (dat2 V c) 4 t (idleAt2_4_A t ((hcond2_0 t).mpr h0) (fun h => h1 ((hcond2_1 t).mp h))) (noFlush2_4_A t ((hcond2_0 t).mpr h0) (fun h => h1 ((hcond2_1 t).mp h)))]
      rw [outsAt2_A V c t h0 h1]
      unfold sout2_A_0; (try dsimp only)
      by_cases hz : t.val = 0
      · rw [PhiS2_castSucc V c t, PhiS2_zero V c _ _ hz, PhiA2_eq]
        iintro ⟨⟨⟨HS0, Hr⟩, Hg⟩, Ho, ⟨%d0, H0⟩, ⟨%d1, H1⟩, ⟨%d2, H2⟩, ⟨%d3, H3⟩, ⟨%d4, H4⟩⟩
        iapply ((kernelRun2_A c (grid2.coords t) _ _ _ _ _ _ _ _ _ _ _ _ ((hcond2_0 t).mpr h0) (fun h => h1 ((hcond2_1 t).mp h)) (xa2 V c t) (xd2 V c t) (xb2 V c t) (xg2 V c t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover2_A_0 c _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        iexists _; iexact H4
      · rw [PhiS2_castSucc V c t, PhiS2_pos V c _ _ hz]
        iintro ⟨⟨⟨HS0, Hr⟩, Hg⟩, Ho, ⟨%d0, H0⟩, ⟨%d1, H1⟩, ⟨%d2, H2⟩, ⟨%d3, H3⟩, ⟨%d4, H4⟩⟩
        iapply ((kernelRun2_A c (grid2.coords t) _ _ _ _ _ _ _ _ _ _ _ _ ((hcond2_0 t).mpr h0) (fun h => h1 ((hcond2_1 t).mp h)) (xa2 V c t) (xd2 V c t) (xb2 V c t) (xg2 V c t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover2_A_0 c _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        iexists _; iexact H4
  · by_cases h1 : t.val % 49 = 48
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4_C t (fun h => h0 ((hcond2_0 t).mp h)) ((hcond2_1 t).mpr h1)], after2_4]
      rw [outsAt2_C V c t h0 h1]
      unfold out2_C_4 sout2_C_0; (try dsimp only)
      by_cases hz : t.val = 0
      · exfalso; omega
      · rw [PhiS2_castSucc V c t, PhiS2_pos V c _ _ hz]
        iintro ⟨⟨⟨HS0, Hr⟩, Hg⟩, Ho, ⟨%d0, H0⟩, ⟨%d1, H1⟩, ⟨%d2, H2⟩, ⟨%d3, H3⟩, ⟨%d4, H4⟩⟩
        iapply ((kernelRun2_C c (grid2.coords t) _ _ _ _ _ _ _ _ _ _ _ _ (fun h => h0 ((hcond2_0 t).mp h)) ((hcond2_1 t).mpr h1) (xa2 V c t) (xd2 V c t) (xb2 V c t) (xg2 V c t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover2_C_0 c _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover2_C_4 c _ _ _ _ _ _ _ _ _ _ _ _ _ _ _ _ _ _ _ _)
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [Dat.leavesExact_idle (dat2 V c) 4 t (idleAt2_4_B t (fun h => h0 ((hcond2_0 t).mp h)) (fun h => h1 ((hcond2_1 t).mp h))) (noFlush2_4_B t (fun h => h0 ((hcond2_0 t).mp h)) (fun h => h1 ((hcond2_1 t).mp h)))]
      rw [outsAt2_B V c t h0 h1]
      unfold sout2_B_0; (try dsimp only)
      by_cases hz : t.val = 0
      · exfalso; omega
      · rw [PhiS2_castSucc V c t, PhiS2_pos V c _ _ hz]
        iintro ⟨⟨⟨HS0, Hr⟩, Hg⟩, Ho, ⟨%d0, H0⟩, ⟨%d1, H1⟩, ⟨%d2, H2⟩, ⟨%d3, H3⟩, ⟨%d4, H4⟩⟩
        iapply ((kernelRun2_B c (grid2.coords t) _ _ _ _ _ _ _ _ _ _ _ _ (fun h => h0 ((hcond2_0 t).mp h)) (fun h => h1 ((hcond2_1 t).mp h)) (xa2 V c t) (xd2 V c t) (xb2 V c t) (xg2 V c t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover2_B_0 c _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: the scratch's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, Hr⟩, Hg⟩
  isplitl [HS0 Hr]
  · isplitl [HS0]
    · iexists _; iexact HS0
    iexact Hr
  iexact Hg

/-- The same after the last point. -/
theorem hout2 (c : Dev nD) : (dat2 V c).Φ (Fin.last cfg2.N) ⊢ Pipeline.ΦA spec2 c :=
  Phi_out2 V c _ (by rw [Fin.val_last]; have : cfg2.N = 98 := N_2; omega)

/-- The core owes nothing at any point. -/
theorem owed2 (c : Dev nD) (t) : (dat2 V c).owed t = 0 := rfl

end Region2

end Cert.KernelIdeal.Gen

end
-- ==== Proof.KI.Run.lean ====
/-
  The run of the whole program: the buffer contents at every boundary of @main as a fold from the launch memory, the three
  regions as segments between the host stretches, and the launch: every weakly fair execution terminates with every
  unscoped buffer at the last boundary's contents.
-/
import proofs.«400187_j27350351741543_3_alg».proof.Proof.KI.Reg1
import proofs.«400187_j27350351741543_3_alg».proof.Proof.KI.Reg2
import proofs.«400187_j27350351741543_3_alg».proof.Proof.Gen.KernelIdeal.Regions

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

section Run
variable (m : (ℓ : Loc nD τ sig) → Buf (Elt F) ℓ) (ρ : Dev nD → PrngReg)

/-! ## The buffer contents at each boundary of @main

Between two items of @main every unscoped buffer holds a value that is a function of the launch memory: a host
stretch applies its operations; a kernel region replaces its output array by what its write-backs leave. -/

/-- The contents the first region is entered with, read at the TensorCore's references. -/
abbrev E3 : (c : Dev nD) → (b : Ref sig .tc) → Buf (Elt F) ((c : Thread nD τ).loc b) := fun c b => V3 m c b
/-- What the first region leaves in its output array: the scaled feature transform, block by block. -/
def o4 (c : Dev nD) : Buf (Elt F) ((c : Thread nD τ).loc main_v16) := (dat0 (E3 m) c).arrAt 3 cfg0.N
/-- After the first region. -/
def U4 (c : Dev nD) : Valuation τ sig (Elt F) := Function.update (V3 m c) main_v16 (o4 m c)
/-- After the gather and scatter-add between the first two regions. -/
def U5 (c : Dev nD) : Valuation τ sig (Elt F) := StableHlo.after hostOps1 (U4 m c)
abbrev E5 : (c : Dev nD) → (b : Ref sig .tc) → Buf (Elt F) ((c : Thread nD τ).loc b) := fun c b => U5 m c b
/-- What the second region leaves in its output array. -/
def o6 (c : Dev nD) : Buf (Elt F) ((c : Thread nD τ).loc main_v28) := (dat1 (E5 m) c).arrAt 4 cfg1.N
def U6 (c : Dev nD) : Valuation τ sig (Elt F) := Function.update (U5 m c) main_v28 (o6 m c)
def U7 (c : Dev nD) : Valuation τ sig (Elt F) := StableHlo.after hostOps2 (U6 m c)
def U8 (c : Dev nD) : Valuation τ sig (Elt F) := StableHlo.after hostOps2_1 (U7 m c)
def U9 (c : Dev nD) : Valuation τ sig (Elt F) := StableHlo.after hostOps2_2 (U8 m c)
def U10 (c : Dev nD) : Valuation τ sig (Elt F) := StableHlo.after hostOps2_3 (U9 m c)
def U11 (c : Dev nD) : Valuation τ sig (Elt F) := StableHlo.after hostOps2_4 (U10 m c)
abbrev E11 : (c : Dev nD) → (b : Ref sig .tc) → Buf (Elt F) ((c : Thread nD τ).loc b) := fun c b => U11 m c b
/-- What the third region leaves in its output array: the two cores' pooled partial sums. -/
def o12 (c : Dev nD) : Buf (Elt F) ((c : Thread nD τ).loc main_v43) := (dat2 (E11 m) c).arrAt 4 cfg2.N
def U12 (c : Dev nD) : Valuation τ sig (Elt F) := Function.update (U11 m c) main_v43 (o12 m c)
def U13 (c : Dev nD) : Valuation τ sig (Elt F) := StableHlo.after hostOps3 (U12 m c)

/-- What the three regions leave, as the unknowns the boundary valuations are written over. -/
def outs : Outs (F := F) := fun J r c => match J with
  | 4 => U4 m c r
  | 6 => U6 m c r
  | _ => U12 m c r

/-! ## The generated boundary valuations at these unknowns are the ones above -/

theorem V4_eq (c : Dev nD) : V4 m (outs m ) c = U4 m c := by
  unfold V4 outs U4; simp only [Function.update_self]
theorem V5_eq (c : Dev nD) : V5 m (outs m ) c = U5 m c := by unfold V5 U5; rw [V4_eq]
theorem V6_eq (c : Dev nD) : V6 m (outs m ) c = U6 m c := by
  unfold V6; rw [V5_eq]; unfold outs U6; simp only [Function.update_self]
theorem V7_eq (c : Dev nD) : V7 m (outs m ) c = U7 m c := by unfold V7 U7; rw [V6_eq]
theorem V8_eq (c : Dev nD) : V8 m (outs m ) c = U8 m c := by unfold V8 U8; rw [V7_eq]
theorem V9_eq (c : Dev nD) : V9 m (outs m ) c = U9 m c := by unfold V9 U9; rw [V8_eq]
theorem V10_eq (c : Dev nD) : V10 m (outs m ) c = U10 m c := by unfold V10 U10; rw [V9_eq]
theorem V11_eq (c : Dev nD) : V11 m (outs m ) c = U11 m c := by unfold V11 U11; rw [V10_eq]
theorem V12_eq (c : Dev nD) : V12 m (outs m ) c = U12 m c := by
  unfold V12; rw [V11_eq]; unfold outs U12; simp only [Function.update_self]
theorem V13_eq (c : Dev nD) : V13 m (outs m ) c = U13 m c := by unfold V13 U13; rw [V12_eq]

/-! ## The proof data family and the thread state -/

/-- Every pipeline's proof data, each at its region's entry contents. -/
def pdats : (p : Fin 3) → (c : Dev nD) → Dat τ (Elt F) Unit ℕ (UR sig nD τ) ℕ (cfgs p) c
  | ⟨0, _⟩ => fun c => dat0 (E3 m) c
  | ⟨1, _⟩ => fun c => dat1 (E5 m) c
  | ⟨2, _⟩ => fun c => dat2 (E11 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its
    debts, which are none. -/
abbrev R (c : Dev nD) : sProp 𝕄 := iprop((∃ r, prngReg c r) ∗ ∃ W, owes (c : Thread nD τ) (0 : CellTallies nD τ sig Unit) W)
abbrev ER : Fin 4 → Dev nD → sProp 𝕄 := fun _ c => R c

/-! ## A region's exit contents: its output array at what the write-backs leave, every other buffer as entered -/

theorem U4_of (c : Dev nD) (r : Ref sig .tc) (h : r ∉ ([main_v16] : List (Ref sig .tc))) : U4 m c r = V3 m c r := by
  simp only [U4, Function.update_of_ne (StableHlo.devRef_ne_of_ne (List.ne_of_not_mem_cons h) : (Proc.devRef .tc r : DevRef τ sig) ≠ Proc.devRef .tc main_v16)]
theorem U4_out (c : Dev nD) : U4 m c main_v16 = o4 m c := by unfold U4; simp only [Function.update_self]
theorem U6_of (c : Dev nD) (r : Ref sig .tc) (h : r ∉ ([main_v28] : List (Ref sig .tc))) : U6 m c r = U5 m c r := by
  simp only [U6, Function.update_of_ne (StableHlo.devRef_ne_of_ne (List.ne_of_not_mem_cons h) : (Proc.devRef .tc r : DevRef τ sig) ≠ Proc.devRef .tc main_v28)]
theorem U6_out (c : Dev nD) : U6 m c main_v28 = o6 m c := by unfold U6; simp only [Function.update_self]
theorem U12_of (c : Dev nD) (r : Ref sig .tc) (h : r ∉ ([main_v43] : List (Ref sig .tc))) : U12 m c r = U11 m c r := by
  simp only [U12, Function.update_of_ne (StableHlo.devRef_ne_of_ne (List.ne_of_not_mem_cons h) : (Proc.devRef .tc r : DevRef τ sig) ≠ Proc.devRef .tc main_v43)]
theorem U12_out (c : Dev nD) : U12 m c main_v43 = o12 m c := by unfold U12; simp only [Function.update_self]

theorem hF0 (c : Dev nD) (w : Fin cfg0.W) : (pdats m 0 c).arrAt w cfg0.N = U4 m c (Pipeline.arrRef spec0 w) := by
  match w with
  | ⟨0, _⟩ => exact ((dat0 (E3 m) c).arrAt_in 0 rfl _).trans ((A_eq0 (E3 m) c 0).trans (U4_of m c main_arg0 (by decide)).symm)
  | ⟨1, _⟩ => exact ((dat0 (E3 m) c).arrAt_in 1 rfl _).trans ((A_eq0 (E3 m) c 1).trans (U4_of m c main_arg3 (by decide)).symm)
  | ⟨2, _⟩ => exact ((dat0 (E3 m) c).arrAt_in 2 rfl _).trans ((A_eq0 (E3 m) c 2).trans (U4_of m c main_v15 (by decide)).symm)
  | ⟨3, _⟩ => exact (U4_out m c).symm
theorem hrest0 (c : Dev nD) : ∀ b, b ∉ Finset.univ.image (Pipeline.arrRef spec0) → U4 m c b = E3 m c b :=
  fun b hb => U4_of m c b (fun h => hb (Finset.mem_image.mpr ⟨3, Finset.mem_univ _, (List.mem_singleton.mp h).symm⟩))

theorem hF1 (c : Dev nD) (w : Fin cfg1.W) : (pdats m 1 c).arrAt w cfg1.N = U6 m c (Pipeline.arrRef spec1 w) := by
  match w with
  | ⟨0, _⟩ => exact ((dat1 (E5 m) c).arrAt_in 0 rfl _).trans ((A_eq1 (E5 m) c 0).trans (U6_of m c main_v26 (by decide)).symm)
  | ⟨1, _⟩ => exact ((dat1 (E5 m) c).arrAt_in 1 rfl _).trans ((A_eq1 (E5 m) c 1).trans (U6_of m c main_v15 (by decide)).symm)
  | ⟨2, _⟩ => exact ((dat1 (E5 m) c).arrAt_in 2 rfl _).trans ((A_eq1 (E5 m) c 2).trans (U6_of m c main_v27 (by decide)).symm)
  | ⟨3, _⟩ => exact ((dat1 (E5 m) c).arrAt_in 3 rfl _).trans ((A_eq1 (E5 m) c 3).trans (U6_of m c main_arg5 (by decide)).symm)
  | ⟨4, _⟩ => exact (U6_out m c).symm
theorem hrest1 (c : Dev nD) : ∀ b, b ∉ Finset.univ.image (Pipeline.arrRef spec1) → U6 m c b = E5 m c b :=
  fun b hb => U6_of m c b (fun h => hb (Finset.mem_image.mpr ⟨4, Finset.mem_univ _, (List.mem_singleton.mp h).symm⟩))

theorem hF2 (c : Dev nD) (w : Fin cfg2.W) : (pdats m 2 c).arrAt w cfg2.N = U12 m c (Pipeline.arrRef spec2 w) := by
  match w with
  | ⟨0, _⟩ => exact ((dat2 (E11 m) c).arrAt_in 0 rfl _).trans ((A_eq2 (E11 m) c 0).trans (U12_of m c main_v38 (by decide)).symm)
  | ⟨1, _⟩ => exact ((dat2 (E11 m) c).arrAt_in 1 rfl _).trans ((A_eq2 (E11 m) c 1).trans (U12_of m c main_v39 (by decide)).symm)
  | ⟨2, _⟩ => exact ((dat2 (E11 m) c).arrAt_in 2 rfl _).trans ((A_eq2 (E11 m) c 2).trans (U12_of m c main_v41 (by decide)).symm)
  | ⟨3, _⟩ => exact ((dat2 (E11 m) c).arrAt_in 3 rfl _).trans ((A_eq2 (E11 m) c 3).trans (U12_of m c main_v42 (by decide)).symm)
  | ⟨4, _⟩ => exact (U12_out m c).symm
theorem hrest2 (c : Dev nD) : ∀ b, b ∉ Finset.univ.image (Pipeline.arrRef spec2) → U12 m c b = E11 m c b :=
  fun b hb => U12_of m c b (fun h => hb (Finset.mem_image.mpr ⟨4, Finset.mem_univ _, (List.mem_singleton.mp h).symm⟩))

set_option backward.isDefEq.respectTransparency.types false in
/-- The first region over the thread state: entered with every unscoped buffer at its entry contents, left with
    its output array replaced by what its write-backs leave and every other buffer as entered. -/
def reg0 : Pipeline.RegionSeg (pcfgs (F := F)) adm (pdats m ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E3 m) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (U4 m c) ∗ R c)
  X c := iprop(∃ r, prngReg c r)
  Y c := iprop(∃ r, prngReg c r)
  Z c := Pipeline.unscopedRest (Ix := Unit) (Name := ℕ) (U := UR sig nD τ) (Lvl := ℕ) spec0 c (E3 m c)
  hentry c := by
    rw [Pipeline.ownSems0_none]
    have hsplit := Pipeline.arrays_of_unscopedBufs (p := 0) (pcfgs (F := F)) adm (pdats m ) launch0.win launch0.arr_whole c
      ((pdats m 0 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ) ((pdats m 0 c).share_full fun _ => rfl)
      (E3 m c) (fun b => U4 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered with every unscoped buffer at its entry contents, left with
    its output array replaced by what its write-backs leave and every other buffer as entered. -/
def reg1 : Pipeline.RegionSeg (pcfgs (F := F)) adm (pdats m ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E5 m) c).loose
  hwaits := Pipeline.hwaits_of_owed_zero _ _ _ _ L lv 1 fun _ _ => rfl
  pre c := iprop(StableHlo.held (c : Thread nD τ) (Pipeline.ucRefs τ sig) (U5 m c) ∗ R c)
  post c := iprop(StableHlo.held (c : Thread nD τ) (Pipeline.ucRefs τ sig) (U6 m c) ∗ R c)
  X c := iprop(∃ r, prngReg c r)
  Y c := iprop(∃ r, prngReg c r)
  Z c := Pipeline.unscopedRest (Ix := Unit) (Name := ℕ) (U := UR sig nD τ) (Lvl := ℕ) spec1 c (E5 m c)
  hentry c := by
    rw [Pipeline.ownSems0_none]
    have hsplit := Pipeline.arrays_of_unscopedBufs (p := 1) (pcfgs (F := F)) adm (pdats m ) launch1.win launch1.arr_whole c
      ((pdats m 1 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ) ((pdats m 1 c).share_full fun _ => rfl)
      (E5 m c) (fun b => U6 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third region over the thread state: entered with every unscoped buffer at its entry contents, left with
    its output array replaced by what its write-backs leave and every other buffer as entered. -/
def reg2 : Pipeline.RegionSeg (pcfgs (F := F)) adm (pdats m ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E11 m) c).loose
  hwaits := Pipeline.hwaits_of_owed_zero _ _ _ _ L lv 2 fun _ _ => rfl
  pre c := iprop(StableHlo.held (c : Thread nD τ) (Pipeline.ucRefs τ sig) (U11 m c) ∗ R c)
  post c := iprop(StableHlo.held (c : Thread nD τ) (Pipeline.ucRefs τ sig) (U12 m c) ∗ R c)
  X c := iprop(∃ r, prngReg c r)
  Y c := iprop(∃ r, prngReg c r)
  Z c := Pipeline.unscopedRest (Ix := Unit) (Name := ℕ) (U := UR sig nD τ) (Lvl := ℕ) spec2 c (E11 m c)
  hentry c := by
    rw [Pipeline.ownSems0_none]
    have hsplit := Pipeline.arrays_of_unscopedBufs (p := 2) (pcfgs (F := F)) adm (pdats m ) launch2.win launch2.arr_whole c
      ((pdats m 2 c).share_full fun _ => rfl) (E11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (E11 m) c); unfold Pipeline.ΦA
    iintro ⟨Hp, -, Hr⟩
    isplitl [Hr]; · iexact Hr
    iexact Hp
  hout c := by
    rw [Pipeline.ownSems0_none]
    refine BIBase.Entails.trans (hout2 (E11 m) c) ?_; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ) ((pdats m 2 c).share_full fun _ => rfl)
      (E11 m c) (fun b => U12 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters every weakly fair execution of @main terminates, and in every final
    memory each unscoped buffer holds the last boundary's contents: the launch memory folded through the host
    stretches and the three regions. The frame claim and the value claim are both read off this post. -/
theorem run_all : θ_run defs (onTc (τ := τ) (main (F := F))) ⟨m, fun _ => 0, ρ⟩ (fun r => ∀ c : Dev nD,
      ∀ b ∈ Pipeline.ucRefs τ sig, r.2.mem ((c : Thread nD τ).1, b) = U13 m c b) := by
  refine Pipeline.θ_run_regions_kit_dev (pcfgs (F := F)) adm (pdats m ) () cellOf_inj emb₁ defs₀ 𝒱₀ L lv m ρ main
    (segs m (outs m ) 𝒱₀ L lv ER () (pdats m ) (reg0 m ) (reg1 m ) (reg2 m ))
    (fun c Q => by
      rewrite [main_chain c, Pipeline.Seg.run_eq_chain,
        show (segs m (outs m ) 𝒱₀ L lv ER () (pdats m ) (reg0 m ) (reg1 m ) (reg2 m ) c).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4,
          Prog.lift (.customCall (Pipeline.entry 2) ()),
          StableHlo.seq hostOps3 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (V13 m (outs m ) c) ∗ ∃ r, prngReg c r))
    (hch := fun c => ⟨.rfl, .rfl, .rfl, .rfl,
      (show iprop(StableHlo.held (c : Thread nD τ) (Pipeline.ucRefs τ sig) (U4 m c) ∗ R c)
          ⊢ iprop(StableHlo.held (c : Thread nD τ) (Pipeline.ucRefs τ sig) (V4 m (outs m) c) ∗ R c) from by rw [V4_eq]),
      (show iprop(StableHlo.held (c : Thread nD τ) (Pipeline.ucRefs τ sig) (V5 m (outs m) c) ∗ R c)
          ⊢ iprop(StableHlo.held (c : Thread nD τ) (Pipeline.ucRefs τ sig) (U5 m c) ∗ R c) from by rw [V5_eq]),
      (show iprop(StableHlo.held (c : Thread nD τ) (Pipeline.ucRefs τ sig) (U6 m c) ∗ R c)
          ⊢ iprop(StableHlo.held (c : Thread nD τ) (Pipeline.ucRefs τ sig) (V6 m (outs m) c) ∗ R c) from by rw [V6_eq]),
      .rfl, .rfl, .rfl, .rfl,
      (show iprop(StableHlo.held (c : Thread nD τ) (Pipeline.ucRefs τ sig) (V11 m (outs m) c) ∗ R c)
          ⊢ iprop(StableHlo.held (c : Thread nD τ) (Pipeline.ucRefs τ sig) (U11 m c) ∗ R c) from by rw [V11_eq]),
      (show iprop(StableHlo.held (c : Thread nD τ) (Pipeline.ucRefs τ sig) (U12 m c) ∗ R c)
          ⊢ iprop(StableHlo.held (c : Thread nD τ) (Pipeline.ucRefs τ sig) (V12 m (outs m) c) ∗ R c) from by rw [V12_eq]),
      (show iprop(StableHlo.held (c : Thread nD τ) (Pipeline.ucRefs τ sig) (V13 m (outs m) c) ∗ R c)
          ⊢ iprop((StableHlo.held (c : Thread nD τ) (Pipeline.ucRefs τ sig) (V13 m (outs m) c) ∗ ∃ r, prngReg c r)
              ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U13 m c b)
    (hfin := fun c s' => by
      rw [V13_eq]
      iintro ⟨⟨Hh, -⟩, HSI⟩
      unfold StableHlo.held
      imodintro
      iapply (pointsTo_read_all (Pipeline.ucRefs τ sig) (fun b => (((c : Thread nD τ)).1, b)) (U13 m c) s')
      isplitl [Hh] <;> iassumption)
    (hQ := fun s h c => h c)

end Run

end Cert.KernelIdeal.Gen

end
-- ==== Proof.KI.Frame.lean ====
/-
  The frame claim read off the run: no host stretch and no region writes an argument array, so the last boundary's
  contents at each argument are the launch contents.
-/
import proofs.«400187_j27350351741543_3_alg».proof.Proof.KI.Run

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

section Frame
variable (m : (ℓ : Loc nD τ sig) → Buf (Elt F) ℓ) (ρ : Dev nD → PrngReg)

/-- Argument 0 ends as launched. -/
theorem U13_main_arg0 (c : Dev nD) : U13 m c main_arg0 = m ((c : Thread nD τ).loc main_arg0) :=
  (congrFun (V13_eq m c) _).symm.trans (V13_main_arg0 m (outs m) c)
/-- Argument 1 ends as launched. -/
theorem U13_main_arg1 (c : Dev nD) : U13 m c main_arg1 = m ((c : Thread nD τ).loc main_arg1) :=
  (congrFun (V13_eq m c) _).symm.trans (V13_main_arg1 m (outs m) c)
/-- Argument 2 ends as launched. -/
theorem U13_main_arg2 (c : Dev nD) : U13 m c main_arg2 = m ((c : Thread nD τ).loc main_arg2) :=
  (congrFun (V13_eq m c) _).symm.trans (V13_main_arg2 m (outs m) c)
/-- Argument 3 ends as launched. -/
theorem U13_main_arg3 (c : Dev nD) : U13 m c main_arg3 = m ((c : Thread nD τ).loc main_arg3) :=
  (congrFun (V13_eq m c) _).symm.trans (V13_main_arg3 m (outs m) c)
/-- Argument 4 ends as launched. -/
theorem U13_main_arg4 (c : Dev nD) : U13 m c main_arg4 = m ((c : Thread nD τ).loc main_arg4) :=
  (congrFun (V13_eq m c) _).symm.trans (V13_main_arg4 m (outs m) c)
/-- Argument 5 ends as launched. -/
theorem U13_main_arg5 (c : Dev nD) : U13 m c main_arg5 = m ((c : Thread nD τ).loc main_arg5) :=
  (congrFun (V13_eq m c) _).symm.trans (V13_main_arg5 m (outs m) c)
/-- Argument 6 ends as launched. -/
theorem U13_main_arg6 (c : Dev nD) : U13 m c main_arg6 = m ((c : Thread nD τ).loc main_arg6) :=
  (congrFun (V13_eq m c) _).symm.trans (V13_main_arg6 m (outs m) c)
/-- Argument 7 ends as launched. -/
theorem U13_main_arg7 (c : Dev nD) : U13 m c main_arg7 = m ((c : Thread nD τ).loc main_arg7) :=
  (congrFun (V13_eq m c) _).symm.trans (V13_main_arg7 m (outs m) c)
/-- Argument 8 ends as launched. -/
theorem U13_main_arg8 (c : Dev nD) : U13 m c main_arg8 = m ((c : Thread nD τ).loc main_arg8) :=
  (congrFun (V13_eq m c) _).symm.trans (V13_main_arg8 m (outs m) c)

/-- THE FRAME: every weakly fair execution of @main terminates, nothing faulting, and every argument array ends as launched. -/
theorem frame_run : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (U13_main_arg0 m c),
     (h c _ (mem_uc main_arg1 (by decide))).trans (U13_main_arg1 m c),
     (h c _ (mem_uc main_arg2 (by decide))).trans (U13_main_arg2 m c),
     (h c _ (mem_uc main_arg3 (by decide))).trans (U13_main_arg3 m c),
     (h c _ (mem_uc main_arg4 (by decide))).trans (U13_main_arg4 m c),
     (h c _ (mem_uc main_arg5 (by decide))).trans (U13_main_arg5 m c),
     (h c _ (mem_uc main_arg6 (by decide))).trans (U13_main_arg6 m c),
     (h c _ (mem_uc main_arg7 (by decide))).trans (U13_main_arg7 m c),
     (h c _ (mem_uc main_arg8 (by decide))).trans (U13_main_arg8 m c)⟩) (run_all m ρ)

/-- THE VALUE RUN: the same executions end with the result array at the last boundary's contents, beside the frame. -/
theorem value_run : θ_run defs (onTc (τ := τ) (main (F := F))) ⟨m, fun _ => 0, ρ⟩ (fun r => ∀ c : Dev nD,
      r.2.mem ((c.tc : Thread nD τ).loc main_v52) = U13 m c main_v52
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨h c _ (mem_uc main_v52 (by decide)),
     (h c _ (mem_uc main_arg0 (by decide))).trans (U13_main_arg0 m c),
     (h c _ (mem_uc main_arg1 (by decide))).trans (U13_main_arg1 m c),
     (h c _ (mem_uc main_arg2 (by decide))).trans (U13_main_arg2 m c),
     (h c _ (mem_uc main_arg3 (by decide))).trans (U13_main_arg3 m c),
     (h c _ (mem_uc main_arg4 (by decide))).trans (U13_main_arg4 m c),
     (h c _ (mem_uc main_arg5 (by decide))).trans (U13_main_arg5 m c),
     (h c _ (mem_uc main_arg6 (by decide))).trans (U13_main_arg6 m c),
     (h c _ (mem_uc main_arg7 (by decide))).trans (U13_main_arg7 m c),
     (h c _ (mem_uc main_arg8 (by decide))).trans (U13_main_arg8 m c)⟩) (run_all m ρ)

end Frame

end Cert.KernelIdeal.Gen

end
-- ==== Proof.KI.KHost.lean ====
/-
  What the host stretches of the kernel program's entry function compute. Each lemma reads one buffer after one
  stretch of host operations, from an arbitrary starting valuation, as a term over that valuation's contents:
  the edge lists with the self-loops appended, the inverse square-root degree, the two neighbourhood sums
  (a gather by source node scatter-added by target node), the padded columns and the final projection.
-/
import proofs.«400187_j27350351741543_3_alg».proof.Proof.Gen.KernelIdeal.Regions
import Idealize.ShloMosaic.Lib.StableHlo.Run

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- What each gather's index operand is: a row index, wrapped by the node count where negative, as a column. -/
def normT (r : IVec S1100000 32) : IVec S1100000x1 32 :=
  broadcastInDim S1100000x1 ![0] bcast_S1100000_S1100000x1_0
    (select (cmpi .slt r (broadcastInDim S1100000 ![] bcast_S_S1100000 (constantI S_ 32 0#32)))
      (addi r (broadcastInDim S1100000 ![] bcast_S_S1100000 (constantI S_ 32 100000#32))) r)

/-- The last stretch: the two partial results summed, projected by the output weights, the bias added. -/
theorem hostOps3_v52 (W : Valuation τ sig (Elt F)) :
    (StableHlo.after hostOps3 W (Proc.devRef .tc main_v52) : (⟨S1024x1, .f32⟩ : BufTy).Contents (Elt F))
      = addf (Host.dotGeneral dot_S1024x64_S64x1_S1024x1_1_0_0_1_n_n none
          (addf (shapeCast S1024x64 (extractStridedSlice S1x1024x64 ![0, 0, 0] (W (Proc.devRef .tc main_v43) : (⟨S2x1024x64, .f32⟩ : BufTy).Contents (Elt F)) slices_S2x1024x64_S1x1024x64_0_0_0) shapeCasts_S1x1024x64_S1024x64)
                (shapeCast S1024x64 (extractStridedSlice S1x1024x64 ![1, 0, 0] (W (Proc.devRef .tc main_v43) : (⟨S2x1024x64, .f32⟩ : BufTy).Contents (Elt F)) slices_S2x1024x64_S1x1024x64_1_0_0) shapeCasts_S1x1024x64_S1024x64))
          (W (Proc.devRef .tc main_arg7) : (⟨S64x1, .f32⟩ : BufTy).Contents (Elt F)))
        (broadcastInDim S1024x1 ![0, 1] bcast_S1x1_S1024x1_0_1 (broadcastInDim S1x1 ![1] bcast_S1_S1x1_1 (W (Proc.devRef .tc main_arg8) : (⟨S1, .f32⟩ : BufTy).Contents (Elt F)))) := by
  after_results <;> rfl

/-- The first neighbourhood sum: the scaled features gathered by source node, scatter-added by target node. -/
theorem hostOps1_v26 (W : Valuation τ sig (Elt F)) :
    (StableHlo.after hostOps1 W (Proc.devRef .tc main_v26) : (⟨S100000x64, .f32⟩ : BufTy).Contents (Elt F))
      = Host.scatterAdd scatter_S100000x64_S1100000x1_S1100000x64_1_0_0_1
          (broadcastInDim S100000x64 ![] bcast_S_S100000x64 (constant (F := F) S_ .f32 0x00000000#32))
          (broadcastInDim S1100000x1 ![0] bcast_S1100000_S1100000x1_0 (W (Proc.devRef .tc main_v6) : (⟨S1100000, .i32⟩ : BufTy).Contents (Elt F)))
          (Host.gather gather_S100000x64_S1100000x1_S1100000x64_1_0_n_n_0_1_164 (W (Proc.devRef .tc main_v16) : (⟨S100000x64, .f32⟩ : BufTy).Contents (Elt F))
            (normT (W (Proc.devRef .tc main_v5) : (⟨S1100000, .i32⟩ : BufTy).Contents (Elt F)))) := by
  after_results <;> rfl

/-- The first layer's bias as a row. -/
theorem hostOps1_v27 (W : Valuation τ sig (Elt F)) :
    (StableHlo.after hostOps1 W (Proc.devRef .tc main_v27) : (⟨S1x64, .f32⟩ : BufTy).Contents (Elt F))
      = shapeCast S1x64 (W (Proc.devRef .tc main_arg4) : (⟨S64, .f32⟩ : BufTy).Contents (Elt F)) shapeCasts_S64_S1x64 := by
  after_results <;> rfl

/-- The source nodes with the self-loops appended: the edge list's first row, then every node once. -/
def rowsT (ei : (⟨S2x1000000, .i32⟩ : BufTy).Contents (Elt F)) : IVec S1100000 32 :=
  concatenate S1100000 0
    [⟨S1000000, shapeCast S1000000 (extractStridedSlice S1x1000000 ![0, 0] ei slices_S2x1000000_S1x1000000_0_0) shapeCasts_S1x1000000_S1000000⟩,
     ⟨S100000, iotaInDim S100000 32 0⟩] concatenates_S1000000_S100000_S1100000_d0

/-- The target nodes with the self-loops appended: the edge list's second row, then every node once. -/
def colsT (ei : (⟨S2x1000000, .i32⟩ : BufTy).Contents (Elt F)) : IVec S1100000 32 :=
  concatenate S1100000 0
    [⟨S1000000, shapeCast S1000000 (extractStridedSlice S1x1000000 ![1, 0] ei slices_S2x1000000_S1x1000000_1_0) shapeCasts_S1x1000000_S1000000⟩,
     ⟨S100000, iotaInDim S100000 32 0⟩] concatenates_S1000000_S100000_S1100000_d0

/-- The degree: the scatter-added count of incoming edges (self-loops included) of every node. -/
def degT (ei : (⟨S2x1000000, .i32⟩ : BufTy).Contents (Elt F)) : FVec F S100000 .f32 :=
  Host.scatterAdd scatter_S100000_S1100000x1_S1100000_n_0_0_1
    (broadcastInDim S100000 ![] bcast_S_S100000 (constant (F := F) S_ .f32 0x00000000#32))
    (broadcastInDim S1100000x1 ![0] bcast_S1100000_S1100000x1_0 (colsT (F := F) ei))
    (broadcastInDim S1100000 ![] bcast_S_S1100000 (constant (F := F) S_ .f32 0x3F800000#32))

/-- The inverse square-root degree: the degree's inverse square root where the degree is positive, zero elsewhere. -/
def dinvT (ei : (⟨S2x1000000, .i32⟩ : BufTy).Contents (Elt F)) : FVec F S100000 .f32 :=
  select (cmpf (F := F) .ogt (degT ei) (broadcastInDim S100000 ![] bcast_S_S100000 (constant (F := F) S_ .f32 0x00000000#32)))
    (Host.rsqrt (F := F) (degT ei))
    (broadcastInDim S100000 ![] bcast_S_S100000 (id (constant (F := F) S_ .f32 0x00000000#32)))

/-- The first stretch leaves the source nodes, self-loops appended. -/
theorem hostOps0_v5 (W : Valuation τ sig (Elt F)) :
    (StableHlo.after hostOps0 W (Proc.devRef .tc main_v5) : (⟨S1100000, .i32⟩ : BufTy).Contents (Elt F))
      = rowsT (F := F) (W (Proc.devRef .tc main_arg1) : (⟨S2x1000000, .i32⟩ : BufTy).Contents (Elt F)) := by
  unfold rowsT; after_results <;> rfl

/-- The first stretch leaves the target nodes, self-loops appended. -/
theorem hostOps0_v6 (W : Valuation τ sig (Elt F)) :
    (StableHlo.after hostOps0 W (Proc.devRef .tc main_v6) : (⟨S1100000, .i32⟩ : BufTy).Contents (Elt F))
      = colsT (F := F) (W (Proc.devRef .tc main_arg1) : (⟨S2x1000000, .i32⟩ : BufTy).Contents (Elt F)) := by
  unfold colsT; after_results <;> rfl

/-- The first stretch leaves the mask of the nodes of positive degree. -/
theorem hostOps0_v12 (W : Valuation τ sig (Elt F)) :
    (StableHlo.after hostOps0 W (Proc.devRef .tc main_v12) : (⟨S100000, .i1⟩ : BufTy).Contents (Elt F))
      = cmpf (F := F) .ogt (degT (F := F) (W (Proc.devRef .tc main_arg1) : (⟨S2x1000000, .i32⟩ : BufTy).Contents (Elt F)))
          (broadcastInDim S100000 ![] bcast_S_S100000 (constant (F := F) S_ .f32 0x00000000#32)) := by
  unfold degT colsT; after_results <;> rfl

/-- The first stretch leaves the degree's inverse square root. -/
theorem hostOps0_v13 (W : Valuation τ sig (Elt F)) :
    (StableHlo.after hostOps0 W (Proc.devRef .tc main_v13) : (⟨S100000, .f32⟩ : BufTy).Contents (Elt F))
      = Host.rsqrt (F := F) (degT (F := F) (W (Proc.devRef .tc main_arg1) : (⟨S2x1000000, .i32⟩ : BufTy).Contents (Elt F))) := by
  unfold degT colsT; after_results <;> rfl

/-- The first stretch leaves the zero the degree-free nodes get. -/
theorem hostOps0_cst_2 (W : Valuation τ sig (Elt F)) :
    (StableHlo.after hostOps0 W (Proc.devRef .tc main_cst_2) : (⟨S_, .f32⟩ : BufTy).Contents (Elt F))
      = constant (F := F) S_ .f32 0x00000000#32 := by
  after_results <;> rfl

/-- The selection: the second operand where the mask holds, the broadcast scalar elsewhere. -/
theorem hostOps0_1_v14 (W : Valuation τ sig (Elt F)) :
    (StableHlo.after hostOps0_1 W (Proc.devRef .tc main_v14) : (⟨S100000, .f32⟩ : BufTy).Contents (Elt F))
      = select (W (Proc.devRef .tc main_v12) : (⟨S100000, .i1⟩ : BufTy).Contents (Elt F))
          (W (Proc.devRef .tc main_v13) : (⟨S100000, .f32⟩ : BufTy).Contents (Elt F))
          (broadcastInDim S100000 ![] bcast_S_S100000 (id (W (Proc.devRef .tc main_cst_2) : (⟨S_, .f32⟩ : BufTy).Contents (Elt F)))) := by
  after_results <;> (try simp only [StableHlo.TRef.ofBuf, StableHlo.TRef.toBuf, cast_eq]) <;> rfl

/-- The first two stretches leave the inverse square-root degree. -/
theorem hostOps0_1_hostOps0_v14 (W : Valuation τ sig (Elt F)) :
    (StableHlo.after hostOps0_1 (StableHlo.after hostOps0 W) (Proc.devRef .tc main_v14) : (⟨S100000, .f32⟩ : BufTy).Contents (Elt F))
      = dinvT (F := F) (W (Proc.devRef .tc main_arg1) : (⟨S2x1000000, .i32⟩ : BufTy).Contents (Elt F)) := by
  rw [hostOps0_1_v14, hostOps0_v12, hostOps0_v13, hostOps0_cst_2]; rfl

/-- The degree column: the inverse square-root degree as one column. -/
theorem hostOps0_2_v15 (W : Valuation τ sig (Elt F)) :
    (StableHlo.after hostOps0_2 W (Proc.devRef .tc main_v15) : (⟨S100000x1, .f32⟩ : BufTy).Contents (Elt F))
      = shapeCast S100000x1 (W (Proc.devRef .tc main_v14) : (⟨S100000, .f32⟩ : BufTy).Contents (Elt F)) shapeCasts_S100000_S100000x1 := by
  after_results <;> rfl

/-- The second neighbourhood sum, over 100352 rows: the hidden features gathered by source node, scatter-added by target node. -/
theorem hostOps2_v38 (W : Valuation τ sig (Elt F)) :
    (StableHlo.after hostOps2 W (Proc.devRef .tc main_v38) : (⟨S100352x64, .f32⟩ : BufTy).Contents (Elt F))
      = Host.scatterAdd scatter_S100352x64_S1100000x1_S1100000x64_1_0_0_1
          (broadcastInDim S100352x64 ![] bcast_S_S100352x64 (constant (F := F) S_ .f32 0x00000000#32))
          (broadcastInDim S1100000x1 ![0] bcast_S1100000_S1100000x1_0 (W (Proc.devRef .tc main_v6) : (⟨S1100000, .i32⟩ : BufTy).Contents (Elt F)))
          (Host.gather gather_S100000x64_S1100000x1_S1100000x64_1_0_n_n_0_1_164 (W (Proc.devRef .tc main_v28) : (⟨S100000x64, .f32⟩ : BufTy).Contents (Elt F))
            (normT (W (Proc.devRef .tc main_v5) : (⟨S1100000, .i32⟩ : BufTy).Contents (Elt F)))) := by
  after_results <;> rfl

/-- The padding value of the degree column, as an integer: zero. -/
theorem hostOps2_c_8 (W : Valuation τ sig (Elt F)) :
    (StableHlo.after hostOps2 W (Proc.devRef .tc main_c_8) : (⟨S_, .i32⟩ : BufTy).Contents (Elt F))
      = constantI S_ 32 0#32 := by
  after_results <;> rfl

/-- The degree column padded by 352 rows of the converted padding value. -/
theorem hostOps2_1_v39 (W : Valuation τ sig (Elt F)) :
    (StableHlo.after hostOps2_1 W (Proc.devRef .tc main_v39) : (⟨S100352x1, .f32⟩ : BufTy).Contents (Elt F))
      = pad S100352x1 ![0, 0] ![352, 0] ![0, 0] (W (Proc.devRef .tc main_v15) : (⟨S100000x1, .f32⟩ : BufTy).Contents (Elt F))
          (sitofp (F := F) .f32 (W (Proc.devRef .tc main_c_8) : (⟨S_, .i32⟩ : BufTy).Contents (Elt F))) pads_S100000x1_S100352x1_03520_000 h_S_ := by
  after_results <;> (try simp only [StableHlo.TRef.ofBuf, StableHlo.TRef.toBuf, cast_eq]) <;> rfl

/-- The padding value of the graph ids: minus one. -/
theorem hostOps2_2_c_9 (W : Valuation τ sig (Elt F)) :
    (StableHlo.after hostOps2_2 W (Proc.devRef .tc main_c_9) : (⟨S_, .i32⟩ : BufTy).Contents (Elt F))
      = constantI S_ 32 4294967295#32 := by
  after_results <;> rfl

/-- The graph ids padded by 352 entries of the padding value. -/
theorem hostOps2_3_v40 (W : Valuation τ sig (Elt F)) :
    (StableHlo.after hostOps2_3 W (Proc.devRef .tc main_v40) : (⟨S100352, .i32⟩ : BufTy).Contents (Elt F))
      = pad S100352 ![0] ![352] ![0] (W (Proc.devRef .tc main_arg2) : (⟨S100000, .i32⟩ : BufTy).Contents (Elt F))
          (W (Proc.devRef .tc main_c_9) : (⟨S_, .i32⟩ : BufTy).Contents (Elt F)) pads_S100000_S100352_03520 h_S_ := by
  after_results <;> (try simp only [StableHlo.TRef.ofBuf, StableHlo.TRef.toBuf, cast_eq]) <;> rfl

/-- The second layer's bias as a row. -/
theorem hostOps2_4_v41 (W : Valuation τ sig (Elt F)) :
    (StableHlo.after hostOps2_4 W (Proc.devRef .tc main_v41) : (⟨S1x64, .f32⟩ : BufTy).Contents (Elt F))
      = shapeCast S1x64 (W (Proc.devRef .tc main_arg6) : (⟨S64, .f32⟩ : BufTy).Contents (Elt F)) shapeCasts_S64_S1x64 := by
  after_results <;> rfl

/-- The padded graph ids as a row. -/
theorem hostOps2_4_v42 (W : Valuation τ sig (Elt F)) :
    (StableHlo.after hostOps2_4 W (Proc.devRef .tc main_v42) : (⟨S1x100352, .i32⟩ : BufTy).Contents (Elt F))
      = shapeCast S1x100352 (W (Proc.devRef .tc main_v40) : (⟨S100352, .i32⟩ : BufTy).Contents (Elt F)) shapeCasts_S100352_S1x100352 := by
  after_results <;> rfl

end Cert.KernelIdeal.Gen
-- ==== Proof.KI.KChain.lean ====
/-
  The values the three regions and the end of the program read, each as a function of the launch memory and of
  what the regions before it leave in their output arrays: the boundary contents of the entry function folded
  through the host stretches, a stretch at a time. A buffer no item writes holds the launch memory's contents at
  every boundary; the edge lists and the degree column are computed once, before the first region; each
  neighbourhood sum gathers the preceding region's result by source node and scatter-adds it by target node.
-/
import proofs.«400187_j27350351741543_3_alg».proof.Proof.KI.Run
import proofs.«400187_j27350351741543_3_alg».proof.Proof.KI.KHost

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Chain
variable (m : (ℓ : Loc nD τ sig) → Buf (Elt F) ℓ) (c : Dev nD)

/-- The edge list the launch memory holds. -/
abbrev ei : (⟨S2x1000000, .i32⟩ : BufTy).Contents (Elt F) := m ((c : Thread nD τ).loc main_arg1)

/-! ## A host stretch leaves the buffers it does not write -/

theorem U5_of (r : Ref sig .tc) (h : r ∉ hostOps1_W) : U5 m c r = U4 m c r :=
  StableHlo.after_of_writes_sub hostOps1 _ hostOps1_writes h
theorem U7_of (r : Ref sig .tc) (h : r ∉ hostOps2_W) : U7 m c r = U6 m c r :=
  StableHlo.after_of_writes_sub hostOps2 _ hostOps2_writes h
theorem U8_of (r : Ref sig .tc) (h : r ∉ hostOps2_1_W) : U8 m c r = U7 m c r :=
  StableHlo.after_of_writes_sub hostOps2_1 _ hostOps2_1_writes h
theorem U9_of (r : Ref sig .tc) (h : r ∉ hostOps2_2_W) : U9 m c r = U8 m c r :=
  StableHlo.after_of_writes_sub hostOps2_2 _ hostOps2_2_writes h
theorem U10_of (r : Ref sig .tc) (h : r ∉ hostOps2_3_W) : U10 m c r = U9 m c r :=
  StableHlo.after_of_writes_sub hostOps2_3 _ hostOps2_3_writes h
theorem U11_of (r : Ref sig .tc) (h : r ∉ hostOps2_4_W) : U11 m c r = U10 m c r :=
  StableHlo.after_of_writes_sub hostOps2_4 _ hostOps2_4_writes h
theorem U13_of (r : Ref sig .tc) (h : r ∉ hostOps3_W) : U13 m c r = U12 m c r :=
  StableHlo.after_of_writes_sub hostOps3 _ hostOps3_writes h

/-! ## A buffer no item writes holds the launch memory's contents at every boundary -/

/-- No host stretch writes the buffer and no region leaves its output there. -/
abbrev Launch (r : Ref sig .tc) : Prop :=
  r ∉ hostOps0_W ∧ r ∉ hostOps0_1_W ∧ r ∉ hostOps0_2_W ∧ r ∉ ([main_v16] : List (Ref sig .tc)) ∧ r ∉ hostOps1_W ∧
  r ∉ ([main_v28] : List (Ref sig .tc)) ∧ r ∉ hostOps2_W ∧ r ∉ hostOps2_1_W ∧ r ∉ hostOps2_2_W ∧ r ∉ hostOps2_3_W ∧
  r ∉ hostOps2_4_W ∧ r ∉ ([main_v43] : List (Ref sig .tc)) ∧ r ∉ hostOps3_W

theorem V3_launch (r : Ref sig .tc) (h : Launch r) : V3 m c r = m ((c : Thread nD τ).loc r) :=
  (V3_of m c r h.2.2.1).trans <| (V2_of m c r h.2.1).trans <| (V1_of m c r h.1).trans rfl
theorem U4_launch (r : Ref sig .tc) (h : Launch r) : U4 m c r = m ((c : Thread nD τ).loc r) :=
  (U4_of m c r h.2.2.2.1).trans (V3_launch m c r h)
theorem U5_launch (r : Ref sig .tc) (h : Launch r) : U5 m c r = m ((c : Thread nD τ).loc r) :=
  (U5_of m c r h.2.2.2.2.1).trans (U4_launch m c r h)
theorem U6_launch (r : Ref sig .tc) (h : Launch r) : U6 m c r = m ((c : Thread nD τ).loc r) :=
  (U6_of m c r h.2.2.2.2.2.1).trans (U5_launch m c r h)
theorem U7_launch (r : Ref sig .tc) (h : Launch r) : U7 m c r = m ((c : Thread nD τ).loc r) :=
  (U7_of m c r h.2.2.2.2.2.2.1).trans (U6_launch m c r h)
theorem U8_launch (r : Ref sig .tc) (h : Launch r) : U8 m c r = m ((c : Thread nD τ).loc r) :=
  (U8_of m c r h.2.2.2.2.2.2.2.1).trans (U7_launch m c r h)
theorem U9_launch (r : Ref sig .tc) (h : Launch r) : U9 m c r = m ((c : Thread nD τ).loc r) :=
  (U9_of m c r h.2.2.2.2.2.2.2.2.1).trans (U8_launch m c r h)
theorem U10_launch (r : Ref sig .tc) (h : Launch r) : U10 m c r = m ((c : Thread nD τ).loc r) :=
  (U10_of m c r h.2.2.2.2.2.2.2.2.2.1).trans (U9_launch m c r h)
theorem U11_launch (r : Ref sig .tc) (h : Launch r) : U11 m c r = m ((c : Thread nD τ).loc r) :=
  (U11_of m c r h.2.2.2.2.2.2.2.2.2.2.1).trans (U10_launch m c r h)
theorem U12_launch (r : Ref sig .tc) (h : Launch r) : U12 m c r = m ((c : Thread nD τ).loc r) :=
  (U12_of m c r h.2.2.2.2.2.2.2.2.2.2.2.1).trans (U11_launch m c r h)
theorem U13_launch (r : Ref sig .tc) (h : Launch r) : U13 m c r = m ((c : Thread nD τ).loc r) :=
  (U13_of m c r h.2.2.2.2.2.2.2.2.2.2.2.2).trans (U12_launch m c r h)

/-! ## The first region's entry -/

theorem K3_arg0 : E3 m c main_arg0 = m ((c : Thread nD τ).loc main_arg0) := V3_launch m c main_arg0 (by decide)
theorem K3_arg3 : E3 m c main_arg3 = m ((c : Thread nD τ).loc main_arg3) := V3_launch m c main_arg3 (by decide)

/-- The source nodes, self-loops appended, at the first region's entry. -/
theorem V3_v5 : (V3 m c main_v5 : (⟨S1100000, .i32⟩ : BufTy).Contents (Elt F)) = rowsT (F := F) (ei m c) :=
  (V3_of m c main_v5 (by decide)).trans <| (V2_of m c main_v5 (by decide)).trans <| hostOps0_v5 (V0 m c)
/-- The target nodes, self-loops appended, at the first region's entry. -/
theorem V3_v6 : (V3 m c main_v6 : (⟨S1100000, .i32⟩ : BufTy).Contents (Elt F)) = colsT (F := F) (ei m c) :=
  (V3_of m c main_v6 (by decide)).trans <| (V2_of m c main_v6 (by decide)).trans <| hostOps0_v6 (V0 m c)

/-- The degree column the first region reads: the inverse square-root degree as one column. -/
theorem K3_v15 : (E3 m c main_v15 : (⟨S100000x1, .f32⟩ : BufTy).Contents (Elt F))
    = shapeCast S100000x1 (dinvT (F := F) (ei m c)) shapeCasts_S100000_S100000x1 :=
  (hostOps0_2_v15 (V2 m c)).trans
    (congrArg (fun d : (⟨S100000, .f32⟩ : BufTy).Contents (Elt F) => shapeCast S100000x1 d shapeCasts_S100000_S100000x1)
      (hostOps0_1_hostOps0_v14 (V0 m c)))

/-! ## The second region's entry -/

/-- The source nodes after the first region. -/
theorem U4_v5 : (U4 m c main_v5 : (⟨S1100000, .i32⟩ : BufTy).Contents (Elt F)) = rowsT (F := F) (ei m c) :=
  (U4_of m c main_v5 (by decide)).trans (V3_v5 m c)
/-- The target nodes after the first region. -/
theorem U4_v6 : (U4 m c main_v6 : (⟨S1100000, .i32⟩ : BufTy).Contents (Elt F)) = colsT (F := F) (ei m c) :=
  (U4_of m c main_v6 (by decide)).trans (V3_v6 m c)

/-- The first neighbourhood sum the second region reads: the first region's result gathered by source node,
    scatter-added by target node. -/
theorem K5_v26 : (E5 m c main_v26 : (⟨S100000x64, .f32⟩ : BufTy).Contents (Elt F))
    = Host.scatterAdd scatter_S100000x64_S1100000x1_S1100000x64_1_0_0_1
        (broadcastInDim S100000x64 ![] bcast_S_S100000x64 (constant (F := F) S_ .f32 0x00000000#32))
        (broadcastInDim S1100000x1 ![0] bcast_S1100000_S1100000x1_0 (colsT (F := F) (ei m c)))
        (Host.gather gather_S100000x64_S1100000x1_S1100000x64_1_0_n_n_0_1_164
          (o4 m c : (⟨S100000x64, .f32⟩ : BufTy).Contents (Elt F)) (normT (rowsT (F := F) (ei m c)))) := by
  refine (hostOps1_v26 (U4 m c)).trans ?_
  rw [U4_v5 m c, U4_v6 m c, U4_out m c]

/-- The degree column the second region reads. -/
theorem K5_v15 : (E5 m c main_v15 : (⟨S100000x1, .f32⟩ : BufTy).Contents (Elt F))
    = shapeCast S100000x1 (dinvT (F := F) (ei m c)) shapeCasts_S100000_S100000x1 :=
  (U5_of m c main_v15 (by decide)).trans <| (U4_of m c main_v15 (by decide)).trans (K3_v15 m c)

/-- The first layer's bias the second region reads, as a row. -/
theorem K5_v27 : (E5 m c main_v27 : (⟨S1x64, .f32⟩ : BufTy).Contents (Elt F))
    = shapeCast S1x64 (m ((c : Thread nD τ).loc main_arg4) : (⟨S64, .f32⟩ : BufTy).Contents (Elt F)) shapeCasts_S64_S1x64 :=
  (hostOps1_v27 (U4 m c)).trans
    (congrArg (fun d : (⟨S64, .f32⟩ : BufTy).Contents (Elt F) => shapeCast S1x64 d shapeCasts_S64_S1x64) (U4_launch m c main_arg4 (by decide)))

theorem K5_arg5 : E5 m c main_arg5 = m ((c : Thread nD τ).loc main_arg5) := U5_launch m c main_arg5 (by decide)

/-! ## The third region's entry -/

/-- The source nodes after the second region. -/
theorem U6_v5 : (U6 m c main_v5 : (⟨S1100000, .i32⟩ : BufTy).Contents (Elt F)) = rowsT (F := F) (ei m c) :=
  (U6_of m c main_v5 (by decide)).trans <| (U5_of m c main_v5 (by decide)).trans (U4_v5 m c)
/-- The target nodes after the second region. -/
theorem U6_v6 : (U6 m c main_v6 : (⟨S1100000, .i32⟩ : BufTy).Contents (Elt F)) = colsT (F := F) (ei m c) :=
  (U6_of m c main_v6 (by decide)).trans <| (U5_of m c main_v6 (by decide)).trans (U4_v6 m c)

/-- The second neighbourhood sum the third region reads, over 100352 rows: the second region's result gathered by
    source node, scatter-added by target node. -/
theorem K11_v38 : (E11 m c main_v38 : (⟨S100352x64, .f32⟩ : BufTy).Contents (Elt F))
    = Host.scatterAdd scatter_S100352x64_S1100000x1_S1100000x64_1_0_0_1
        (broadcastInDim S100352x64 ![] bcast_S_S100352x64 (constant (F := F) S_ .f32 0x00000000#32))
        (broadcastInDim S1100000x1 ![0] bcast_S1100000_S1100000x1_0 (colsT (F := F) (ei m c)))
        (Host.gather gather_S100000x64_S1100000x1_S1100000x64_1_0_n_n_0_1_164
          (o6 m c : (⟨S100000x64, .f32⟩ : BufTy).Contents (Elt F)) (normT (rowsT (F := F) (ei m c)))) := by
  refine (U11_of m c main_v38 (by decide)).trans <| (U10_of m c main_v38 (by decide)).trans <|
    (U9_of m c main_v38 (by decide)).trans <| (U8_of m c main_v38 (by decide)).trans <| (hostOps2_v38 (U6 m c)).trans ?_
  rw [U6_v5 m c, U6_v6 m c, U6_out m c]

/-- The degree column before the padding. -/
theorem U7_v15 : (U7 m c main_v15 : (⟨S100000x1, .f32⟩ : BufTy).Contents (Elt F))
    = shapeCast S100000x1 (dinvT (F := F) (ei m c)) shapeCasts_S100000_S100000x1 :=
  (U7_of m c main_v15 (by decide)).trans <| (U6_of m c main_v15 (by decide)).trans (K5_v15 m c)

/-- The padded degree column the third region reads: 352 rows of the converted zero appended. -/
theorem K11_v39 : (E11 m c main_v39 : (⟨S100352x1, .f32⟩ : BufTy).Contents (Elt F))
    = pad S100352x1 ![0, 0] ![352, 0] ![0, 0] (shapeCast S100000x1 (dinvT (F := F) (ei m c)) shapeCasts_S100000_S100000x1)
        (sitofp (F := F) .f32 (constantI S_ 32 0#32)) pads_S100000x1_S100352x1_03520_000 h_S_ := by
  refine (U11_of m c main_v39 (by decide)).trans <| (U10_of m c main_v39 (by decide)).trans <|
    (U9_of m c main_v39 (by decide)).trans <| (hostOps2_1_v39 (U7 m c)).trans ?_
  rw [U7_v15 m c, show (U7 m c (Proc.devRef .tc main_c_8) : (⟨S_, .i32⟩ : BufTy).Contents (Elt F)) = constantI S_ 32 0#32 from hostOps2_c_8 (U6 m c)]

/-- The second layer's bias the third region reads, as a row. -/
theorem K11_v41 : (E11 m c main_v41 : (⟨S1x64, .f32⟩ : BufTy).Contents (Elt F))
    = shapeCast S1x64 (m ((c : Thread nD τ).loc main_arg6) : (⟨S64, .f32⟩ : BufTy).Contents (Elt F)) shapeCasts_S64_S1x64 :=
  (hostOps2_4_v41 (U10 m c)).trans
    (congrArg (fun d : (⟨S64, .f32⟩ : BufTy).Contents (Elt F) => shapeCast S1x64 d shapeCasts_S64_S1x64) (U10_launch m c main_arg6 (by decide)))

/-- The padded graph ids: 352 entries of minus one appended. -/
theorem U10_v40 : (U10 m c main_v40 : (⟨S100352, .i32⟩ : BufTy).Contents (Elt F))
    = pad S100352 ![0] ![352] ![0] (m ((c : Thread nD τ).loc main_arg2) : (⟨S100000, .i32⟩ : BufTy).Contents (Elt F))
        (constantI S_ 32 4294967295#32) pads_S100000_S100352_03520 h_S_ := by
  refine (hostOps2_3_v40 (U9 m c)).trans ?_
  rw [show (U9 m c (Proc.devRef .tc main_c_9) : (⟨S_, .i32⟩ : BufTy).Contents (Elt F)) = constantI S_ 32 4294967295#32 from hostOps2_2_c_9 (U8 m c),
    show (U9 m c (Proc.devRef .tc main_arg2) : (⟨S100000, .i32⟩ : BufTy).Contents (Elt F)) = m ((c : Thread nD τ).loc main_arg2) from U9_launch m c main_arg2 (by decide)]

/-- The padded graph ids the third region reads, as a row. -/
theorem K11_v42 : (E11 m c main_v42 : (⟨S1x100352, .i32⟩ : BufTy).Contents (Elt F))
    = shapeCast S1x100352 (pad S100352 ![0] ![352] ![0] (m ((c : Thread nD τ).loc main_arg2) : (⟨S100000, .i32⟩ : BufTy).Contents (Elt F))
        (constantI S_ 32 4294967295#32) pads_S100000_S100352_03520 h_S_) shapeCasts_S100352_S1x100352 :=
  (hostOps2_4_v42 (U10 m c)).trans
    (congrArg (fun d : (⟨S100352, .i32⟩ : BufTy).Contents (Elt F) => shapeCast S1x100352 d shapeCasts_S100352_S1x100352) (U10_v40 m c))

/-! ## The end -/

/-- The program's result: the third region's two partial sums added, projected by the output weights, the bias added. -/
theorem K13_v52 : (U13 m c main_v52 : (⟨S1024x1, .f32⟩ : BufTy).Contents (Elt F))
    = addf (Host.dotGeneral dot_S1024x64_S64x1_S1024x1_1_0_0_1_n_n none
        (addf (shapeCast S1024x64 (extractStridedSlice S1x1024x64 ![0, 0, 0] (o12 m c : (⟨S2x1024x64, .f32⟩ : BufTy).Contents (Elt F)) slices_S2x1024x64_S1x1024x64_0_0_0) shapeCasts_S1x1024x64_S1024x64)
              (shapeCast S1024x64 (extractStridedSlice S1x1024x64 ![1, 0, 0] (o12 m c : (⟨S2x1024x64, .f32⟩ : BufTy).Contents (Elt F)) slices_S2x1024x64_S1x1024x64_1_0_0) shapeCasts_S1x1024x64_S1024x64))
        (m ((c : Thread nD τ).loc main_arg7) : (⟨S64x1, .f32⟩ : BufTy).Contents (Elt F)))
      (broadcastInDim S1024x1 ![0, 1] bcast_S1x1_S1024x1_0_1 (broadcastInDim S1x1 ![1] bcast_S1_S1x1_1 (m ((c : Thread nD τ).loc main_arg8) : (⟨S1, .f32⟩ : BufTy).Contents (Elt F)))) := by
  refine (hostOps3_v52 (U12 m c)).trans ?_
  rw [U12_out m c,
    show (U12 m c (Proc.devRef .tc main_arg7) : (⟨S64x1, .f32⟩ : BufTy).Contents (Elt F)) = m ((c : Thread nD τ).loc main_arg7) from U12_launch m c main_arg7 (by decide),
    show (U12 m c (Proc.devRef .tc main_arg8) : (⟨S1, .f32⟩ : BufTy).Contents (Elt F)) = m ((c : Thread nD τ).loc main_arg8) from U12_launch m c main_arg8 (by decide)]

theorem K13_arg0 : U13 m c main_arg0 = m ((c : Thread nD τ).loc main_arg0) := U13_launch m c main_arg0 (by decide)
theorem K13_arg1 : U13 m c main_arg1 = m ((c : Thread nD τ).loc main_arg1) := U13_launch m c main_arg1 (by decide)
theorem K13_arg2 : U13 m c main_arg2 = m ((c : Thread nD τ).loc main_arg2) := U13_launch m c main_arg2 (by decide)
theorem K13_arg3 : U13 m c main_arg3 = m ((c : Thread nD τ).loc main_arg3) := U13_launch m c main_arg3 (by decide)
theorem K13_arg4 : U13 m c main_arg4 = m ((c : Thread nD τ).loc main_arg4) := U13_launch m c main_arg4 (by decide)
theorem K13_arg5 : U13 m c main_arg5 = m ((c : Thread nD τ).loc main_arg5) := U13_launch m c main_arg5 (by decide)
theorem K13_arg6 : U13 m c main_arg6 = m ((c : Thread nD τ).loc main_arg6) := U13_launch m c main_arg6 (by decide)
theorem K13_arg7 : U13 m c main_arg7 = m ((c : Thread nD τ).loc main_arg7) := U13_launch m c main_arg7 (by decide)
theorem K13_arg8 : U13 m c main_arg8 = m ((c : Thread nD τ).loc main_arg8) := U13_launch m c main_arg8 (by decide)
end Chain

end Cert.KernelIdeal.Gen
-- ==== Proof.KI.Val01.lean ====
/-
  What the first two pallas_calls leave in their output arrays, read at an index, at the ideal instance (floats are
  extended reals and every change of format is the identity).

  First call: row n of the result is row n of the node features times the 64 by 64 weight matrix, scaled by the
  degree column's entry at n. Second call: row n of the aggregated features is scaled by the degree entry at n, the
  bias row is added, negative entries are replaced by zero, the row is multiplied by the second weight matrix and
  scaled by the degree entry at n again.

  Each grid point t works on rows 4000 t .. 4000 t + 3999: the block it stores is the restriction of ONE function of
  the whole arrays to those rows, and the 25 blocks tile the 100000 rows, so the array ends holding that function.
-/
import proofs.«400187_j27350351741543_3_alg».proof.Proof.KI.Reg1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Gen

open Idealize.ShloMosaic Idealize.ShloMosaic.TcCoe Idealize.ShloMosaic.Tactic
open Idealize.SL Idealize.SL.Sem
open Idealize.ShloMosaic.Pipeline (Dat Cfg Window)
open Idealize.ShloMosaic.ValueIdx

/-! ## The block product read at an index -/

/-- The zero offsets of a whole-block rectangle, however spelt. -/
theorem hz01 : (![0, 0] : Fin 2 → Nat) = fun _ => 0 := funext fun a => by fin_cases a <;> rfl

/-- A column [a, 1] broadcast to [a, b] reads, at (p, c), the column's entry at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The operand indices of the block product [4000, 64] x [64, 64]: the left operand is read at (row, k), -/
theorem lhs_blk_0 (i : S4000x64.Idx) (q : dot_S4000x64_S64x64_S4000x64_1_0_0_1_n_n.contr.Idx) :
    (dot_S4000x64_S64x64_S4000x64_1_0_0_1_n_n.lhsIdx i q 0).val = (i 0).val := by
  unfold DotDims.lhsIdx
  rw [dif_neg (show ¬(0 : Fin S4000x64.rank) ∈ dot_S4000x64_S64x64_S4000x64_1_0_0_1_n_n.lhsBatch by decide), dif_pos (show (0 : Fin S4000x64.rank) ∈ dot_S4000x64_S64x64_S4000x64_1_0_0_1_n_n.lhsNonContracting by decide)]
  rfl
theorem lhs_blk_1 (i : S4000x64.Idx) (q : dot_S4000x64_S64x64_S4000x64_1_0_0_1_n_n.contr.Idx) :
    (dot_S4000x64_S64x64_S4000x64_1_0_0_1_n_n.lhsIdx i q 1).val = (q ⟨0, by decide⟩).val :=
  dot_S4000x64_S64x64_S4000x64_1_0_0_1_n_n.lhsIdx_val_of_single rfl i q
/-- the right operand at (k, column). -/
theorem rhs_blk_0 (i : S4000x64.Idx) (q : dot_S4000x64_S64x64_S4000x64_1_0_0_1_n_n.contr.Idx) :
    (dot_S4000x64_S64x64_S4000x64_1_0_0_1_n_n.rhsIdx i q 0).val = (q ⟨0, by decide⟩).val :=
  dot_S4000x64_S64x64_S4000x64_1_0_0_1_n_n.rhsIdx_val_of_single rfl i q
theorem rhs_blk_1 (i : S4000x64.Idx) (q : dot_S4000x64_S64x64_S4000x64_1_0_0_1_n_n.contr.Idx) :
    (dot_S4000x64_S64x64_S4000x64_1_0_0_1_n_n.rhsIdx i q 1).val = (i 1).val := by
  unfold DotDims.rhsIdx
  rw [dif_neg (show ¬(1 : Fin S64x64.rank) ∈ dot_S4000x64_S64x64_S4000x64_1_0_0_1_n_n.rhsBatch by decide), dif_pos (show (1 : Fin S64x64.rank) ∈ dot_S4000x64_S64x64_S4000x64_1_0_0_1_n_n.rhsNonContracting by decide)]
  rfl

/-- The block product into a zero accumulator, at (p, f): the sum over k of left (p, k) times right (k, f). -/
theorem blk_matmul_apply (l : FVec Ideal S4000x64 .bf16) (r : FVec Ideal S64x64 .bf16) (p : Fin 4000) (f : Fin 64) :
    matmul dot_S4000x64_S64x64_S4000x64_1_0_0_1_n_n none l r (constant (F := Ideal) S4000x64 .f32 0x00000000#32) (ix2 p f)
      = ∑ k : Fin 64, l (ix2 p k) * r (ix2 k f) := by
  simp only [matmul]
  rw [Ideal.matmul_constant_zero_apply, ← Equiv.sum_comp (ValueIdx.contrEquiv1 dot_S4000x64_S64x64_S4000x64_1_0_0_1_n_n 64 rfl rfl).symm]
  refine Finset.sum_congr rfl fun k _ => ?_
  have hk := ValueIdx.contrEquiv1_symm_val dot_S4000x64_S64x64_S4000x64_1_0_0_1_n_n 64 rfl rfl k
  have el : dot_S4000x64_S64x64_S4000x64_1_0_0_1_n_n.lhsIdx (ix2 p f) ((ValueIdx.contrEquiv1 dot_S4000x64_S64x64_S4000x64_1_0_0_1_n_n 64 rfl rfl).symm k) = ix2 p k := funext fun a => Fin.ext (by
    match a with
    | ⟨0, _⟩ => exact lhs_blk_0 _ _
    | ⟨1, _⟩ => exact (lhs_blk_1 _ _).trans hk)
  have er : dot_S4000x64_S64x64_S4000x64_1_0_0_1_n_n.rhsIdx (ix2 p f) ((ValueIdx.contrEquiv1 dot_S4000x64_S64x64_S4000x64_1_0_0_1_n_n 64 rfl rfl).symm k) = ix2 k f := funext fun a => Fin.ext (by
    match a with
    | ⟨0, _⟩ => exact (rhs_blk_0 _ _).trans hk
    | ⟨1, _⟩ => exact rhs_blk_1 _ _)
  rw [el, er]

/-! ## The first call's payload at an index -/

/-- The stored block of the first call at (p, f): the block product there times the degree block's entry at row p. -/
theorem k0_pay1_apply (x0 : Vec Ideal S4000x64 .f32) (x1 : Vec Ideal S64x64 .f32) (x2 : Vec Ideal S4000x1 .f32)
    (p : Fin 4000) (f : Fin 64) :
    k0_pay1 (F := Ideal) x0 x1 x2 (ix2 p f) = (∑ k : Fin 64, x0 (ix2 p k) * x1 (ix2 k f)) * x2 (ix2 p (0 : Fin 1)) := by
  unfold k0_pay1
  rw [mulf_apply, blk_matmul_apply, shapeCast_self, broadcastTo_a1_ab_apply]
  rfl

/-! ## The second call's payload at an index -/

/-- The stored block of the second call at (p, f): row p of the aggregated block scaled by the degree entry, plus the
    bias row, cut below at zero, times column f of the weights, scaled by the degree entry again. -/
theorem k1_pay1_apply (v0 : Vec Ideal S4000x1 .f32) (v2 : Vec Ideal S4000x64 .f32) (v6 : Vec Ideal S1x64 .f32)
    (v13 : Vec Ideal S64x64 .f32) (v16 : Vec Ideal S4000x1 .f32) (p : Fin 4000) (f : Fin 64) :
    k1_pay1 (F := Ideal) v0 v2 v6 v13 v16 (ix2 p f)
      = (∑ k : Fin 64, max (v0 (ix2 p (0 : Fin 1)) * v2 (ix2 p k) + v6 (ix2 (0 : Fin 1) k)) 0 * v13 (ix2 k f))
        * v16 (ix2 p (0 : Fin 1)) := by
  unfold k1_pay1
  simp only [shapeCast_self]
  rw [mulf_apply, blk_matmul_apply, broadcastTo_a1_ab_apply]
  refine congrArg (· * _) (Finset.sum_congr rfl fun k _ => ?_)
  rw [truncf_apply, truncf_apply, maximumf_apply, addf_apply, mulf_apply, broadcastTo_a1_ab_apply,
    broadcastTo_1b_ab_apply, broadcast_apply]
  show max _ (Ideal.ofBits .f32 0x00000000#32) * _ = _
  rw [Ideal.ofBits_zero_f32]

/-! ## The first call: from blocks to the array -/

section Call0
variable (V : (c : Dev nD) → (b : Ref sig .tc) → Buf (Elt Ideal) ((c : Thread nD τ).loc b))

/-- The arrays the first call reads, as the region finds them: node features, first weight matrix, degree column. -/
abbrev feat0 (c : Dev nD) : S100000x64.Idx → EReal := V c main_arg0
abbrev wgt0 (c : Dev nD) : S64x64.Idx → EReal := V c main_arg3
abbrev deg (c : Dev nD) : S100000x1.Idx → EReal := V c main_v15

/-- Entry (n, f) of the first call's result: row n of the features times column f of the weights, scaled by the
    degree entry at n. -/
def val0 (c : Dev nD) (n : Fin 100000) (f : Fin 64) : EReal :=
  (∑ k : Fin 64, feat0 V c (ix2 n k) * wgt0 V c (ix2 k f)) * deg V c (ix2 n (0 : Fin 1))

/-- The whole result as one function of the index. -/
def G0 (c : Dev nD) : S100000x64.Idx → EReal := fun i => val0 V c ⟨(i 0).val, (i 0).isLt⟩ ⟨(i 1).val, (i 1).isLt⟩

/-- Where each window's block sits at grid point t: the row blocks move with t, the weight matrix stays. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The feature block at point t, row p, is row 4000 t + p of the features. -/
theorem iblk0_0_apply (c : Dev nD) (t : Fin cfg0.N) (p : Fin 4000) (k : Fin 64) (n : Fin 100000)
    (hn : n.val = t.val * 4000 + p.val) :
    (iblk0 V c 0 t : Vec Ideal S4000x64 .f32) (ix2 p k) = feat0 V c (ix2 n k) := by
  obtain ⟨e0, e1, -⟩ := idx_facts0 t
  unfold iblk0
  rw [View.read_apply]
  show V c main_arg0 _ = V c main_arg0 _
  congr 1
  funext a
  apply Fin.ext
  match a with
  | ⟨0, _⟩ => show win0_0.index t (0 : Fin 2) * 4000 + 1 * p.val = n.val; rw [e0, hn]; omega
  | ⟨1, _⟩ => show win0_0.index t (1 : Fin 2) * 64 + 1 * k.val = k.val; rw [e1]; omega

/-- The weight block at every point is the whole weight matrix. -/
theorem iblk0_1_apply (c : Dev nD) (t : Fin cfg0.N) (k : Fin 64) (f : Fin 64) :
    (iblk0 V c 1 t : Vec Ideal S64x64 .f32) (ix2 k f) = wgt0 V c (ix2 k f) := by
  obtain ⟨-, -, e0, e1, -⟩ := idx_facts0 t
  unfold iblk0
  rw [View.read_apply]
  show V c main_arg3 _ = V c main_arg3 _
  congr 1
  funext a
  apply Fin.ext
  match a with
  | ⟨0, _⟩ => show win0_1.index t (0 : Fin 2) * 64 + 1 * k.val = k.val; rw [e0]; omega
  | ⟨1, _⟩ => show win0_1.index t (1 : Fin 2) * 64 + 1 * f.val = f.val; rw [e1]; omega

/-- The degree block at point t, row p, is the degree entry at 4000 t + p. -/
theorem iblk0_2_apply (c : Dev nD) (t : Fin cfg0.N) (p : Fin 4000) (n : Fin 100000)
    (hn : n.val = t.val * 4000 + p.val) :
    (iblk0 V c 2 t : Vec Ideal S4000x1 .f32) (ix2 p (0 : Fin 1)) = deg V c (ix2 n (0 : Fin 1)) := by
  obtain ⟨-, -, -, -, e0, e1, -⟩ := idx_facts0 t
  unfold iblk0
  rw [View.read_apply]
  show V c main_v15 _ = V c main_v15 _
  congr 1
  funext a
  apply Fin.ext
  match a with
  | ⟨0, _⟩ => show win0_2.index t (0 : Fin 2) * 4000 + 1 * p.val = n.val; rw [e0, hn]; omega
  | ⟨1, _⟩ => show win0_2.index t (1 : Fin 2) * 1 + 1 * 0 = 0; rw [e1]

/-- What point t writes back is the restriction of the whole result to rows 4000 t .. 4000 t + 3999. -/
theorem flushed0_eq (c : Dev nD) (t : Fin cfg0.N) :
    (dat0 (F := Ideal) V c).flushed 3 t = ((cfg0.win 3).blk t).view.read (Elt Ideal) (G0 V c) := by
  show (cfg0.win 3).cut (grid0.coords t) ((dat0 (F := Ideal) V c).after 3 t) = _
  rw [after0_3]
  unfold out0_3
  rw [View.canon_unit_zero hz01]
  simp only [View.ld_unit_zero (S := S4000x64) hz01, View.ld_unit_zero (S := S64x64) hz01, View.ld_unit_zero (S := S4000x1) hz01]
  obtain ⟨-, -, -, -, -, -, e0, e1⟩ := idx_facts0 t
  funext j
  obtain ⟨p, f, rfl⟩ : ∃ (p : Fin 4000) (f : Fin 64), j = ix2 p f := ⟨j 0, j 1, eq_ix2 j⟩
  have hp : p.val < 4000 := p.isLt
  have ht : t.val < 25 := lt_of_lt_of_eq t.isLt N_0
  refine (k0_pay1_apply (iblk0 V c 0 t) (iblk0 V c 1 t) (iblk0 V c 2 t) p f).trans ?_
  rw [View.read_apply]
  have he : ((cfg0.win 3).blk t).view.emb (ix2 p f) = (ix2 (⟨t.val * 4000 + p.val, by omega⟩ : Fin 100000) f : S100000x64.Idx) := by
    funext a
    apply Fin.ext
    match a with
    | ⟨0, _⟩ => show win0_3.index t (0 : Fin 2) * 4000 + 1 * p.val = t.val * 4000 + p.val; rw [e0]; omega
    | ⟨1, _⟩ => show win0_3.index t (1 : Fin 2) * 64 + 1 * f.val = f.val; rw [e1]; omega
  rw [he]
  show _ = val0 V c ⟨t.val * 4000 + p.val, _⟩ f
  unfold val0
  rw [iblk0_2_apply V c t p ⟨t.val * 4000 + p.val, by omega⟩ rfl]
  refine congrArg (· * _) (Finset.sum_congr rfl fun k _ => ?_)
  rw [iblk0_0_apply V c t p k ⟨t.val * 4000 + p.val, by omega⟩ rfl, iblk0_1_apply V c t k f]

/-- An index of the result is in point t's block iff each coordinate is in the block's range on its axis. -/
theorem mem_blk0 (t : Fin cfg0.N) (i : S100000x64.Idx) :
    i ∈ ((cfg0.win 3).blk t).view.set ↔ ∀ a : Fin 2, win0_3.index t a * S4000x64.size a ≤ (i a).val ∧ (i a).val < win0_3.index t a * S4000x64.size a + S4000x64.size a := by
  show i ∈ ((View.whole main_v16).slice (win0_3.rect t)).set ↔ _
  rw [View.set_slice_whole, Rect.mem_set_unit]
  exact Iff.rfl

/-- Row r of the result is written by point r / 4000. -/
theorem cover0 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  let t : Fin cfg0.N := ⟨(i 0).val / 4000, by rw [show cfg0.N = 25 from N_0]; omega⟩
  obtain ⟨-, -, -, -, -, -, e0, e1⟩ := idx_facts0 t
  have ht : t.val = (i 0).val / 4000 := rfl
  refine ⟨t, flush0_3 t, ?_⟩
  rw [mem_blk0]
  intro a
  match a with
  | ⟨0, _⟩ => show win0_3.index t (0 : Fin 2) * 4000 ≤ (i 0).val ∧ (i 0).val < win0_3.index t (0 : Fin 2) * 4000 + 4000; rw [e0, ht]; omega
  | ⟨1, _⟩ => show win0_3.index t (1 : Fin 2) * 64 ≤ (i 1).val ∧ (i 1).val < win0_3.index t (1 : Fin 2) * 64 + 64; rw [e1]; omega

/-- The first call's output array after the call is the whole result. -/
theorem arr0_eq (c : Dev nD) : (dat0 (F := Ideal) V c).arrAt 3 cfg0.N = G0 V c :=
  (dat0 (F := Ideal) V c).arrAt_eq_of_cover 3 (G0 V c) (fun t _ => flushed0_eq V c t) cover0

/-- The first call's output array read at (n, f). -/
theorem arr0_apply (c : Dev nD) (n : Fin 100000) (f : Fin 64) :
    ((dat0 (F := Ideal) V c).arrAt 3 cfg0.N : S100000x64.Idx → EReal) (ix2 n f)
      = (∑ k : Fin 64, feat0 V c (ix2 n k) * wgt0 V c (ix2 k f)) * deg V c (ix2 n (0 : Fin 1)) := by
  rw [arr0_eq]
  rfl

end Call0

/-! ## The second call: from blocks to the array -/

section Call1
variable (V : (c : Dev nD) → (b : Ref sig .tc) → Buf (Elt Ideal) ((c : Thread nD τ).loc b))

/-- The other arrays the second call reads, as the region finds them: aggregated features, bias row, second weight
    matrix (the degree column is the first call's). -/
abbrev agg1 (c : Dev nD) : S100000x64.Idx → EReal := V c main_v26
abbrev bias1 (c : Dev nD) : S1x64.Idx → EReal := V c main_v27
abbrev wgt1 (c : Dev nD) : S64x64.Idx → EReal := V c main_arg5

/-- Entry (n, f) of the second call's result. -/
def val1 (c : Dev nD) (n : Fin 100000) (f : Fin 64) : EReal :=
  (∑ k : Fin 64, max (deg V c (ix2 n (0 : Fin 1)) * agg1 V c (ix2 n k) + bias1 V c (ix2 (0 : Fin 1) k)) 0 * wgt1 V c (ix2 k f))
    * deg V c (ix2 n (0 : Fin 1))

/-- The whole result as one function of the index. -/
def G1 (c : Dev nD) : S100000x64.Idx → EReal := fun i => val1 V c ⟨(i 0).val, (i 0).isLt⟩ ⟨(i 1).val, (i 1).isLt⟩

/-- Where each window's block sits at grid point t: the row blocks move with t, the bias row and weights stay. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The aggregated block at point t, row p, is row 4000 t + p of the aggregated features. -/
theorem iblk1_0_apply (c : Dev nD) (t : Fin cfg1.N) (p : Fin 4000) (k : Fin 64) (n : Fin 100000)
    (hn : n.val = t.val * 4000 + p.val) :
    (iblk1 V c 0 t : Vec Ideal S4000x64 .f32) (ix2 p k) = agg1 V c (ix2 n k) := by
  obtain ⟨e0, e1, -⟩ := idx_facts1 t
  unfold iblk1
  rw [View.read_apply]
  show V c main_v26 _ = V c main_v26 _
  congr 1
  funext a
  apply Fin.ext
  match a with
  | ⟨0, _⟩ => show win1_0.index t (0 : Fin 2) * 4000 + 1 * p.val = n.val; rw [e0, hn]; omega
  | ⟨1, _⟩ => show win1_0.index t (1 : Fin 2) * 64 + 1 * k.val = k.val; rw [e1]; omega

/-- The degree block at point t, row p, is the degree entry at 4000 t + p. -/
theorem iblk1_1_apply (c : Dev nD) (t : Fin cfg1.N) (p : Fin 4000) (n : Fin 100000)
    (hn : n.val = t.val * 4000 + p.val) :
    (iblk1 V c 1 t : Vec Ideal S4000x1 .f32) (ix2 p (0 : Fin 1)) = deg V c (ix2 n (0 : Fin 1)) := by
  obtain ⟨-, -, e0, e1, -⟩ := idx_facts1 t
  unfold iblk1
  rw [View.read_apply]
  show V c main_v15 _ = V c main_v15 _
  congr 1
  funext a
  apply Fin.ext
  match a with
  | ⟨0, _⟩ => show win1_1.index t (0 : Fin 2) * 4000 + 1 * p.val = n.val; rw [e0, hn]; omega
  | ⟨1, _⟩ => show win1_1.index t (1 : Fin 2) * 1 + 1 * 0 = 0; rw [e1]

/-- The bias block at every point is the whole bias row. -/
theorem iblk1_2_apply (c : Dev nD) (t : Fin cfg1.N) (k : Fin 64) :
    (iblk1 V c 2 t : Vec Ideal S1x64 .f32) (ix2 (0 : Fin 1) k) = bias1 V c (ix2 (0 : Fin 1) k) := by
  obtain ⟨-, -, -, -, e0, e1, -⟩ := idx_facts1 t
  unfold iblk1
  rw [View.read_apply]
  show V c main_v27 _ = V c main_v27 _
  congr 1
  funext a
  apply Fin.ext
  match a with
  | ⟨0, _⟩ => show win1_2.index t (0 : Fin 2) * 1 + 1 * 0 = 0; rw [e0]
  | ⟨1, _⟩ => show win1_2.index t (1 : Fin 2) * 64 + 1 * k.val = k.val; rw [e1]; omega

/-- The weight block at every point is the whole second weight matrix. -/
theorem iblk1_3_apply (c : Dev nD) (t : Fin cfg1.N) (k : Fin 64) (f : Fin 64) :
    (iblk1 V c 3 t : Vec Ideal S64x64 .f32) (ix2 k f) = wgt1 V c (ix2 k f) := by
  obtain ⟨-, -, -, -, -, -, e0, e1, -⟩ := idx_facts1 t
  unfold iblk1
  rw [View.read_apply]
  show V c main_arg5 _ = V c main_arg5 _
  congr 1
  funext a
  apply Fin.ext
  match a with
  | ⟨0, _⟩ => show win1_3.index t (0 : Fin 2) * 64 + 1 * k.val = k.val; rw [e0]; omega
  | ⟨1, _⟩ => show win1_3.index t (1 : Fin 2) * 64 + 1 * f.val = f.val; rw [e1]; omega

/-- What point t writes back is the restriction of the whole result to rows 4000 t .. 4000 t + 3999. -/
theorem flushed1_eq (c : Dev nD) (t : Fin cfg1.N) :
    (dat1 (F := Ideal) V c).flushed 4 t = ((cfg1.win 4).blk t).view.read (Elt Ideal) (G1 V c) := by
  show (cfg1.win 4).cut (grid1.coords t) ((dat1 (F := Ideal) V c).after 4 t) = _
  rw [after1_4]
  unfold out1_4
  rw [View.canon_unit_zero hz01]
  simp only [View.ld_unit_zero (S := S4000x64) hz01, View.ld_unit_zero (S := S64x64) hz01, View.ld_unit_zero (S := S4000x1) hz01,
    View.ld_unit_zero (S := S1x64) hz01]
  obtain ⟨-, -, -, -, -, -, -, -, e0, e1⟩ := idx_facts1 t
  funext j
  obtain ⟨p, f, rfl⟩ : ∃ (p : Fin 4000) (f : Fin 64), j = ix2 p f := ⟨j 0, j 1, eq_ix2 j⟩
  have hp : p.val < 4000 := p.isLt
  have ht : t.val < 25 := lt_of_lt_of_eq t.isLt N_1
  refine (k1_pay1_apply (iblk1 V c 1 t) (iblk1 V c 0 t) (iblk1 V c 2 t) (iblk1 V c 3 t) (iblk1 V c 1 t) p f).trans ?_
  rw [View.read_apply]
  have he : ((cfg1.win 4).blk t).view.emb (ix2 p f) = (ix2 (⟨t.val * 4000 + p.val, by omega⟩ : Fin 100000) f : S100000x64.Idx) := by
    funext a
    apply Fin.ext
    match a with
    | ⟨0, _⟩ => show win1_4.index t (0 : Fin 2) * 4000 + 1 * p.val = t.val * 4000 + p.val; rw [e0]; omega
    | ⟨1, _⟩ => show win1_4.index t (1 : Fin 2) * 64 + 1 * f.val = f.val; rw [e1]; omega
  rw [he]
  show _ = val1 V c ⟨t.val * 4000 + p.val, _⟩ f
  unfold val1
  rw [iblk1_1_apply V c t p ⟨t.val * 4000 + p.val, by omega⟩ rfl]
  refine congrArg (· * _) (Finset.sum_congr rfl fun k _ => ?_)
  rw [iblk1_0_apply V c t p k ⟨t.val * 4000 + p.val, by omega⟩ rfl, iblk1_2_apply V c t k, iblk1_3_apply V c t k f]

/-- An index of the result is in point t's block iff each coordinate is in the block's range on its axis. -/
theorem mem_blk1 (t : Fin cfg1.N) (i : S100000x64.Idx) :
    i ∈ ((cfg1.win 4).blk t).view.set ↔ ∀ a : Fin 2, win1_4.index t a * S4000x64.size a ≤ (i a).val ∧ (i a).val < win1_4.index t a * S4000x64.size a + S4000x64.size a := by
  show i ∈ ((View.whole main_v28).slice (win1_4.rect t)).set ↔ _
  rw [View.set_slice_whole, Rect.mem_set_unit]
  exact Iff.rfl

/-- Row r of the result is written by point r / 4000. -/
theorem cover1 (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  let t : Fin cfg1.N := ⟨(i 0).val / 4000, by rw [show cfg1.N = 25 from N_1]; omega⟩
  obtain ⟨-, -, -, -, -, -, -, -, e0, e1⟩ := idx_facts1 t
  have ht : t.val = (i 0).val / 4000 := rfl
  refine ⟨t, flush1_4 t, ?_⟩
  rw [mem_blk1]
  intro a
  match a with
  | ⟨0, _⟩ => show win1_4.index t (0 : Fin 2) * 4000 ≤ (i 0).val ∧ (i 0).val < win1_4.index t (0 : Fin 2) * 4000 + 4000; rw [e0, ht]; omega
  | ⟨1, _⟩ => show win1_4.index t (1 : Fin 2) * 64 ≤ (i 1).val ∧ (i 1).val < win1_4.index t (1 : Fin 2) * 64 + 64; rw [e1]; omega

/-- The second call's output array after the call is the whole result. -/
theorem arr1_eq (c : Dev nD) : (dat1 (F := Ideal) V c).arrAt 4 cfg1.N = G1 V c :=
  (dat1 (F := Ideal) V c).arrAt_eq_of_cover 4 (G1 V c) (fun t _ => flushed1_eq V c t) cover1

/-- The second call's output array read at (n, f). -/
theorem arr1_apply (c : Dev nD) (n : Fin 100000) (f : Fin 64) :
    ((dat1 (F := Ideal) V c).arrAt 4 cfg1.N : S100000x64.Idx → EReal) (ix2 n f)
      = (∑ k : Fin 64, max (deg V c (ix2 n (0 : Fin 1)) * agg1 V c (ix2 n k) + bias1 V c (ix2 (0 : Fin 1) k)) 0 * wgt1 V c (ix2 k f))
        * deg V c (ix2 n (0 : Fin 1)) := by
  rw [arr1_eq]
  rfl

end Call1

end Cert.KernelIdeal.Gen

end
-- ==== Proof.KI.Val2.lean ====
/-
  The program's third kernel (rectifier and segment-sum pooling as a one-hot matrix product, over a 2 by 49 grid) at
  the ideal values, read at an index. One point adds, to the accumulator's entry (graph g, feature f), the sum over its 1024
  rows n of onehot(g, n) · max(d n · a(n, f) + b f, 0), where the one-hot factor is 1 when g is row n's graph id and 0
  otherwise; the accumulator is zero before a core's first point, so after the core's last point it holds the sum over
  the core's 49 · 1024 padded rows, and that is what the core's slab of the output array [2, 1024, 64] ends holding.
-/
import proofs.«400187_j27350351741543_3_alg».proof.Proof.KI.Acc2
import proofs.«400187_j27350351741543_3_alg».proof.Proof.Gen.KernelIdeal.Launch
import proofs.«400187_j27350351741543_3_alg».proof.Proof.Gen.KernelIdeal.Skeleton
import proofs.«400187_j27350351741543_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.PureOps.Ideal.Laws
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

theorem lhs_pool_0 (i : S1024x64.Idx) (q : dot_S1024x1024_S1024x64_S1024x64_1_0_0_1_n_n.contr.Idx) :
    (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
  rfl
theorem lhs_pool_1 (i : S1024x64.Idx) (q : dot_S1024x1024_S1024x64_S1024x64_1_0_0_1_n_n.contr.Idx) :
    (dot_S1024x1024_S1024x64_S1024x64_1_0_0_1_n_n.lhsIdx i q 1).val = (q ⟨0, by decide⟩).val :=
  dot_S1024x1024_S1024x64_S1024x64_1_0_0_1_n_n.lhsIdx_val_of_single rfl i q
theorem rhs_pool_0 (i : S1024x64.Idx) (q : dot_S1024x1024_S1024x64_S1024x64_1_0_0_1_n_n.contr.Idx) :
    (dot_S1024x1024_S1024x64_S1024x64_1_0_0_1_n_n.rhsIdx i q 0).val = (q ⟨0, by decide⟩).val :=
  dot_S1024x1024_S1024x64_S1024x64_1_0_0_1_n_n.rhsIdx_val_of_single rfl i q
theorem rhs_pool_1 (i : S1024x64.Idx) (q : dot_S1024x1024_S1024x64_S1024x64_1_0_0_1_n_n.contr.Idx) :
    (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
  rfl

/-- the one-hot product read at an index -/
theorem pool_matmul_apply (L : FVec Ideal S1024x1024 .bf16) (R : FVec Ideal S1024x64 .bf16) (g : Fin 1024) (f : Fin 64) :
    matmul dot_S1024x1024_S1024x64_S1024x64_1_0_0_1_n_n none L R (constant S1024x64 .f32 0x00000000#32) (ix2 g f)
      = ∑ n : Fin 1024, L (ix2 g n) * R (ix2 n f) := by
  simp only [matmul]
  rw [Ideal.matmul_constant_zero_apply, ← Equiv.sum_comp (ValueIdx.contrEquiv1 dot_S1024x1024_S1024x64_S1024x64_1_0_0_1_n_n 1024 rfl rfl).symm]
  refine Finset.sum_congr rfl fun k _ => ?_
  have hk := ValueIdx.contrEquiv1_symm_val dot_S1024x1024_S1024x64_S1024x64_1_0_0_1_n_n 1024 rfl rfl k
  have el : dot_S1024x1024_S1024x64_S1024x64_1_0_0_1_n_n.lhsIdx (ix2 g f) ((ValueIdx.contrEquiv1 dot_S1024x1024_S1024x64_S1024x64_1_0_0_1_n_n 1024 rfl rfl).symm k) = ix2 g k := funext fun a => Fin.ext (by
    match a with
    | ⟨0, _⟩ => exact lhs_pool_0 _ _
    | ⟨1, _⟩ => exact (lhs_pool_1 _ _).trans hk)
  have er : dot_S1024x1024_S1024x64_S1024x64_1_0_0_1_n_n.rhsIdx (ix2 g f) ((ValueIdx.contrEquiv1 dot_S1024x1024_S1024x64_S1024x64_1_0_0_1_n_n 1024 rfl rfl).symm k) = ix2 k f := funext fun a => Fin.ext (by
    match a with
    | ⟨0, _⟩ => exact (rhs_pool_0 _ _).trans hk
    | ⟨1, _⟩ => exact rhs_pool_1 _ _)
  rw [el, er]

/-- the word of a one-hot entry: the comparison bit, widened and read as a signed integer, is 1 or 0 -/
theorem onehot_word (a b : BitVec 32) :
    (FloatOps.sitofp .f32 ((IntOp.cmpi .eq a b).setWidth 32) : Ideal .f32) = if a = b then (1 : EReal) else 0 := by
  show ((((IntOp.cmpi .eq a b).setWidth 32).toInt : ℝ) : EReal) = _
  by_cases h : a = b
  · have e : IntOp.cmpi .eq a b = 1#1 := by simp [IntOp.cmpi, h]
    have e1 : ((1#1 : BitVec 1).setWidth 32).toInt = 1 := by decide
    rw [e, if_pos h, e1]; simp
  · have hb : (a == b) = false := beq_eq_false_iff_ne.mpr h
    have e : IntOp.cmpi .eq a b = 0#1 := by simp [IntOp.cmpi, hb]
    have e0 : ((0#1 : BitVec 1).setWidth 32).toInt = 0 := by decide
    rw [e, if_neg h, e0]; simp

/-- THE STEP at an index: a point adds, to what the accumulator held at (g, f), the sum over the point's 1024 rows of
    the one-hot factor (graph g against the row's graph id) times the rectified affine feature of the row. -/
theorem k2_pay2_apply (x1 : Vec Ideal S1024x1 .f32) (x0 : Vec Ideal S1024x64 .f32) (x2 : Vec Ideal S1x64 .f32)
    (x3 : Vec Ideal S1x1024 .i32) (a : Vec Ideal S1024x64 .f32) (g : Fin 1024) (f : Fin 64) :
    k2_pay2 x1 x0 x2 x3 a (ix2 g f) = a (ix2 g f) + ∑ n : Fin 1024,
      (if BitVec.ofNat 32 g.val = x3 (ix2 0 n) then (1 : EReal) else 0) * max (x1 (ix2 n 0) * x0 (ix2 n f) + x2 (ix2 0 f)) 0 := by
  unfold k2_pay2
  simp only [shapeCast_self]
  rw [addf_apply, pool_matmul_apply]
  congr 1
  refine Finset.sum_congr rfl fun n _ => ?_
  rw [truncf_apply, truncf_apply, sitofp_apply, extui_apply]
  show (FloatOps.sitofp .f32 ((IntOp.cmpi .eq (iota .tc S1024x1024 32 [0] iota_S1024x1024_d0_w32 (ix2 g n))
      (broadcastTo S1024x1024 x3 broadcasts_S1x1024_S1024x1024 (ix2 g n))).setWidth 32) : Ideal .f32) * _ = _
  rw [iota_single_apply, broadcastTo_apply x3 broadcasts_S1x1024_S1024x1024 (ix2 g n) (ix2 0 n)
    (fun a => match a with | ⟨0, _⟩ => rfl | ⟨1, _⟩ => rfl), onehot_word]
  rw [maximumf_apply, addf_apply, mulf_apply, broadcast_apply,
    broadcastTo_apply x1 broadcasts_S1024x1_S1024x64 (ix2 n f) (ix2 n 0) (fun a => match a with | ⟨0, _⟩ => rfl | ⟨1, _⟩ => rfl),
    broadcastTo_apply x2 broadcasts_S1x64_S1024x64 (ix2 n f) (ix2 0 f) (fun a => match a with | ⟨0, _⟩ => rfl | ⟨1, _⟩ => rfl)]
  show _ * max _ (Ideal.ofBits .f32 0x00000000#32) = _
  rw [Ideal.ofBits_zero_f32]

/-- the reset's block is zero everywhere -/
theorem k2_pay1_apply (j : S1024x64.Idx) : k2_pay1 (F := Ideal) j = 0 := by
  unfold k2_pay1
  simp only [shapeCast_self]
  show Ideal.ofBits .f32 0x00000000#32 = 0
  exact Ideal.ofBits_zero_f32

/-- the stored block reads the accumulator under a leading unit axis -/
theorem k2_pay3_apply (a : Vec Ideal S1024x64 .f32) (z : Fin 1) (g : Fin 1024) (f : Fin 64) :
    k2_pay3 a (ix3 z g f) = a (ix2 g f) := by
  unfold k2_pay3
  refine (shapeCast_addUnit_apply (n := 2) ![1024, 64] a shapeCasts_S1024x64_S1x1024x64 (ix3 z g f)).trans ?_
  congr 1
  funext d; match d with | ⟨0, _⟩ => rfl | ⟨1, _⟩ => rfl

section Value2
variable (V : (c : Dev nD) → (b : Ref sig .tc) → Buf (Elt Ideal) ((c : Thread nD τ).loc b))

theorem N2_eq : cfg2.N = 98 := N_2

/-- the block indices of the five windows, decided once over the grid: the feature, degree and id blocks move with the
    point's own number, the bias block stays, the output block is the core's -/
theorem idx2_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = t.val
    ∧ win2_4.index t (0 : Fin 3) = t.val / 49 ∧ win2_4.index t (1 : Fin 3) = 0 ∧ win2_4.index t (2 : Fin 3) = 0 :=
  (by decide +kernel : ∀ t : Fin grid2.N, _)

/-- the feature block of point t is rows 1024·t … of the aggregated features -/
theorem xa2_apply (c : Dev nD) (t : Fin cfg2.N) (n : Fin 1024) (f : Fin 64) (h : t.val * 1024 + n.val < 100352) :
    xa2 V c t (ix2 n f) = (V c main_v38 : S100352x64.Idx → EReal) (ix2 ⟨t.val * 1024 + n.val, h⟩ f) := by
  unfold xa2 iblk2
  rw [View.read_apply]
  show V c main_v38 _ = _
  congr 1
  funext a; apply Fin.ext
  match a with
  | ⟨0, _⟩ => show win2_0.index t (0 : Fin 2) * 1024 + 1 * n.val = t.val * 1024 + n.val; rw [(idx2_facts t).1]; omega
  | ⟨1, _⟩ => show win2_0.index t (1 : Fin 2) * 64 + 1 * f.val = f.val; rw [(idx2_facts t).2.1]; omega

/-- the degree block of point t is the same rows of the degree column -/
theorem xd2_apply (c : Dev nD) (t : Fin cfg2.N) (n : Fin 1024) (z : Fin 1) (h : t.val * 1024 + n.val < 100352) :
    xd2 V c t (ix2 n z) = (V c main_v39 : S100352x1.Idx → EReal) (ix2 ⟨t.val * 1024 + n.val, h⟩ 0) := by
  unfold xd2 iblk2
  rw [View.read_apply]
  show V c main_v39 _ = _
  congr 1
  funext a; apply Fin.ext
  match a with
  | ⟨0, _⟩ => show win2_1.index t (0 : Fin 2) * 1024 + 1 * n.val = t.val * 1024 + n.val; rw [(idx2_facts t).2.2.1]; omega
  | ⟨1, _⟩ => show win2_1.index t (1 : Fin 2) * 1 + 1 * z.val = 0; rw [(idx2_facts t).2.2.2.1]; omega

/-- the bias block is the bias row at every point -/
theorem xb2_apply (c : Dev nD) (t : Fin cfg2.N) (z : Fin 1) (f : Fin 64) :
    xb2 V c t (ix2 z f) = (V c main_v41 : S1x64.Idx → EReal) (ix2 0 f) := by
  unfold xb2 iblk2
  rw [View.read_apply]
  show V c main_v41 _ = _
  congr 1
  funext a; apply Fin.ext
  match a with
  | ⟨0, _⟩ => show win2_2.index t (0 : Fin 2) * 1 + 1 * z.val = 0; rw [(idx2_facts t).2.2.2.2.1]; omega
  | ⟨1, _⟩ => show win2_2.index t (1 : Fin 2) * 64 + 1 * f.val = f.val; rw [(idx2_facts t).2.2.2.2.2.1]; omega

/-- the id block of point t is columns 1024·t … of the padded graph ids -/
theorem xg2_apply (c : Dev nD) (t : Fin cfg2.N) (z : Fin 1) (n : Fin 1024) (h : t.val * 1024 + n.val < 100352) :
    xg2 V c t (ix2 z n) = (V c main_v42 : S1x100352.Idx → BitVec 32) (ix2 0 ⟨t.val * 1024 + n.val, h⟩) := by
  unfold xg2 iblk2
  rw [View.read_apply]
  show V c main_v42 _ = _
  congr 1
  funext a; apply Fin.ext
  match a with
  | ⟨0, _⟩ => show win2_3.index t (0 : Fin 2) * 1 + 1 * z.val = 0; rw [(idx2_facts t).2.2.2.2.2.2.1]; omega
  | ⟨1, _⟩ => show win2_3.index t (1 : Fin 2) * 1024 + 1 * n.val = t.val * 1024 + n.val; rw [(idx2_facts t).2.2.2.2.2.2.2.1]; omega

end Value2

section Value2b
variable (V : (c : Dev nD) → (b : Ref sig .tc) → Buf (Elt Ideal) ((c : Thread nD τ).loc b))

/-- the addend of padded node row N for graph g and feature f, from the four arrays the kernel reads (graph ids, degree
    column, aggregated features, bias row): the one-hot factor times the rectified affine feature; zero past the rows -/
def poolTermOf (ids : S1x100352.Idx → BitVec 32) (deg : S100352x1.Idx → EReal) (feat : S100352x64.Idx → EReal)
    (bias : S1x64.Idx → EReal) (g : Fin 1024) (f : Fin 64) (N : ℕ) : EReal :=
  if h : N < 100352 then
    (if BitVec.ofNat 32 g.val = ids (ix2 0 ⟨N, h⟩) then (1 : EReal) else 0)
      * max (deg (ix2 ⟨N, h⟩ 0) * feat (ix2 ⟨N, h⟩ f) + bias (ix2 0 f)) 0
  else 0

/-- the same over the contents the region is entered with -/
abbrev poolTerm (c : Dev nD) (g : Fin 1024) (f : Fin 64) (N : ℕ) : EReal :=
  poolTermOf (V c main_v42) (V c main_v39) (V c main_v38) (V c main_v41) g f N

/-- a point's step at an index: to what the accumulator held it adds the addends of the point's 1024 rows -/
theorem step2_apply (c : Dev nD) (t : Fin cfg2.N) (a : Vec Ideal S1024x64 .f32) (g : Fin 1024) (f : Fin 64) :
    k2_pay2 (xd2 V c t) (xa2 V c t) (xb2 V c t) (xg2 V c t) a (ix2 g f)
      = a (ix2 g f) + ∑ n : Fin 1024, poolTerm V c g f (t.val * 1024 + n.val) := by
  refine (k2_pay2_apply _ _ _ _ a g f).trans ?_
  congr 1
  refine Finset.sum_congr rfl fun n _ => ?_
  have h : t.val * 1024 + n.val < 100352 := by have := t.isLt; have := N2_eq; have := n.isLt; omega
  unfold poolTerm poolTermOf
  rw [dif_pos h, xg2_apply V c t 0 n h, xd2_apply V c t n 0 h, xa2_apply V c t n f h, xb2_apply V c t 0 f]

/-- the addend of point n at an index: the sum of its 1024 rows' addends -/
def ptTerm (c : Dev nD) (n : ℕ) (i : S1024x64.Idx) : EReal := ∑ k : Fin 1024, poolTerm V c (i 0) (i 1) (n * 1024 + k.val)

/-- THE ACCUMULATOR at a core's last point: the sum over the core's 49 points and each point's 1024 rows -/
theorem acc2_last (c : Dev nD) (t : Fin cfg2.N) (ht : t.val % 49 = 48) (g : Fin 1024) (f : Fin 64) :
    acc2 V c t.val t.isLt (ix2 g f)
      = ∑ s : Fin 49, ∑ n : Fin 1024, poolTerm V c g f ((49 * (t.val / 49) + s.val) * 1024 + n.val) := by
  have hN := N2_eq
  have h' : 49 * (t.val / 49) + t.val % 49 < cfg2.N := by rw [Nat.div_add_mod]; exact t.isLt
  rw [Pipeline.eq_accAt_of_mod (acc2 V c) 49
    (fun n hn => k2_pay2 (xd2 V c ⟨n, hn⟩) (xa2 V c ⟨n, hn⟩) (xb2 V c ⟨n, hn⟩) (xg2 V c ⟨n, hn⟩) (k2_pay1 (F := Ideal)))
    (fun n hn a => k2_pay2 (xd2 V c ⟨n, hn⟩) (xa2 V c ⟨n, hn⟩) (xb2 V c ⟨n, hn⟩) (xg2 V c ⟨n, hn⟩) a)
    (fun n h h0 => acc2_reset V c n h h0) (fun n h hs => acc2_step V c n h hs) (by decide) t.val t.isLt h']
  have hfold := Pipeline.accAt_add_apply (N := cfg2.N) (ι := S1024x64.Idx) (β := EReal)
    (fun n hn => k2_pay2 (xd2 V c ⟨n, hn⟩) (xa2 V c ⟨n, hn⟩) (xb2 V c ⟨n, hn⟩) (xg2 V c ⟨n, hn⟩) (k2_pay1 (F := Ideal)))
    (fun n hn a => k2_pay2 (xd2 V c ⟨n, hn⟩) (xa2 V c ⟨n, hn⟩) (xb2 V c ⟨n, hn⟩) (xg2 V c ⟨n, hn⟩) a)
    (fun _ => (0 : EReal)) (ptTerm V c) (49 * (t.val / 49)) 48
    (fun h i => by
      obtain ⟨g, f, rfl⟩ : ∃ (g : Fin 1024) (f : Fin 64), i = ix2 g f := ⟨i 0, i 1, eq_ix2 i⟩
      refine (step2_apply V c ⟨_, h⟩ _ g f).trans ?_
      rw [k2_pay1_apply]; rfl)
    (fun n h a i _ _ => by
      obtain ⟨g, f, rfl⟩ : ∃ (g : Fin 1024) (f : Fin 64), i = ix2 g f := ⟨i 0, i 1, eq_ix2 i⟩
      exact step2_apply V c ⟨n, h⟩ a g f)
    (t.val % 49) (by omega) h' (ix2 g f)
  refine hfold.trans ?_
  rw [zero_add, ht, Finset.sum_range]
  rfl

/-- what the output array ends holding: at (core, graph, feature) the sum over the core's 49 · 1024 padded rows -/
def pool2 (c : Dev nD) : S2x1024x64.Idx → EReal := fun j =>
  ∑ s : Fin 49, ∑ n : Fin 1024, poolTerm V c (j 1) (j 2) ((49 * (j 0).val + s.val) * 1024 + n.val)

end Value2b

section Value2c
variable (V : (c : Dev nD) → (b : Ref sig .tc) → Buf (Elt Ideal) ((c : Thread nD τ).loc b))

/-- a block of the output sits in the array at its core's slab: (core of the point, graph, feature) -/
theorem emb2_4 (t : Fin cfg2.N) (z : Fin 1) (g : Fin 1024) (f : Fin 64) (hc : t.val / 49 < 2) :
    (((cfg2.win 4).blk t).view.emb (ix3 z g f) : S2x1024x64.Idx) = ix3 ⟨t.val / 49, hc⟩ g f := by
  funext a; apply Fin.ext
  match a with
  | ⟨0, _⟩ => show win2_4.index t (0 : Fin 3) * 1 + 1 * z.val = t.val / 49; rw [(idx2_facts t).2.2.2.2.2.2.2.2.1]; omega
  | ⟨1, _⟩ => show win2_4.index t (1 : Fin 3) * 1024 + 1 * g.val = g.val; rw [(idx2_facts t).2.2.2.2.2.2.2.2.2.1]; omega
  | ⟨2, _⟩ => show win2_4.index t (2 : Fin 3) * 64 + 1 * f.val = f.val; rw [(idx2_facts t).2.2.2.2.2.2.2.2.2.2]; omega

/-- WHAT A CORE'S LAST POINT WRITES BACK is its block of the pooled sums -/
theorem flushed2_4_eq (c : Dev nD) (dat : Dat τ (Elt Ideal) Unit ℕ (UR sig nD τ) ℕ cfg2 c)
    (hflush : ∀ t : Fin cfg2.N, t.val % 49 = 48 → dat.after 4 t = k2_pay3 (acc2 V c t.val t.isLt))
    (t : Fin cfg2.N) (hf : (cfg2.win 4).flush t = true) :
    dat.flushed 4 t = ((cfg2.win 4).blk t).view.read (Elt Ideal) (pool2 V c) := by
  have ht : t.val % 49 = 48 := (flush2_4 t).mp hf
  have hc : t.val / 49 < 2 := by have := t.isLt; have := N2_eq; omega
  show (cfg2.win 4).cut (grid2.coords t) (dat.after 4 t) = _
  rw [hflush t ht]
  funext y
  obtain ⟨z, g, f, rfl⟩ : ∃ (z : Fin 1) (g : Fin 1024) (f : Fin 64), y = ix3 z g f := ⟨y 0, y 1, y 2, eq_ix3 y⟩
  rw [View.read_apply]
  show k2_pay3 (acc2 V c t.val t.isLt) (ix3 z g f) = pool2 V c (((cfg2.win 4).blk t).view.emb (ix3 z g f))
  rw [emb2_4 t z g f hc, k2_pay3_apply, acc2_last V c t ht g f]
  rfl

/-- an index of the output array is in point t's block iff each coordinate is in the block's range -/
theorem mem_blk2_4 (t : Fin cfg2.N) (i : S2x1024x64.Idx) :
    i ∈ ((cfg2.win 4).blk t).view.set ↔ ∀ a : Fin 3, win2_4.index t a * S1x1024x64.size a ≤ (i a).val
      ∧ (i a).val < win2_4.index t a * S1x1024x64.size a + S1x1024x64.size a := by
  show i ∈ ((View.whole main_v43).slice (win2_4.rect t)).set ↔ _
  rw [View.set_slice_whole, Rect.mem_set_unit]
  exact Iff.rfl

/-- the two cores' last points cover the output array -/
theorem cover2_4 (i : S2x1024x64.Idx) : ∃ t : Fin cfg2.N, (cfg2.win 4).flush t = true ∧ i ∈ ((cfg2.win 4).blk t).view.set := by
  have h0 : (i 0).val < 2 := (i 0).isLt
  have h1 : (i 1).val < 1024 := (i 1).isLt
  have h2 : (i 2).val < 64 := (i 2).isLt
  have hN := N2_eq
  have hN' : grid2.N = 98 := N_2
  refine ⟨⟨49 * (i 0).val + 48, by omega⟩, (flush2_4 _).mpr (by show (49 * (i 0).val + 48) % 49 = 48; omega), ?_⟩
  rw [mem_blk2_4]
  obtain ⟨-, -, -, -, -, -, -, -, e0, e1, e2⟩ := idx2_facts ⟨49 * (i 0).val + 48, by omega⟩
  have e0' : win2_4.index ⟨49 * (i 0).val + 48, by omega⟩ (0 : Fin 3) = (i 0).val := by rw [e0]; show (49 * (i 0).val + 48) / 49 = _; omega
  intro a
  match a with
  | ⟨0, _⟩ => show win2_4.index _ (0 : Fin 3) * 1 ≤ (i 0).val ∧ (i 0).val < win2_4.index _ (0 : Fin 3) * 1 + 1; rw [e0']; omega
  | ⟨1, _⟩ => show win2_4.index _ (1 : Fin 3) * 1024 ≤ (i 1).val ∧ (i 1).val < win2_4.index _ (1 : Fin 3) * 1024 + 1024; rw [e1]; omega
  | ⟨2, _⟩ => show win2_4.index _ (2 : Fin 3) * 64 ≤ (i 2).val ∧ (i 2).val < win2_4.index _ (2 : Fin 3) * 64 + 64; rw [e2]; omega

/-- THE OUTPUT ARRAY after the run, read at an index: the pooled sum of the core's 49 · 1024 padded rows -/
theorem arr2_apply (c : Dev nD) (dat : Dat τ (Elt Ideal) Unit ℕ (UR sig nD τ) ℕ cfg2 c)
    (hflush : ∀ t : Fin cfg2.N, t.val % 49 = 48 → dat.after 4 t = k2_pay3 (acc2 V c t.val t.isLt))
    (cc : Fin 2) (g : Fin 1024) (f : Fin 64) :
    (dat.arrAt 4 cfg2.N : S2x1024x64.Idx → EReal) (ix3 cc g f)
      = ∑ s : Fin 49, ∑ n : Fin 1024, poolTerm V c g f ((49 * cc.val + s.val) * 1024 + n.val) := by
  rw [dat.arrAt_eq_of_cover 4 (pool2 V c) (fun t hf => flushed2_4_eq V c dat hflush t hf) cover2_4]
  rfl

end Value2c

end Cert.KernelIdeal.Gen

end
-- ==== Proof.KI.Reg2Acc.lean ====
/-
  The third pallas_call at a parameter `V`, second half: what the frame's runs left in the scratch and in the output's
  staging buffer, identified. Each case's stores are whole-buffer stores, so the scratch ends at the last one's
  payload: the point's one-hot product added to the zero block at a core's first point, to what the point before
  left elsewhere. By induction on the point the scratch therefore holds the accumulator defined beside the blocks, and
  at a core's last point, the only one written back, the output's staging buffer holds that accumulator recast to the
  output block's shape.
-/
import proofs.«400187_j27350351741543_3_alg».proof.Proof.KI.Reg2
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-! ## The scratch's contents are the accumulator -/

/-- The zero offsets of a whole-buffer rectangle, of rank two and of rank three. -/
theorem zeroOff2 : (![0, 0] : Fin 2 → Nat) = fun _ => 0 := funext fun a => by fin_cases a <;> rfl
theorem zeroOff3 : (![0, 0, 0] : Fin 3 → Nat) = fun _ => 0 := funext fun a => by fin_cases a <;> rfl

/-- At a core's first point the scratch ends at the point's product added to the zero block: the later of its two
    whole-buffer stores, whose read-back of the scratch reads the earlier one's zero block. -/
theorem sout2_A_0_eq (c : Dev nD) (i : grid2.Coords) (arg2 : Memref sig .tc .vmem S1024x64 .f32) (harg2 : arg2.IsWhole) (arg3 : Memref sig .tc .vmem S1024x1 .f32) (harg3 : arg3.IsWhole) (arg4 : Memref sig .tc .vmem S1x64 .f32) (harg4 : arg4.IsWhole) (arg5 : Memref sig .tc .vmem S1x1024 .i32) (harg5 : arg5.IsWhole) (arg6 : Memref sig .tc .vmem S1x1024x64 .f32) (harg6 : arg6.IsWhole) (arg7 : Memref sig .tc .vmem S1024x64 .f32) (harg7 : arg7.IsWhole) (hc0 : cond2_0 i) (hc1 : ¬cond2_1 i)
    (x0 : Vec F S1024x64 .f32) (x1 : Vec F S1024x1 .f32) (x2 : Vec F S1x64 .f32) (x3 : Vec F S1x1024 .i32) :
    sout2_A_0 c i arg2 harg2 arg3 harg3 arg4 harg4 arg5 harg5 arg6 harg6 arg7 harg7 hc0 hc1 x0 x1 x2 x3 = k2_pay2 x1 x0 x2 x3 (k2_pay1 (F := F)) := by
  unfold sout2_A_0
  rw [View.read_writes_eq_canon _ _ _ (scover2_A_0 c i arg2 harg2 arg3 harg3 arg4 harg4 arg5 harg5 arg6 harg6 arg7 harg7 hc0 hc1 x0 x1 x2 x3)]
  unfold kernelRun2_A
  dsimp only
  sl_unfold_words
  rw [View.canon_cons_unit_zero (S := S1024x64) zeroOff2]
  simp only [View.readAt_eq_ld, harg2.read_unread, harg3.read_unread, harg4.read_unread, harg5.read_unread, harg6.read_unread, harg7.read_unread,
    View.ld_unit_zero (S := S1024x64) zeroOff2, View.ld_unit_zero (S := S1024x1) zeroOff2, View.ld_unit_zero (S := S1x64) zeroOff2,
    View.ld_unit_zero (S := S1x1024) zeroOff2, View.ld_unit_zero (S := S1x1024x64) zeroOff3,
    View.readCov_unit_zero (S := S1024x64) _ zeroOff2]

/-- At a middle point it ends at the point's product added to what it came in with: its one whole-buffer store. -/
theorem sout2_B_0_eq (c : Dev nD) (i : grid2.Coords) (arg2 : Memref sig .tc .vmem S1024x64 .f32) (harg2 : arg2.IsWhole) (arg3 : Memref sig .tc .vmem S1024x1 .f32) (harg3 : arg3.IsWhole) (arg4 : Memref sig .tc .vmem S1x64 .f32) (harg4 : arg4.IsWhole) (arg5 : Memref sig .tc .vmem S1x1024 .i32) (harg5 : arg5.IsWhole) (arg6 : Memref sig .tc .vmem S1x1024x64 .f32) (harg6 : arg6.IsWhole) (arg7 : Memref sig .tc .vmem S1024x64 .f32) (harg7 : arg7.IsWhole) (hc0 : ¬cond2_0 i) (hc1 : ¬cond2_1 i)
    (x0 : Vec F S1024x64 .f32) (x1 : Vec F S1024x1 .f32) (x2 : Vec F S1x64 .f32) (x3 : Vec F S1x1024 .i32) (xs0 : Vec F S1024x64 .f32) :
    sout2_B_0 c i arg2 harg2 arg3 harg3 arg4 harg4 arg5 harg5 arg6 harg6 arg7 harg7 hc0 hc1 x0 x1 x2 x3 xs0 = k2_pay2 x1 x0 x2 x3 xs0 := by
  unfold sout2_B_0
  rw [View.read_writes_eq_canon _ _ _ (scover2_B_0 c i arg2 harg2 arg3 harg3 arg4 harg4 arg5 harg5 arg6 harg6 arg7 harg7 hc0 hc1 x0 x1 x2 x3 xs0)]
  unfold kernelRun2_B
  dsimp only
  sl_unfold_words
  rw [View.canon_unit_zero (S := S1024x64) zeroOff2]
  simp only [View.readAt_eq_ld, harg2.read_unread, harg3.read_unread, harg4.read_unread, harg5.read_unread, harg6.read_unread, harg7.read_unread,
    View.ld_unit_zero (S := S1024x64) zeroOff2, View.ld_unit_zero (S := S1024x1) zeroOff2, View.ld_unit_zero (S := S1x64) zeroOff2,
    View.ld_unit_zero (S := S1x1024) zeroOff2, View.ld_unit_zero (S := S1x1024x64) zeroOff3,
    View.readCov_unit_zero (S := S1024x64) _ zeroOff2]

/-- The same at a core's last point. -/
theorem sout2_C_0_eq (c : Dev nD) (i : grid2.Coords) (arg2 : Memref sig .tc .vmem S1024x64 .f32) (harg2 : arg2.IsWhole) (arg3 : Memref sig .tc .vmem S1024x1 .f32) (harg3 : arg3.IsWhole) (arg4 : Memref sig .tc .vmem S1x64 .f32) (harg4 : arg4.IsWhole) (arg5 : Memref sig .tc .vmem S1x1024 .i32) (harg5 : arg5.IsWhole) (arg6 : Memref sig .tc .vmem S1x1024x64 .f32) (harg6 : arg6.IsWhole) (arg7 : Memref sig .tc .vmem S1024x64 .f32) (harg7 : arg7.IsWhole) (hc0 : ¬cond2_0 i) (hc1 : cond2_1 i)
    (x0 : Vec F S1024x64 .f32) (x1 : Vec F S1024x1 .f32) (x2 : Vec F S1x64 .f32) (x3 : Vec F S1x1024 .i32) (xs0 : Vec F S1024x64 .f32) :
    sout2_C_0 c i arg2 harg2 arg3 harg3 arg4 harg4 arg5 harg5 arg6 harg6 arg7 harg7 hc0 hc1 x0 x1 x2 x3 xs0 = k2_pay2 x1 x0 x2 x3 xs0 := by
  unfold sout2_C_0
  rw [View.read_writes_eq_canon _ _ _ (scover2_C_0 c i arg2 harg2 arg3 harg3 arg4 harg4 arg5 harg5 arg6 harg6 arg7 harg7 hc0 hc1 x0 x1 x2 x3 xs0)]
  unfold kernelRun2_C
  dsimp only
  sl_unfold_words
  rw [View.canon_unit_zero (S := S1024x64) zeroOff2]
  simp only [View.readAt_eq_ld, harg2.read_unread, harg3.read_unread, harg4.read_unread, harg5.read_unread, harg6.read_unread, harg7.read_unread,
    View.ld_unit_zero (S := S1024x64) zeroOff2, View.ld_unit_zero (S := S1024x1) zeroOff2, View.ld_unit_zero (S := S1x64) zeroOff2,
    View.ld_unit_zero (S := S1x1024) zeroOff2, View.ld_unit_zero (S := S1x1024x64) zeroOff3,
    View.readCov_unit_zero (S := S1024x64) _ zeroOff2]

/-- And there the output's buffer ends at the accumulator just stored, recast to the output block's shape: its one
    whole-buffer store, whose payload is the scratch read back after that point's store into it. -/
theorem out2_C_4_eq (c : Dev nD) (i : grid2.Coords) (arg2 : Memref sig .tc .vmem S1024x64 .f32) (harg2 : arg2.IsWhole) (arg3 : Memref sig .tc .vmem S1024x1 .f32) (harg3 : arg3.IsWhole) (arg4 : Memref sig .tc .vmem S1x64 .f32) (harg4 : arg4.IsWhole) (arg5 : Memref sig .tc .vmem S1x1024 .i32) (harg5 : arg5.IsWhole) (arg6 : Memref sig .tc .vmem S1x1024x64 .f32) (harg6 : arg6.IsWhole) (arg7 : Memref sig .tc .vmem S1024x64 .f32) (harg7 : arg7.IsWhole) (hc0 : ¬cond2_0 i) (hc1 : cond2_1 i)
    (x0 : Vec F S1024x64 .f32) (x1 : Vec F S1024x1 .f32) (x2 : Vec F S1x64 .f32) (x3 : Vec F S1x1024 .i32) (xs0 : Vec F S1024x64 .f32) :
    out2_C_4 c i arg2 harg2 arg3 harg3 arg4 harg4 arg5 harg5 arg6 harg6 arg7 harg7 hc0 hc1 x0 x1 x2 x3 xs0 = k2_pay3 (k2_pay2 x1 x0 x2 x3 xs0) := by
  unfold out2_C_4
  rw [View.read_writes_eq_canon _ _ _ (cover2_C_4 c i arg2 harg2 arg3 harg3 arg4 harg4 arg5 harg5 arg6 harg6 arg7 harg7 hc0 hc1 x0 x1 x2 x3 xs0)]
  unfold kernelRun2_C
  dsimp only
  sl_unfold_words
  rw [View.canon_unit_zero (S := S1x1024x64) zeroOff3]
  simp only [View.readAt_eq_ld, harg2.read_unread, harg3.read_unread, harg4.read_unread, harg5.read_unread, harg6.read_unread, harg7.read_unread,
    View.ld_unit_zero (S := S1024x64) zeroOff2, View.ld_unit_zero (S := S1024x1) zeroOff2, View.ld_unit_zero (S := S1x64) zeroOff2,
    View.ld_unit_zero (S := S1x1024) zeroOff2, View.ld_unit_zero (S := S1x1024x64) zeroOff3,
    View.readCov_unit_zero (S := S1024x64) _ zeroOff2]

/-- What the scratch holds after every point IS the accumulator: by induction on the point, a core's first point
    resetting it, every other point stepping it from the point before. -/
theorem outsAt2_snd (c : Dev nD) : ∀ (n : ℕ) (hn : n < cfg2.N), (outsAt2 V c n hn).2 = acc2 V c n hn
  | 0, hn => by
    rw [outsAt2_A V c ⟨0, hn⟩ (Nat.zero_mod _) (by dsimp only; omega)]
    dsimp only
    rw [sout2_A_0_eq, acc2_reset V c 0 hn (Nat.zero_mod _)]
  | n + 1, hn => by
    have ih : (outsAt2 V c (n + 1 - 1) (Nat.lt_of_le_of_lt (Nat.sub_le _ _) hn)).2 = acc2 V c n (Nat.lt_of_succ_lt hn) :=
      outsAt2_snd c n _
    by_cases h0 : (n + 1) % 49 = 0
    · have h1 : ¬(n + 1) % 49 = 48 := by omega
      rw [outsAt2_A V c ⟨n + 1, hn⟩ h0 h1]
      dsimp only
      rw [sout2_A_0_eq, acc2_reset V c (n + 1) hn h0]
    · by_cases h1 : (n + 1) % 49 = 48
      · rw [outsAt2_C V c ⟨n + 1, hn⟩ h0 h1]
        dsimp only
        rw [sout2_C_0_eq, acc2_step V c n hn h0, ih]
      · rw [outsAt2_B V c ⟨n + 1, hn⟩ h0 h1]
        dsimp only
        rw [sout2_B_0_eq, acc2_step V c n hn h0, ih]

/-- At a core's last point the output's staging buffer, which is written back there, holds the accumulator recast to
    the output block's shape. -/
theorem after2_4_flush (c : Dev nD) (t : Fin cfg2.N) (h : t.val % 49 = 48) :
    (dat2 V c).after 4 t = k2_pay3 (acc2 V c t.val t.isLt) := by
  have h0 : ¬t.val % 49 = 0 := by omega
  rw [after2_4, ← outsAt2_snd V c t.val t.isLt, outsAt2_C V c t h0 h]
  dsimp only
  rw [out2_C_4_eq, sout2_C_0_eq]

end Region2

end Cert.KernelIdeal.Gen

end
-- ==== Proof.KI.PadFacts.lean ====
/-
  Layout operations read at an index, for the host code around the pooling call: a vector viewed as a column or
  as a row, a column and an index vector padded from 100000 to 100352 entries, and the two [1024,64] halves of
  the [2,1024,64] partial results summed. Each lemma reads one entry of the composed operation as one entry of
  its operand. Two facts about 32-bit words close the file: a group number below 1024 is not the all-ones word,
  and equals a word exactly when that word, read signed, is the group number.
-/
import proofs.«400187_j27350351741543_3_alg».proof.Proof.Gen.KernelIdeal.Launch
import Idealize.ShloMosaic.Lib.Pipeline.Value
import Idealize.ShloMosaic.Lib.ValueIdx
import Idealize.ShloMosaic.Lib.KernelVsHost
import Idealize.ShloMosaic.PureOps.Ideal.Laws

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-- A vector viewed as a column reads its entry `n` at row `n`. -/
theorem col_apply (d : S100000.Idx → EReal) (n : Fin 100000) :
    (shapeCast S100000x1 d shapeCasts_S100000_S100000x1) (ix2 n (0 : Fin 1)) = d (ix1 n) := by
  refine shapeCast_apply d shapeCasts_S100000_S100000x1 (ix2 n (0 : Fin 1)) (ix1 n) ?_
  rw [Shape.rowMajor_val_two, Shape.rowMajor_val_one]
  show n.val = n.val * 1 + 0
  omega

/-- A vector viewed as a row reads its entry `f` at column `f`. -/
theorem row_apply (b : S64.Idx → EReal) (f : Fin 64) :
    (shapeCast S1x64 b shapeCasts_S64_S1x64) (ix2 (0 : Fin 1) f) = b (ix1 f) := by
  refine shapeCast_apply b shapeCasts_S64_S1x64 (ix2 (0 : Fin 1) f) (ix1 f) ?_
  rw [Shape.rowMajor_val_two, Shape.rowMajor_val_one]
  show f.val = 0 * 64 + f.val
  omega

/-- The column padded to 100352 rows reads the vector's entry `n` at row `n`, for `n` below 100000. -/
theorem padcol_apply (d : S100000.Idx → EReal) (z : S_.Idx → EReal) (n : Fin 100000) :
    (pad S100352x1 ![0, 0] ![352, 0] ![0, 0] (shapeCast S100000x1 d shapeCasts_S100000_S100000x1) z
        pads_S100000x1_S100352x1_03520_000 h_S_) (ix2 (⟨n.val, by omega⟩ : Fin 100352) (0 : Fin 1)) = d (ix1 n) := by
  refine (pad_apply_of_inside _ _ _ (shapeCast S100000x1 d shapeCasts_S100000_S100000x1) z
    pads_S100000x1_S100352x1_03520_000 h_S_ _ (ix2 n (0 : Fin 1)) ?_).trans (col_apply d n)
  intro a
  match a with
  | ⟨0, _⟩ => show n.val = 0 + n.val * (0 + 1); omega
  | ⟨1, _⟩ => show (0 : Nat) = 0 + 0 * (0 + 1); omega

/-- The index vector padded to 100352 entries and viewed as a row reads the vector's entry `n` at column `n`,
    for `n` below 100000. -/
theorem padids_apply_lt (bt : S100000.Idx → BitVec 32) (v : S_.Idx → BitVec 32) (n : Fin 100000) :
    (shapeCast S1x100352 (pad S100352 ![0] ![352] ![0] bt v pads_S100000_S100352_03520 h_S_)
        shapeCasts_S100352_S1x100352) (ix2 (0 : Fin 1) (⟨n.val, by omega⟩ : Fin 100352)) = bt (ix1 n) := by
  refine (shapeCast_apply _ shapeCasts_S100352_S1x100352 (ix2 (0 : Fin 1) (⟨n.val, by omega⟩ : Fin 100352))
    (ix1 (⟨n.val, by omega⟩ : Fin 100352)) ?_).trans ?_
  · rw [Shape.rowMajor_val_two, Shape.rowMajor_val_one]
    show n.val = 0 * 100352 + n.val
    omega
  · refine pad_apply_of_inside _ _ _ bt v pads_S100000_S100352_03520 h_S_ _ (ix1 n) ?_
    intro a
    match a with
    | ⟨0, _⟩ => show n.val = 0 + n.val * (0 + 1); omega

/-- The same row reads the padding value at every column from 100000 on. -/
theorem padids_apply_ge (bt : S100000.Idx → BitVec 32) (v : S_.Idx → BitVec 32) (j : Fin 100352)
    (hj : 100000 ≤ j.val) :
    (shapeCast S1x100352 (pad S100352 ![0] ![352] ![0] bt v pads_S100000_S100352_03520 h_S_)
        shapeCasts_S100352_S1x100352) (ix2 (0 : Fin 1) j) = v ix0 := by
  refine (shapeCast_apply _ shapeCasts_S100352_S1x100352 (ix2 (0 : Fin 1) j) (ix1 j) ?_).trans ?_
  · rw [Shape.rowMajor_val_two, Shape.rowMajor_val_one]
    show j.val = 0 * 100352 + j.val
    omega
  · refine (pad_apply_of_not_inside _ _ _ bt v pads_S100000_S100352_03520 h_S_ (ix1 j) (0 : Fin 1) ?_).trans
      (congrArg v (eq_ix0 _))
    intro hin
    have e : (j.val - 0) / (0 + 1) < 100000 := hin.2.2
    omega

/-- The first [1024,64] half of the partial results reads entry `(0, g, f)` at `(g, f)`. -/
theorem half0_apply (p : S2x1024x64.Idx → EReal) (g : Fin 1024) (f : Fin 64) :
    (shapeCast S1024x64 (extractStridedSlice S1x1024x64 ![0, 0, 0] p slices_S2x1024x64_S1x1024x64_0_0_0)
        shapeCasts_S1x1024x64_S1024x64) (ix2 g f) = p (ix3 (0 : Fin 2) g f) := by
  refine (shapeCast_apply _ shapeCasts_S1x1024x64_S1024x64 (ix2 g f) (ix3 (0 : Fin 1) g f) ?_).trans ?_
  · rw [Shape.rowMajor_val_three, Shape.rowMajor_val_two]
    show (0 * 1024 + g.val) * 64 + f.val = g.val * 64 + f.val
    omega
  · refine extractStridedSlice_apply _ p slices_S2x1024x64_S1x1024x64_0_0_0 (ix3 (0 : Fin 1) g f)
      (ix3 (0 : Fin 2) g f) ?_
    intro a
    match a with
    | ⟨0, _⟩ => show (0 : Nat) = 0 + 0; omega
    | ⟨1, _⟩ => show g.val = 0 + g.val; omega
    | ⟨2, _⟩ => show f.val = 0 + f.val; omega

/-- The second [1024,64] half of the partial results reads entry `(1, g, f)` at `(g, f)`. -/
theorem half1_apply (p : S2x1024x64.Idx → EReal) (g : Fin 1024) (f : Fin 64) :
    (shapeCast S1024x64 (extractStridedSlice S1x1024x64 ![1, 0, 0] p slices_S2x1024x64_S1x1024x64_1_0_0)
        shapeCasts_S1x1024x64_S1024x64) (ix2 g f) = p (ix3 (1 : Fin 2) g f) := by
  refine (shapeCast_apply _ shapeCasts_S1x1024x64_S1024x64 (ix2 g f) (ix3 (0 : Fin 1) g f) ?_).trans ?_
  · rw [Shape.rowMajor_val_three, Shape.rowMajor_val_two]
    show (0 * 1024 + g.val) * 64 + f.val = g.val * 64 + f.val
    omega
  · refine extractStridedSlice_apply _ p slices_S2x1024x64_S1x1024x64_1_0_0 (ix3 (0 : Fin 1) g f)
      (ix3 (1 : Fin 2) g f) ?_
    intro a
    match a with
    | ⟨0, _⟩ => show (1 : Nat) = 1 + 0; omega
    | ⟨1, _⟩ => show g.val = 0 + g.val; omega
    | ⟨2, _⟩ => show f.val = 0 + f.val; omega

/-- The two halves summed read, at `(g, f)`, the sum of the entries `(0, g, f)` and `(1, g, f)`. -/
theorem pooled_apply (p : S2x1024x64.Idx → EReal) (g : Fin 1024) (f : Fin 64) :
    (addf (F := Ideal) (φ := .f32)
        (shapeCast S1024x64 (extractStridedSlice S1x1024x64 ![0, 0, 0] p slices_S2x1024x64_S1x1024x64_0_0_0)
          shapeCasts_S1x1024x64_S1024x64)
        (shapeCast S1024x64 (extractStridedSlice S1x1024x64 ![1, 0, 0] p slices_S2x1024x64_S1x1024x64_1_0_0)
          shapeCasts_S1x1024x64_S1024x64)) (ix2 g f)
      = p (ix3 (0 : Fin 2) g f) + p (ix3 (1 : Fin 2) g f) := by
  rw [addf_apply, half0_apply, half1_apply]

/-- A group number below 1024, as a 32-bit word, is not the all-ones word. -/
theorem ofNat_ne_allOnes (g : Fin 1024) : BitVec.ofNat 32 g.val ≠ 4294967295#32 := by
  intro h
  have e := congrArg BitVec.toNat h
  rw [BitVec.toNat_ofNat, BitVec.toNat_ofNat] at e
  have hg := g.isLt
  omega

/-- A group number below 1024, as a 32-bit word, equals a word exactly when that word read signed is the group
    number. -/
theorem ofNat_eq_iff_toInt (g : Fin 1024) (w : BitVec 32) :
    BitVec.ofNat 32 g.val = w ↔ w.toInt = (g.val : ℤ) := by
  have hg := g.isLt
  have hw := w.isLt
  rw [BitVec.toInt_eq_toNat_cond]
  constructor
  · intro h
    subst h
    rw [BitVec.toNat_ofNat]
    split <;> omega
  · intro h
    apply BitVec.eq_of_toNat_eq
    rw [BitVec.toNat_ofNat]
    split at h <;> omega

end Cert.KernelIdeal.Gen
-- ==== Proof.LibRowScatter.lean ====
/-
  Rows scattered and gathered on the host, read at an index, at the ideal instance (floats are extended reals);
  and three facts about finite sums of extended reals and re-indexed sums.

  • A scatter-add of ROWS: operand [N, C], one index word per update row ([E, 1]), updates [E, C]. Element (n, f)
    of the result is the operand's plus the sum over the update rows e whose index word, read signed, is n, of
    update element (e, f).
    Likewise for a vector operand [N] and updates [E].
  • A gather of ROWS: operand [N, C] (or [N]), one index word per result row. Result element (e, f) is the operand's
    at the row the index word names, read signed and clamped into [0, N − 1].
  • A nonnegative real factor goes through a finite sum of extended reals; a three-level block sum is the flat sum;
    a sum over a + b terms splits.
-/
import Mathlib.Data.EReal.Operations
import Mathlib.Algebra.BigOperators.Fin
import Mathlib.Algebra.BigOperators.Group.Finset.Basic
import Mathlib.Logic.Equiv.Fin.Basic
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Idealize.ShloMosaic.RowScatter

open Idealize.ShloMosaic Idealize.ShloMosaic.ValueIdx

/-- The shape of an a × b matrix. -/
abbrev S2 (a b : ℕ) : Shape := ⟨2, ![a, b]⟩
/-- The shape of a vector of length a. -/
abbrev S1 (a : ℕ) : Shape := ⟨1, ![a]⟩

/-! ## Finite sums of extended reals -/

/-- Multiplication by a nonnegative REAL distributes over a finite sum of extended reals. (Multiplication of extended
    reals does not distribute over addition in general: ⊤ · (1 + (−1)) = 0 but ⊤ · 1 + ⊤ · (−1) = ⊥.) -/
theorem coe_nonneg_mul_sum {ι : Type*} (s : Finset ι) (r : ℝ) (hr : 0 ≤ r) (g : ι → EReal) :
    (r : EReal) * ∑ i ∈ s, g i = ∑ i ∈ s, (r : EReal) * g i := by
  classical
  refine Finset.induction_on s ?_ ?_
  · simp
  · intro a s ha ih
    rw [Finset.sum_insert ha, Finset.sum_insert ha,
      EReal.left_distrib_of_nonneg_of_ne_top (EReal.coe_nonneg.mpr hr) (EReal.coe_ne_top r), ih]

/-- A factor that is a nonnegative real goes through a sum of selected terms: if it takes each selected a e to b e, it
    takes 0 + Σ (selected a) to 0 + Σ (selected b). -/
theorem scale_through_sum {E : ℕ} (dn : EReal) (r : ℝ) (hr : 0 ≤ r) (hd : dn = (r : EReal)) (cond : Fin E → Prop)
    [DecidablePred cond] (a b : Fin E → EReal) (h : ∀ e, cond e → dn * a e = b e) :
    dn * (0 + ∑ e : Fin E, if cond e then a e else 0) = 0 + ∑ e : Fin E, if cond e then b e else 0 := by
  rw [zero_add, zero_add, hd, coe_nonneg_mul_sum _ r hr]
  refine Finset.sum_congr rfl fun e _ => ?_
  by_cases hc : cond e
  · rw [if_pos hc, if_pos hc, ← hd, h e hc]
  · rw [if_neg hc, if_neg hc, mul_zero]

/-! ## Re-indexed sums -/

section Reindex
variable {M : Type*} [AddCommMonoid M]

/-- A sum over A blocks of B sub-blocks of C terms, the term at position (B·c + s)·C + n, is the sum over the
    A·B·C positions. -/
theorem sum_blocks (A B C : ℕ) (g : ℕ → M) :
    ∑ c : Fin A, ∑ s : Fin B, ∑ n : Fin C, g ((B * c.val + s.val) * C + n.val) = ∑ N : Fin (A * B * C), g N.val := by
  rw [← Equiv.sum_comp (finProdFinEquiv (m := A * B) (n := C)) (fun N => g N.val), Fintype.sum_prod_type,
    ← Equiv.sum_comp (finProdFinEquiv (m := A) (n := B)), Fintype.sum_prod_type]
  refine Finset.sum_congr rfl fun c _ => Finset.sum_congr rfl fun s _ => Finset.sum_congr rfl fun n _ => ?_
  congr 1
  simp only [finProdFinEquiv_apply_val]
  ring

/-- A sum over a + b positions is the sum over the first a plus the sum over the last b. -/
theorem sum_split (a b : ℕ) (g : ℕ → M) :
    ∑ N : Fin (a + b), g N.val = ∑ N : Fin a, g N.val + ∑ N : Fin b, g (a + N.val) := by
  rw [Fin.sum_univ_add]
  simp only [Fin.val_castAdd, Fin.val_natAdd]

end Reindex

/-! ## A gather of rows, read at an index

On each operand axis the index read is the clamped start plus the batching coordinate plus the offset coordinate. Here
there are no batching axes; the row axis is collapsed (offset 0) and its start is the index word; the column axis has
start 0 and its offset is the result's column. -/

section Gather
variable {α : Type}

/-- A GATHER OF ROWS, read at (e, f): operand [N, C], one index word per result row, whole rows taken
    (slice sizes [1, C], the row axis collapsed). The result's (e, f) is the operand's at row idx[e, 0] — read signed
    and clamped into [0, N − 1] — and column f. -/
theorem gather_rows_apply {N E C : ℕ} (hN : 0 < N) (d : GatherDims (S2 N C) (S2 E 1) (S2 E C))
    (ho : d.offsetDims = [1]) (hc : d.collapsedSliceDims = [0]) (hob : d.operandBatchingDims = [])
    (hsb : d.startIndicesBatchingDims = []) (hm : d.startIndexMap = [0]) (hv : d.indexVectorDim = 1)
    (hsz : d.sliceSizes = ![1, C]) (x : (S2 N C).Idx → α) (idx : IVec (S2 E 1) 32) (e : Fin E) (f : Fin C) :
    Host.gather d x idx (ix2 e f) = x (ix2 ⟨min (idx (ix2 e 0)).toInt.toNat (N - 1), by omega⟩ f) := by
  obtain ⟨od, cd, ob, sb, sm, iv, ss, wf⟩ := d
  simp only at ho hc hob hsb hm hv hsz
  subst ho hc hob hsb hm hv hsz
  unfold Host.gather
  congr 1
  funext a
  refine Fin.ext ?_
  match a with
  | ⟨0, _⟩ =>
    show GatherDims.start _ (ix2 e f) idx 0 + GatherDims.batchCoord _ (ix2 e f) 0 + GatherDims.offCoord _ (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : ∀ c, GatherDims.siIdx (s := S2 N C) (si := S2 E 1) (t := S2 E C) ⟨[1], [0], [], [], [0], 1, ![1, C], wf⟩ (ix2 e f) c = ix2 e 0 := by
      intro c
      funext b; refine Fin.ext ?_
      match b with
      | ⟨0, _⟩ => rfl
      | ⟨1, _⟩ =>
        have hc1 : c.val < 1 := c.isLt
        show c.val = 0
        omega
    rw [hsi]
    rfl
  | ⟨1, _⟩ =>
    show GatherDims.start _ (ix2 e f) idx 1 + GatherDims.batchCoord _ (ix2 e f) 1 + GatherDims.offCoord _ (ix2 e f) 1 = _
    rw [GatherDims.batchCoord_eq_zero _ _ _ List.not_mem_nil]
    unfold GatherDims.start
    rw [dif_neg (show (1 : Fin 2) ∉ [(0 : Fin 2)] by decide)]
    unfold GatherDims.offCoord
    rw [dif_pos ((GatherDims.mem_sKept _ _).mpr ⟨show (1 : Fin 2) ∉ [(0 : Fin 2)] by decide, List.not_mem_nil⟩)]
    simp only [Nat.zero_add]
    rfl

/-- A GATHER OF ELEMENTS of a vector, read at e: operand [N], one index word per result element. The result's e is
    the operand's at idx[e, 0], read signed and clamped into [0, N − 1]. -/
theorem gather_elems_apply {N E : ℕ} (hN : 0 < N) (d : GatherDims (S1 N) (S2 E 1) (S1 E))
    (ho : d.offsetDims = []) (hc : d.collapsedSliceDims = [0]) (hob : d.operandBatchingDims = [])
    (hsb : d.startIndicesBatchingDims = []) (hm : d.startIndexMap = [0]) (hv : d.indexVectorDim = 1)
    (hsz : d.sliceSizes = ![1]) (x : (S1 N).Idx → α) (idx : IVec (S2 E 1) 32) (e : Fin E) :
    Host.gather d x idx (ix1 e) = x (ix1 ⟨min (idx (ix2 e 0)).toInt.toNat (N - 1), by omega⟩) := by
  obtain ⟨od, cd, ob, sb, sm, iv, ss, wf⟩ := d
  simp only at ho hc hob hsb hm hv hsz
  subst ho hc hob hsb hm hv hsz
  unfold Host.gather
  congr 1
  funext a
  refine Fin.ext ?_
  match a with
  | ⟨0, _⟩ =>
    show GatherDims.start _ (ix1 e) idx 0 + GatherDims.batchCoord _ (ix1 e) 0 + GatherDims.offCoord _ (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : ∀ c, GatherDims.siIdx (s := S1 N) (si := S2 E 1) (t := S1 E) ⟨[], [0], [], [], [0], 1, ![1], wf⟩ (ix1 e) c = ix2 e 0 := by
      intro c
      funext b; refine Fin.ext ?_
      match b with
      | ⟨0, _⟩ => rfl
      | ⟨1, _⟩ =>
        have hc1 : c.val < 1 := c.isLt
        show c.val = 0
        omega
    rw [hsi]
    rfl

end Gather

/-! ## A scatter-add of rows, read at an index

The result at an operand index is the operand's element plus the sum of the updates that land there. An update index
(e, f') has, on the row axis, start = the index word of row e read signed and window coordinate 0 (the axis is
inserted); on the column axis, start 0 and window coordinate f'. The sum over the updates landing on (n, f), written
over all (e, f') with an indicator, is a double sum whose inner sum over f' keeps the one term f' = f. -/

section Scatter

/-- An update index lands on operand index i exactly when, on every operand axis, the window's start (the index word
    read signed, or 0) plus the window coordinate is i's coordinate — as integers: a landing point outside the
    operand on some axis is no operand index, and the update is dropped. -/
theorem resultIdx?_eq_some_iff {s si u : Shape} (d : ScatterDims s si u) {w : ℕ} (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some.injEq]
    constructor
    · intro he a
      have h1 := h a
      rw [← he]
      show _ = ((d.start j idx a + (d.window j a : ℤ)).toNat : ℤ)
      omega
    · intro he
      funext a
      refine Fin.ext ?_
      have h1 := h a
      have h2 := he a
      show (d.start j idx a + (d.window j a : ℤ)).toNat = (i a).val
      omega
  · rename_i h
    constructor
    · intro he
      cases he
    · intro he
      exfalso
      apply h
      intro a
      have h2 := he a
      have h3 := (i a).isLt
      omega

/-- A SCATTER-ADD OF ROWS, read at (n, f): operand [N, C], one index word per update row, updates [E, C]. Update
    element (e, f') lands on (n, f) exactly when the index word of row e, read signed, is n, and f' = f. So the
    result's (n, f) is the operand's plus the sum, over the update rows e whose index word is n, of update (e, f). -/
theorem scatterAdd_rows_apply {N E C : ℕ} (d : ScatterDims (S2 N C) (S2 E 1) (S2 E C))
    (hu : d.updateWindowDims = [1]) (hi : d.insertedWindowDims = [0]) (hs : d.scatterDimsToOperandDims = [0])
    (hv : d.indexVectorDim = 1) (x : (S2 N C).Idx → EReal) (idx : IVec (S2 E 1) 32) (upd : (S2 E C).Idx → EReal)
    (n : Fin N) (f : Fin C) :
    Host.scatterAdd (F := Ideal) (φ := .f32) d x idx upd (ix2 n f) =
      x (ix2 n f) + ∑ e : Fin E, if (idx (ix2 e 0)).toInt = (n.val : ℤ) then upd (ix2 e f) else 0 := by
  obtain ⟨uw, iw, sd, iv, wf⟩ := d
  simp only at hu hi hs hv
  subst hu hi hs hv
  show Ideal.hostScatterAdd _ x idx upd (ix2 n f) = _
  unfold Ideal.hostScatterAdd
  congr 1
  rw [Finset.sum_filter, sum_idx2]
  refine Finset.sum_congr rfl fun e _ => ?_
  have hs0 : ∀ f' : Fin C, ScatterDims.start (s := S2 N C) (si := S2 E 1) (u := S2 E C) ⟨[1], [0], [0], 1, wf⟩ (ix2 e f') idx 0
      = (idx (ix2 e 0)).toInt := by
    intro f'
    unfold ScatterDims.start
    rw [dif_pos (List.mem_singleton.mpr rfl)]
    have hsi : ∀ c, ScatterDims.siIdx (s := S2 N C) (si := S2 E 1) (u := S2 E C) ⟨[1], [0], [0], 1, wf⟩ (ix2 e f') c = ix2 e 0 := by
      intro c
      funext b; refine Fin.ext ?_
      match b with
      | ⟨0, _⟩ => rfl
      | ⟨1, _⟩ =>
        have hc1 : c.val < 1 := c.isLt
        show c.val = 0
        omega
    rw [hsi]
  have hs1 : ∀ f' : Fin C, ScatterDims.start (s := S2 N C) (si := S2 E 1) (u := S2 E C) ⟨[1], [0], [0], 1, wf⟩ (ix2 e f') idx 1 = 0 := by
    intro f'
    unfold ScatterDims.start
    rw [dif_neg (show (1 : Fin 2) ∉ [(0 : Fin 2)] by decide)]
  have hw0 : ∀ f' : Fin C, ScatterDims.window (s := S2 N C) (si := S2 E 1) (u := S2 E C) ⟨[1], [0], [0], 1, wf⟩ (ix2 e f') 0 = 0 := by
    intro f'
    unfold ScatterDims.window
    split
    · rename_i ha
      exact absurd ha (show (0 : Fin 2) ∉ (List.finRange 2).filter (fun a : Fin 2 => a ∉ [(0 : Fin 2)]) by decide)
    · rfl
  have hw1 : ∀ f' : Fin C, ScatterDims.window (s := S2 N C) (si := S2 E 1) (u := S2 E C) ⟨[1], [0], [0], 1, wf⟩ (ix2 e f') 1 = f'.val := by
    intro f'
    unfold ScatterDims.window
    split
    · rfl
    · rename_i ha
      exact absurd (show (1 : Fin 2) ∈ (List.finRange 2).filter (fun a : Fin 2 => a ∉ [(0 : Fin 2)]) by decide) ha
  have key : ∀ f' : Fin C, (ScatterDims.resultIdx? (s := S2 N C) (si := S2 E 1) (u := S2 E C) ⟨[1], [0], [0], 1, wf⟩ (ix2 e f') idx = some (ix2 n f))
      ↔ ((idx (ix2 e 0)).toInt = (n.val : ℤ) ∧ f' = f) := by
    intro f'
    rw [resultIdx?_eq_some_iff]
    constructor
    · intro h
      have h0 : (idx (ix2 e 0)).toInt + ((0 : ℕ) : ℤ) = (n.val : ℤ) := by
        have := h 0; rw [hs0, hw0] at this; exact this
      have h1 : (0 : ℤ) + ((f'.val : ℕ) : ℤ) = (f.val : ℤ) := by
        have := h 1; rw [hs1, hw1] at this; exact this
      exact ⟨by omega, Fin.ext (by omega)⟩
    · rintro ⟨h0, hf⟩ a
      match a with
      | ⟨0, _⟩ =>
        show ScatterDims.start _ _ idx 0 + ((ScatterDims.window _ _ 0 : ℕ) : ℤ) = (n.val : ℤ)
        rw [hs0, hw0, h0]; simp
      | ⟨1, _⟩ =>
        show ScatterDims.start _ _ idx 1 + ((ScatterDims.window _ _ 1 : ℕ) : ℤ) = (f.val : ℤ)
        rw [hs1, hw1, hf]; simp
  simp only [key]
  by_cases hP : (idx (ix2 e 0)).toInt = (n.val : ℤ)
  · simp only [hP, true_and, if_true]
    rw [Finset.sum_ite_eq' Finset.univ f (fun b => upd (ix2 e b))]
    simp
  · simp only [hP, false_and, if_false]
    exact Finset.sum_const_zero

/-- A SCATTER-ADD OF ELEMENTS into a vector, read at n: operand [N], one index word per update element, updates [E].
    Update element e lands on n exactly when its index word, read signed, is n. So the result's n is the operand's
    plus the sum of the updates whose index word is n. -/
theorem scatterAdd_elems_apply {N E : ℕ} (d : ScatterDims (S1 N) (S2 E 1) (S1 E))
    (hu : d.updateWindowDims = []) (hi : d.insertedWindowDims = [0]) (hs : d.scatterDimsToOperandDims = [0])
    (hv : d.indexVectorDim = 1) (x : (S1 N).Idx → EReal) (idx : IVec (S2 E 1) 32) (upd : (S1 E).Idx → EReal)
    (n : Fin N) :
    Host.scatterAdd (F := Ideal) (φ := .f32) d x idx upd (ix1 n) =
      x (ix1 n) + ∑ e : Fin E, if (idx (ix2 e 0)).toInt = (n.val : ℤ) then upd (ix1 e) else 0 := by
  obtain ⟨uw, iw, sd, iv, wf⟩ := d
  simp only at hu hi hs hv
  subst hu hi hs hv
  show Ideal.hostScatterAdd _ x idx upd (ix1 n) = _
  unfold Ideal.hostScatterAdd
  congr 1
  have hsum : ∀ g : (S1 E).Idx → EReal, ∑ j, g j = ∑ e : Fin E, g (ix1 e) := by
    intro g
    refine (Fintype.sum_equiv ⟨fun e : Fin E => (ix1 e : (S1 E).Idx), fun j => j 0, fun _ => rfl, fun j => (eq_ix1 j).symm⟩ _ _ fun _ => rfl).symm
  rw [Finset.sum_filter, hsum]
  refine Finset.sum_congr rfl fun e _ => ?_
  have hs0 : ScatterDims.start (s := S1 N) (si := S2 E 1) (u := S1 E) ⟨[], [0], [0], 1, wf⟩ (ix1 e) idx 0
      = (idx (ix2 e 0)).toInt := by
    unfold ScatterDims.start
    rw [dif_pos (List.mem_singleton.mpr rfl)]
    have hsi : ∀ c, ScatterDims.siIdx (s := S1 N) (si := S2 E 1) (u := S1 E) ⟨[], [0], [0], 1, wf⟩ (ix1 e) c = ix2 e 0 := by
      intro c
      funext b; refine Fin.ext ?_
      match b with
      | ⟨0, _⟩ => rfl
      | ⟨1, _⟩ =>
        have hc1 : c.val < 1 := c.isLt
        show c.val = 0
        omega
    rw [hsi]
  have hw0 : ScatterDims.window (s := S1 N) (si := S2 E 1) (u := S1 E) ⟨[], [0], [0], 1, wf⟩ (ix1 e) 0 = 0 := by
    unfold ScatterDims.window
    split
    · rename_i ha
      exact absurd ha (show (0 : Fin 1) ∉ (List.finRange 1).filter (fun a : Fin 1 => a ∉ [(0 : Fin 1)]) by decide)
    · rfl
  have key : (ScatterDims.resultIdx? (s := S1 N) (si := S2 E 1) (u := S1 E) ⟨[], [0], [0], 1, wf⟩ (ix1 e) idx = some (ix1 n))
      ↔ (idx (ix2 e 0)).toInt = (n.val : ℤ) := by
    rw [resultIdx?_eq_some_iff]
    constructor
    · intro h
      have h0 : (idx (ix2 e 0)).toInt + ((0 : ℕ) : ℤ) = (n.val : ℤ) := by
        have := h 0; rw [hs0, hw0] at this; exact this
      omega
    · intro h0 a
      match a with
      | ⟨0, _⟩ =>
        show ScatterDims.start _ _ idx 0 + ((ScatterDims.window _ _ 0 : ℕ) : ℤ) = (n.val : ℤ)
        rw [hs0, hw0, h0]; simp
  simp only [key]

end Scatter

end Idealize.ShloMosaic.RowScatter

end
-- ==== Proof.KI.IndexFacts.lean ====
/-
  The index arrays and the degree factor of the kernel program, at the ideal instance, read one element at a time.
  The edge list with the self-loops appended gives every edge e a source word and a target word. The row gathers read
  the source wrapped by the node count where negative, then clamped to a node (rowc); the scatters read the target
  word signed, as it is (colz); a gather by target would read it wrapped and clamped (colc). An edge whose target
  word is the node n has colc = n. The degree of n is the number of edges whose target word is n — zero plus a one
  for each —, and the degree factor is its inverse square root where that count is positive, zero elsewhere: a
  nonnegative real at every node.
-/
import proofs.«400187_j27350351741543_3_alg».proof.Proof.KI.KHost
import proofs.«400187_j27350351741543_3_alg».proof.Proof.LibRowScatter
import Idealize.ShloMosaic.Lib.ValueIdx
import Idealize.ShloMosaic.Lib.Pipeline.Value
import Idealize.ShloMosaic.Lib.DynamicIndex
import Idealize.ShloMosaic.Lib.IdealHost
import Idealize.ShloMosaic.PureOps.Ideal.Laws

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Idealize.ShloMosaic.RowScatter
open scoped BigOperators

/-! ## The index words of an edge -/

section IndexFacts
variable (ei : (⟨S2x1000000, .i32⟩ : BufTy).Contents (Elt Ideal))

/-- An edge's source node as the row gathers read it: the wrapped source word, read signed, clamped to a node. -/
def rowc (e : Fin 1100000) : Fin 100000 :=
  ⟨min ((normT (rowsT (F := Ideal) ei)) (ix2 e 0)).toInt.toNat (100000 - 1), by omega⟩

/-- An edge's target node as a gather reads it: the wrapped target word, read signed, clamped to a node. -/
def colc (e : Fin 1100000) : Fin 100000 :=
  ⟨min ((normT (colsT (F := Ideal) ei)) (ix2 e 0)).toInt.toNat (100000 - 1), by omega⟩

/-- An edge's target as the scatters read it: the target word read signed, not wrapped and not clamped. -/
def colz (e : Fin 1100000) : ℤ := ((colsT (F := Ideal) ei) (ix1 e)).toInt

/-- A vector of one word per edge, broadcast to one column, read at row e: the vector's e-th word. -/
theorem bcol_apply (v : IVec S1100000 32) (e : Fin 1100000) :
    (broadcastInDim S1100000x1 ![0] bcast_S1100000_S1100000x1_0 v) (ix2 e 0) = v (ix1 e) := by
  refine broadcastInDim_apply _ _ v (ix2 e 0) (ix1 e) fun a => ?_
  match a with
  | ⟨0, _⟩ =>
    exact (if_neg (show ¬ ((1100000 : ℕ) = 1) by decide)).symm

/-- The targets as one column, read at row e: edge e's target word. -/
theorem colB_apply (e : Fin 1100000) :
    (broadcastInDim S1100000x1 ![0] bcast_S1100000_S1100000x1_0 (colsT (F := Ideal) ei)) (ix2 e 0)
      = colsT (F := Ideal) ei (ix1 e) :=
  bcol_apply _ e

/-- Where a word of the vector is not negative, read signed, the wrapped column has that word. -/
theorem normT_apply_of_nonneg (r : IVec S1100000 32) (e : Fin 1100000) (h : 0 ≤ (r (ix1 e)).toInt) :
    normT r (ix2 e 0) = r (ix1 e) := by
  unfold normT
  rw [bcol_apply]
  exact select_slt_zero_of_nonneg r _ _ (ix1 e) h

/-- An edge whose target word, read signed, is the node n has n as the target a gather reads. -/
theorem hcol (e : Fin 1100000) (n : Fin 100000) : colz ei e = (n.val : ℤ) → colc ei e = n := by
  intro h
  have h' : ((colsT (F := Ideal) ei) (ix1 e)).toInt = (n.val : ℤ) := h
  refine Fin.ext ?_
  show min ((normT (colsT (F := Ideal) ei)) (ix2 e 0)).toInt.toNat (100000 - 1) = n.val
  rw [normT_apply_of_nonneg _ e (by rw [h']; exact Int.natCast_nonneg _), h', Int.toNat_natCast]
  have := n.isLt
  omega

end IndexFacts

/-! ## The degree and the degree factor of a node -/

section Degree
variable (ei : (⟨S2x1000000, .i32⟩ : BufTy).Contents (Elt Ideal))

/-- The inverse square root of a count, taken where the count is positive and replaced by zero where it is zero, is
    a nonnegative real. -/
theorem rsqrt_count_real (k : ℕ) : ∃ r : ℝ, 0 ≤ r ∧
    (if (0 : EReal) < ((k : ℝ) : EReal) then Ideal.rsqrt ((k : ℝ) : EReal) else 0) = (r : EReal) := by
  by_cases h : (0 : EReal) < ((k : ℝ) : EReal)
  · rw [if_pos h]
    have hk : (0 : ℝ) < (k : ℝ) := by exact_mod_cast h
    refine ⟨(Real.sqrt (k : ℝ))⁻¹, inv_nonneg.mpr (Real.sqrt_nonneg _), ?_⟩
    rw [Ideal.rsqrt_coe, if_neg (not_lt.mpr hk.le), if_neg hk.ne']
  · rw [if_neg h]; exact ⟨0, le_refl _, rfl⟩

/-- THE DEGREE of node n is the number of edges (self-loops included) whose target word, read signed, is n:
    zero plus a one for each of them. -/
theorem degT_apply (n : Fin 100000) :
    degT (F := Ideal) ei (ix1 n)
      = (((Finset.univ.filter fun e : Fin 1100000 => colz ei e = (n.val : ℤ)).card : ℝ) : EReal) := by
  unfold degT
  rw [scatterAdd_elems_apply scatter_S100000_S1100000x1_S1100000_n_0_0_1 rfl rfl rfl rfl]
  have h0 : (broadcastInDim S100000 ![] bcast_S_S100000 (constant (F := Ideal) S_ .f32 0x00000000#32)) (ix1 n)
      = (0 : EReal) := Ideal.ofBits_zero_f32
  have hterm : ∀ e : Fin 1100000,
      (if ((broadcastInDim S1100000x1 ![0] bcast_S1100000_S1100000x1_0 (colsT (F := Ideal) ei)) (ix2 e 0)).toInt = (n.val : ℤ)
        then (broadcastInDim S1100000 ![] bcast_S_S1100000 (constant (F := Ideal) S_ .f32 0x3F800000#32)) (ix1 e)
        else (0 : EReal))
      = if colz ei e = (n.val : ℤ) then (1 : EReal) else 0 := fun e => by
    have h1 : (broadcastInDim S1100000 ![] bcast_S_S1100000 (constant (F := Ideal) S_ .f32 0x3F800000#32)) (ix1 e)
        = (1 : EReal) := Ideal.ofBits_one_f32
    rw [colB_apply, h1]
    rfl
  rw [h0, zero_add, Finset.sum_congr rfl (fun e _ => hterm e), Finset.sum_ite, Finset.sum_const_zero, add_zero,
    Finset.sum_const, nsmul_one, EReal.coe_natCast]

/-- The degree factor of node n: the inverse square root of the degree where the degree is positive, zero elsewhere. -/
theorem dinvT_apply (n : Fin 100000) :
    dinvT (F := Ideal) ei (ix1 n)
      = if (0 : EReal) < degT (F := Ideal) ei (ix1 n) then Ideal.rsqrt (degT (F := Ideal) ei (ix1 n)) else 0 := by
  unfold dinvT
  rw [select_apply, cmpf_apply]
  have hz : (broadcastInDim S100000 ![] bcast_S_S100000 (constant (F := Ideal) S_ .f32 0x00000000#32)) (ix1 n)
      = (0 : EReal) := Ideal.ofBits_zero_f32
  have hz' : (broadcastInDim S100000 ![] bcast_S_S100000 (id (constant (F := Ideal) S_ .f32 0x00000000#32))) (ix1 n)
      = (0 : EReal) := Ideal.ofBits_zero_f32
  have hq : ∀ (v : FVec Ideal S100000 .f32) (i : S100000.Idx), Host.rsqrt (F := Ideal) v i = Ideal.rsqrt (v i) :=
    fun _ _ => rfl
  rw [hz, hz', hq, Ideal.cmpf_def]
  generalize degT (F := Ideal) ei (ix1 n) = x
  by_cases h : (0 : EReal) < x
  · rw [if_pos h]
    have hc : Ideal.cmp .ogt x 0 = 1#1 := by
      simp only [Ideal.cmp, h, decide_true]; rfl
    rw [hc]
    exact select_one _ _
  · rw [if_neg h]
    have hc : Ideal.cmp .ogt x 0 = 0#1 := by
      simp only [Ideal.cmp, h, decide_false]; rfl
    rw [hc]
    exact select_zero _ _

/-- THE DEGREE FACTOR of every node is a nonnegative real: the inverse square root of a positive count, or zero. -/
theorem dinv_nonneg (n : Fin 100000) : ∃ r : ℝ, 0 ≤ r ∧ (dinvT (F := Ideal) ei) (ix1 n) = (r : EReal) := by
  obtain ⟨k, hk⟩ : ∃ k : ℕ, degT (F := Ideal) ei (ix1 n) = ((k : ℝ) : EReal) := ⟨_, degT_apply ei n⟩
  obtain ⟨r, hr, hrk⟩ := rsqrt_count_real k
  exact ⟨r, hr, by rw [dinvT_apply, hk, hrk]⟩

end Degree

end Cert.KernelIdeal.Gen

end
-- ==== Proof.GcnCore.lean ====
/-
  The algebra of the graph convolution, free of any program. A layer aggregates, at each node n, the transformed features
  of the sources of the edges that end at n, each weighted by the product of the inverse square-root degrees of its two
  ends. Weighting every message before the sum, or scaling the sources' features before the gather and the sum after the
  scatter, give the same node feature, because the weight of the target end is the same nonnegative real for every
  edge that ends at n, and a nonnegative real factor goes through a finite sum of extended reals. And pooling nodes into
  graphs by a sum over blocks of padded rows whose pad terms vanish is the sum over the nodes.
-/
import Mathlib.Data.EReal.Operations
import Mathlib.Algebra.BigOperators.Fin
import proofs.«400187_j27350351741543_3_alg».proof.Proof.LibRowScatter

noncomputable section

open scoped BigOperators

namespace Cert.GcnCore

open Idealize.ShloMosaic.RowScatter

variable {N E C : ℕ}

/-- ONE LAYER, the two arrangements. `dv` the inverse square-root degrees (nonnegative reals), `colz e` the target of edge
    `e` as the integer the scatter reads, `rowc e` / `colc e` its source and target as the gathers read them (when
    the target is a node, `colc e` is that node), `y` the transformed features, `b` the bias. Scaling the gathered
    sources by their own degree factor, summing, then scaling by the target's, is summing the sources weighted by both. -/
theorem layer_eq (dv : Fin N → EReal) (hdv : ∀ n, ∃ r : ℝ, 0 ≤ r ∧ dv n = (r : EReal))
    (rowc colc : Fin E → Fin N) (colz : Fin E → ℤ) (hcol : ∀ (e : Fin E) (n : Fin N), colz e = (n.val : ℤ) → colc e = n)
    (y : Fin N → Fin C → EReal) (b : Fin C → EReal) (n : Fin N) (k : Fin C) :
    max (dv n * (0 + ∑ e : Fin E, if colz e = (n.val : ℤ) then y (rowc e) k * dv (rowc e) else 0) + b k) 0
      = max ((0 + ∑ e : Fin E, if colz e = (n.val : ℤ) then y (rowc e) k * (dv (rowc e) * dv (colc e)) else 0) + b k) 0 := by
  obtain ⟨r, hr, hrn⟩ := hdv n
  rw [scale_through_sum (dv n) r hr hrn (fun e => colz e = (n.val : ℤ)) (fun e => y (rowc e) k * dv (rowc e))
    (fun e => y (rowc e) k * (dv (rowc e) * dv (colc e))) (fun e he => by
      rw [hcol e n he, mul_comm (dv n), mul_assoc])]

/-- POOLING OVER PADDED BLOCKS. A sum over 2 cores of 49 blocks of 1024 padded rows, whose terms vanish on the 352 pad
    rows, is the sum over the 100000 nodes. -/
theorem pool_blocks (T : ℕ → EReal) (hpad : ∀ j : ℕ, 100000 ≤ j → T j = 0) :
    ∑ cc : Fin 2, ∑ s : Fin 49, ∑ n : Fin 1024, T ((49 * cc.val + s.val) * 1024 + n.val) = ∑ n : Fin 100000, T n.val := by
  rw [sum_blocks 2 49 1024 T, show 2 * 49 * 1024 = 100000 + 352 from rfl, sum_split 100000 352 T]
  rw [Finset.sum_eq_zero (s := Finset.univ) (f := fun j : Fin 352 => T (100000 + j.val)) (fun j _ => hpad _ (Nat.le_add_right _ _)),
    add_zero]

/-- A one-hot factor times a term is the term where the factor is one and zero elsewhere. -/
theorem onehot_mul (p : Prop) [Decidable p] (x : EReal) : (if p then (1 : EReal) else 0) * x = if p then x else 0 := by
  by_cases h : p
  · rw [if_pos h, if_pos h, one_mul]
  · rw [if_neg h, if_neg h, zero_mul]

/-- The inverse square-root of a count: the count inverted under the root where it is positive, zero where it is zero — a
    nonnegative real either way. -/
theorem rsqrt_count (k : ℕ) : ∃ r : ℝ, 0 ≤ r ∧
    (if (0 : EReal) < ((k : ℝ) : EReal) then Idealize.ShloMosaic.Ideal.rsqrt ((k : ℝ) : EReal) else 0) = (r : EReal) := by
  by_cases h : (0 : EReal) < ((k : ℝ) : EReal)
  · rw [if_pos h]
    have hk : (0 : ℝ) < (k : ℝ) := by exact_mod_cast h
    refine ⟨(Real.sqrt (k : ℝ))⁻¹, inv_nonneg.mpr (Real.sqrt_nonneg _), ?_⟩
    rw [Idealize.ShloMosaic.Ideal.rsqrt_coe, if_neg (not_lt.mpr hk.le), if_neg hk.ne']
  · rw [if_neg h]; exact ⟨0, le_refl _, rfl⟩

end Cert.GcnCore

end
-- ==== Proof.KI.Forms.lean ====
/-
  The two arrangements of one graph-convolution layer as functions of the node and the feature, over the edge list's
  index functions: the kernel program scales the gathered sources by their own inverse square-root degree, sums, and
  scales the sum by the target's; the reference weights every message by the product of both before the sum. They are
  the same function: the target's factor is one nonnegative real for all the edges that end at a node.
-/
import proofs.«400187_j27350351741543_3_alg».proof.Proof.KI.IndexFacts
import proofs.«400187_j27350351741543_3_alg».proof.Proof.GcnCore

noncomputable section

namespace Cert.KernelIdeal.Gen

open Idealize.ShloMosaic Idealize.ShloMosaic.TcCoe Idealize.ShloMosaic.ValueIdx

variable (ei : (⟨S2x1000000, .i32⟩ : BufTy).Contents (Elt Ideal))

/-- A node's inverse square-root degree. -/
def dvF (n : Fin 100000) : EReal := dinvT (F := Ideal) ei (ix1 n)

/-- One layer as the kernel program arranges it, from the features `h` of the layer below. -/
def kLayer (h : Fin 100000 → Fin 64 → EReal) (W : S64x64.Idx → EReal) (b : S64.Idx → EReal) (n : Fin 100000) (f : Fin 64) : EReal :=
  max (dvF ei n * (0 + ∑ e : Fin 1100000, if colz ei e = (n.val : ℤ)
      then (∑ k : Fin 64, h (rowc ei e) k * W (ix2 k f)) * dvF ei (rowc ei e) else 0) + b (ix1 f)) 0

/-- One layer as the reference arranges it. -/
def rLayer (h : Fin 100000 → Fin 64 → EReal) (W : S64x64.Idx → EReal) (b : S64.Idx → EReal) (n : Fin 100000) (f : Fin 64) : EReal :=
  max ((0 + ∑ e : Fin 1100000, if colz ei e = (n.val : ℤ)
      then (∑ k : Fin 64, h (rowc ei e) k * W (ix2 k f)) * (dvF ei (rowc ei e) * dvF ei (colc ei e)) else 0) + b (ix1 f)) 0

/-- The two arrangements agree. -/
theorem kLayer_eq_rLayer (h : Fin 100000 → Fin 64 → EReal) (W : S64x64.Idx → EReal) (b : S64.Idx → EReal) :
    kLayer ei h W b = rLayer ei h W b := by
  funext n f
  exact Cert.GcnCore.layer_eq (dvF ei) (fun n => dinv_nonneg ei n) (rowc ei) (colc ei) (colz ei) (fun e n he => hcol ei e n he)
    (fun r k => ∑ k' : Fin 64, h r k' * W (ix2 k' k)) (fun k => b (ix1 k)) n f

end Cert.KernelIdeal.Gen

end
-- ==== Proof.KI.KVals.lean ====
/-
  The kernel program's pooled features read at an index, at the ideal values, assembled from what its three regions
  leave. The first region leaves X·W₁ with each row scaled by the node's degree factor d; a neighbourhood sum gathers
  those rows by source node and scatter-adds them by target node into zero, so at node n it is the sum over the edges
  that end at n; the second region rectifies d n · (that sum) + b₁ and leaves it times W₂, rows scaled by d again; the
  second neighbourhood sum is padded to 100352 rows with the pad rows' graph id the all-ones word; the third region adds,
  per core, the one-hot factor times the rectified d n · (sum) + b₂ over its 49 · 1024 padded rows. The pad rows' addends
  vanish, so the two cores' partial sums added are the sum over the 100000 nodes.
-/
import proofs.«400187_j27350351741543_3_alg».proof.Proof.KI.Run
import proofs.«400187_j27350351741543_3_alg».proof.Proof.KI.KChain
import proofs.«400187_j27350351741543_3_alg».proof.Proof.KI.Val01
import proofs.«400187_j27350351741543_3_alg».proof.Proof.KI.Val2
import proofs.«400187_j27350351741543_3_alg».proof.Proof.KI.Reg2Acc
import proofs.«400187_j27350351741543_3_alg».proof.Proof.KI.PadFacts
import proofs.«400187_j27350351741543_3_alg».proof.Proof.KI.Forms
import Idealize.ShloMosaic.Lib.Pipeline.Value
import Idealize.ShloMosaic.Lib.ValueIdx
import Idealize.ShloMosaic.PureOps.Ideal.Laws

set_option maxRecDepth 16384

noncomputable section

namespace Cert.KernelIdeal.Gen

open Idealize.ShloMosaic Idealize.ShloMosaic.TcCoe Idealize.ShloMosaic.Tactic
open Idealize.SL Idealize.SL.Sem
open Idealize.ShloMosaic.Pipeline (Dat Cfg Window)
open Idealize.ShloMosaic.ValueIdx
open scoped BigOperators

/-- the zero block a neighbourhood sum over 100000 rows starts from reads 0 -/
theorem zero100000_apply (i : S100000x64.Idx) :
    (broadcastInDim S100000x64 ![] bcast_S_S100000x64 (constant (F := Ideal) S_ .f32 0x00000000#32)) i = 0 := by
  rw [broadcastInDim_apply ![] bcast_S_S100000x64 _ i ix0 (fun a => a.elim0)]
  exact Ideal.ofBits_zero_f32

/-- the zero block a neighbourhood sum over 100352 rows starts from reads 0 -/
theorem zero100352_apply (i : S100352x64.Idx) :
    (broadcastInDim S100352x64 ![] bcast_S_S100352x64 (constant (F := Ideal) S_ .f32 0x00000000#32)) i = 0 := by
  rw [broadcastInDim_apply ![] bcast_S_S100352x64 _ i ix0 (fun a => a.elim0)]
  exact Ideal.ofBits_zero_f32

/-- A NEIGHBOURHOOD SUM over 100000 rows read at (n, k): the rows of o gathered by source word, scatter-added by target
    word into zero: the sum, over the edges whose target word read signed is n, of o at the edge's source row -/
theorem nbr100000_apply (o : S100000x64.Idx → EReal) (cols : IVec S1100000 32) (src : IVec S1100000x1 32) (n : Fin 100000) (k : Fin 64) :
    (Host.scatterAdd (F := Ideal) (φ := .f32) scatter_S100000x64_S1100000x1_S1100000x64_1_0_0_1
        (broadcastInDim S100000x64 ![] bcast_S_S100000x64 (constant (F := Ideal) S_ .f32 0x00000000#32))
        (broadcastInDim S1100000x1 ![0] bcast_S1100000_S1100000x1_0 cols)
        (Host.gather gather_S100000x64_S1100000x1_S1100000x64_1_0_n_n_0_1_164 o src)) (ix2 n k)
      = 0 + ∑ e : Fin 1100000, if (cols (ix1 e)).toInt = (n.val : ℤ)
          then o (ix2 (⟨min (src (ix2 e (0 : Fin 1))).toInt.toNat (100000 - 1), by omega⟩ : Fin 100000) k) else 0 := by
  rw [RowScatter.scatterAdd_rows_apply (N := 100000) (E := 1100000) (C := 64) scatter_S100000x64_S1100000x1_S1100000x64_1_0_0_1 rfl rfl rfl rfl,
    zero100000_apply]
  refine congrArg (fun z : EReal => 0 + z) (Finset.sum_congr rfl fun e _ => ?_)
  rw [bcol_apply, RowScatter.gather_rows_apply (N := 100000) (E := 1100000) (C := 64) (by decide)
    gather_S100000x64_S1100000x1_S1100000x64_1_0_n_n_0_1_164 rfl rfl rfl rfl rfl rfl rfl]

/-- the same over 100352 rows, read at a row below 100000 -/
theorem nbr100352_apply (o : S100000x64.Idx → EReal) (cols : IVec S1100000 32) (src : IVec S1100000x1 32) (n : Fin 100000) (k : Fin 64) :
    (Host.scatterAdd (F := Ideal) (φ := .f32) scatter_S100352x64_S1100000x1_S1100000x64_1_0_0_1
        (broadcastInDim S100352x64 ![] bcast_S_S100352x64 (constant (F := Ideal) S_ .f32 0x00000000#32))
        (broadcastInDim S1100000x1 ![0] bcast_S1100000_S1100000x1_0 cols)
        (Host.gather gather_S100000x64_S1100000x1_S1100000x64_1_0_n_n_0_1_164 o src)) (ix2 (⟨n.val, by omega⟩ : Fin 100352) k)
      = 0 + ∑ e : Fin 1100000, if (cols (ix1 e)).toInt = (n.val : ℤ)
          then o (ix2 (⟨min (src (ix2 e (0 : Fin 1))).toInt.toNat (100000 - 1), by omega⟩ : Fin 100000) k) else 0 := by
  rw [RowScatter.scatterAdd_rows_apply (N := 100352) (E := 1100000) (C := 64) scatter_S100352x64_S1100000x1_S1100000x64_1_0_0_1 rfl rfl rfl rfl,
    zero100352_apply]
  refine congrArg (fun z : EReal => 0 + z) (Finset.sum_congr rfl fun e _ => ?_)
  rw [bcol_apply, RowScatter.gather_rows_apply (N := 100000) (E := 1100000) (C := 64) (by decide)
    gather_S100000x64_S1100000x1_S1100000x64_1_0_n_n_0_1_164 rfl rfl rfl rfl rfl rfl rfl]

section KVals
variable (m : (ℓ : Loc nD τ sig) → Buf (Elt Ideal) ℓ) (c : Dev nD)

/-- the launch arrays at their literal types: node features, edge list, graph ids, the two layers' weights and biases -/
abbrev xA : S100000x64.Idx → EReal := m ((c : Thread nD τ).loc main_arg0)
abbrev eiA : (⟨S2x1000000, .i32⟩ : BufTy).Contents (Elt Ideal) := m ((c : Thread nD τ).loc main_arg1)
abbrev btA : S100000.Idx → BitVec 32 := m ((c : Thread nD τ).loc main_arg2)
abbrev w1A : S64x64.Idx → EReal := m ((c : Thread nD τ).loc main_arg3)
abbrev b1A : S64.Idx → EReal := m ((c : Thread nD τ).loc main_arg4)
abbrev w2A : S64x64.Idx → EReal := m ((c : Thread nD τ).loc main_arg5)
abbrev b2A : S64.Idx → EReal := m ((c : Thread nD τ).loc main_arg6)

/-- what the first two regions leave in their output arrays, and the two neighbourhood sums, at their literal types -/
abbrev o4A : S100000x64.Idx → EReal := o4 m c
abbrev o6A : S100000x64.Idx → EReal := o6 m c
abbrev v26A : S100000x64.Idx → EReal := E5 m c main_v26
abbrev v38A : S100352x64.Idx → EReal := E11 m c main_v38

/-- THE FIRST REGION's result at (n, f): row n of the features times column f of the first weights, scaled by the
    node's degree factor -/
theorem o4_apply (n : Fin 100000) (f : Fin 64) :
    o4A m c (ix2 n f)
      = (∑ k : Fin 64, xA m c (ix2 n k) * w1A m c (ix2 k f)) * dvF (eiA m c) n := by
  have h0 : feat0 (E3 m) c = xA m c := K3_arg0 m c
  have h3 : wgt0 (E3 m) c = w1A m c := K3_arg3 m c
  have hd : deg (E3 m) c (ix2 n (0 : Fin 1)) = dvF (eiA m c) n :=
    (congrFun (K3_v15 m c) (ix2 n (0 : Fin 1))).trans (col_apply _ n)
  unfold o4A o4
  rw [arr0_apply (E3 m) c n f, h0, h3, hd]

/-- the first neighbourhood sum at (n, k): over the edges that end at n, the first region's result at the edge's source -/
theorem v26_apply (n : Fin 100000) (k : Fin 64) :
    v26A m c (ix2 n k)
      = 0 + ∑ e : Fin 1100000, if colz (eiA m c) e = (n.val : ℤ)
          then o4A m c (ix2 (rowc (eiA m c) e) k) else 0 :=
  (congrFun (K5_v26 m c) (ix2 n k)).trans
    (nbr100000_apply (o4 m c) (colsT (F := Ideal) (eiA m c)) (normT (rowsT (F := Ideal) (eiA m c))) n k)

/-- THE SECOND REGION's result at (n, f): the first layer's rectified features of node n times column f of the second
    weights, scaled by the node's degree factor -/
theorem o6_apply (n : Fin 100000) (f : Fin 64) :
    o6A m c (ix2 n f)
      = (∑ k : Fin 64, kLayer (eiA m c) (fun r k' => xA m c (ix2 r k')) (w1A m c) (b1A m c) n k * w2A m c (ix2 k f))
          * dvF (eiA m c) n := by
  have hd : deg (E5 m) c (ix2 n (0 : Fin 1)) = dvF (eiA m c) n :=
    (congrFun (K5_v15 m c) (ix2 n (0 : Fin 1))).trans (col_apply _ n)
  have hb : ∀ k : Fin 64, bias1 (E5 m) c (ix2 (0 : Fin 1) k) = b1A m c (ix1 k) := fun k =>
    (congrFun (K5_v27 m c) (ix2 (0 : Fin 1) k)).trans (row_apply _ k)
  have hw : wgt1 (E5 m) c = w2A m c := K5_arg5 m c
  have ha : ∀ k : Fin 64, agg1 (E5 m) c (ix2 n k)
      = 0 + ∑ e : Fin 1100000, if colz (eiA m c) e = (n.val : ℤ)
          then (∑ k' : Fin 64, xA m c (ix2 (rowc (eiA m c) e) k') * w1A m c (ix2 k' k)) * dvF (eiA m c) (rowc (eiA m c) e)
          else 0 := fun k => by
    refine (v26_apply m c n k).trans (congrArg (fun z : EReal => 0 + z) (Finset.sum_congr rfl fun e _ => ?_))
    rw [o4_apply]
  unfold o6A o6
  rw [arr1_apply (E5 m) c n f, hd, hw]
  refine congrArg (fun z : EReal => z * dvF (eiA m c) n) (Finset.sum_congr rfl fun k _ => ?_)
  rw [ha k, hb k]
  rfl

/-- the second neighbourhood sum at (n, f), n a node: over the edges that end at n, the second region's result at the
    edge's source -/
theorem v38_apply (n : Fin 100000) (f : Fin 64) :
    v38A m c (ix2 (⟨n.val, by omega⟩ : Fin 100352) f)
      = 0 + ∑ e : Fin 1100000, if colz (eiA m c) e = (n.val : ℤ)
          then o6A m c (ix2 (rowc (eiA m c) e) f) else 0 :=
  (congrFun (K11_v38 m c) _).trans
    (nbr100352_apply (o6 m c) (colsT (F := Ideal) (eiA m c)) (normT (rowsT (F := Ideal) (eiA m c))) n f)

/-- the pooling addend of a node row: the one-hot factor of the node's graph id times the second layer's rectified
    feature of the node -/
theorem poolTerm_lt (g : Fin 1024) (f : Fin 64) (n : Fin 100000) :
    poolTerm (E11 m) c g f n.val
      = (if BitVec.ofNat 32 g.val = btA m c (ix1 n) then (1 : EReal) else 0)
          * kLayer (eiA m c) (kLayer (eiA m c) (fun r k => xA m c (ix2 r k)) (w1A m c) (b1A m c)) (w2A m c) (b2A m c) n f := by
  have h : n.val < 100352 := by omega
  have hi : (E11 m c main_v42 : S1x100352.Idx → BitVec 32) (ix2 (0 : Fin 1) (⟨n.val, h⟩ : Fin 100352)) = btA m c (ix1 n) :=
    (congrFun (K11_v42 m c) _).trans (padids_apply_lt _ _ n)
  have hd : (E11 m c main_v39 : S100352x1.Idx → EReal) (ix2 (⟨n.val, h⟩ : Fin 100352) (0 : Fin 1)) = dvF (eiA m c) n :=
    (congrFun (K11_v39 m c) _).trans (padcol_apply _ _ n)
  have hb : (E11 m c main_v41 : S1x64.Idx → EReal) (ix2 (0 : Fin 1) f) = b2A m c (ix1 f) :=
    (congrFun (K11_v41 m c) _).trans (row_apply _ f)
  have ha : (E11 m c main_v38 : S100352x64.Idx → EReal) (ix2 (⟨n.val, h⟩ : Fin 100352) f)
      = 0 + ∑ e : Fin 1100000, if colz (eiA m c) e = (n.val : ℤ)
          then (∑ k : Fin 64, kLayer (eiA m c) (fun r k' => xA m c (ix2 r k')) (w1A m c) (b1A m c) (rowc (eiA m c) e) k
              * w2A m c (ix2 k f)) * dvF (eiA m c) (rowc (eiA m c) e)
          else 0 := by
    refine (v38_apply m c n f).trans (congrArg (fun z : EReal => 0 + z) (Finset.sum_congr rfl fun e _ => ?_))
    rw [o6_apply]
  unfold poolTerm poolTermOf
  rw [dif_pos h, hi, hd, ha, hb]
  rfl

/-- the pooling addend of a pad row is zero: its graph id is the all-ones word, which no graph number is -/
theorem poolTerm_ge (g : Fin 1024) (f : Fin 64) (j : ℕ) (hj : 100000 ≤ j) : poolTerm (E11 m) c g f j = 0 := by
  unfold poolTerm poolTermOf
  by_cases h : j < 100352
  · have hi : (E11 m c main_v42 : S1x100352.Idx → BitVec 32) (ix2 (0 : Fin 1) (⟨j, h⟩ : Fin 100352)) = 4294967295#32 :=
      (congrFun (K11_v42 m c) _).trans (padids_apply_ge _ _ ⟨j, h⟩ hj)
    rw [dif_pos h, hi, if_neg (ofNat_ne_allOnes g), zero_mul]
  · rw [dif_neg h]

/-- THE POOLED FEATURES of the kernel program at (g, f): the two cores' partial sums added are the sum, over the nodes
    whose graph id is g, of the second layer's rectified feature f -/
theorem kpool_apply (g : Fin 1024) (f : Fin 64) :
    (addf (F := Ideal) (φ := .f32)
        (shapeCast S1024x64 (extractStridedSlice S1x1024x64 ![0, 0, 0] (o12 m c) slices_S2x1024x64_S1x1024x64_0_0_0)
          shapeCasts_S1x1024x64_S1024x64)
        (shapeCast S1024x64 (extractStridedSlice S1x1024x64 ![1, 0, 0] (o12 m c) slices_S2x1024x64_S1x1024x64_1_0_0)
          shapeCasts_S1x1024x64_S1024x64)) (ix2 g f)
      = ∑ n : Fin 100000, (if BitVec.ofNat 32 g.val = btA m c (ix1 n) then (1 : EReal) else 0)
          * kLayer (eiA m c) (kLayer (eiA m c) (fun r k => xA m c (ix2 r k)) (w1A m c) (b1A m c)) (w2A m c) (b2A m c) n f := by
  have h12 : ∀ cc : Fin 2, (o12 m c : S2x1024x64.Idx → EReal) (ix3 cc g f)
      = ∑ s : Fin 49, ∑ n : Fin 1024, poolTerm (E11 m) c g f ((49 * cc.val + s.val) * 1024 + n.val) := fun cc => by
    unfold o12
    exact arr2_apply (E11 m) c (dat2 (E11 m) c) (fun t ht => after2_4_flush (E11 m) c t ht) cc g f
  have hsum := Cert.GcnCore.pool_blocks (fun j => poolTerm (E11 m) c g f j) (fun j hj => poolTerm_ge m c g f j hj)
  rw [Fin.sum_univ_two] at hsum
  rw [pooled_apply, h12 0, h12 1]
  exact hsum.trans (Finset.sum_congr rfl fun n _ => poolTerm_lt m c g f n)

end KVals

end Cert.KernelIdeal.Gen

end
-- ==== Proof.KI.RefLayer.lean ====
/-
  The reference program's value as named terms, and one layer of it read at an index.

  The reference computes, for every edge (self-loops appended), a weight: the product of the inverse square-root
  degrees of its two ends. One layer multiplies the node features by a weight matrix, gathers the product's rows by
  each edge's source node, scales each gathered row by the edge's weight, scatter-adds the rows by each edge's target
  node, adds the bias and replaces negative entries by zero. Two layers are followed by a scatter-add of the node rows
  by graph id, a projection by the output weights and the output bias.

  Read at an index, at the ideal instance (floats are extended reals): entry (n, f) of a layer is the sum, over the
  edges whose target word read signed is n, of (row of the source node times column f of the weights) times the
  edge's weight, plus the bias at f, cut below at zero; entry (g, f) of the pooled features is the sum, over the nodes
  whose graph id is g, of the second layer's entry (n, f).
-/
import proofs.«400187_j27350351741543_3_alg».proof.Proof.KI.KHost
import proofs.«400187_j27350351741543_3_alg».proof.Proof.KI.IndexFacts
import proofs.«400187_j27350351741543_3_alg».proof.Proof.RefRunP
import proofs.«400187_j27350351741543_3_alg».proof.Proof.LibRowScatter
import Idealize.ShloMosaic.Lib.Pipeline.Value
import Idealize.ShloMosaic.Lib.ValueIdx
import Idealize.ShloMosaic.PureOps.Ideal.Laws

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Idealize.ShloMosaic.RowScatter
open scoped BigOperators

/-! ## The reference's layer as named terms -/

section Terms
variable {F : FTy → Type} [FloatOps F]

/-- Each edge's weight: the product of its two ends' inverse square-root degrees. -/
def nrmT (ei : (⟨S2x1000000, .i32⟩ : BufTy).Contents (Elt F)) : FVec F S1100000 .f32 :=
  mulf (Host.gather ReferenceIdeal.gather_S100000_S1100000x1_S1100000_n_0_n_n_0_1_1 (dinvT (F := F) ei) (normT (rowsT (F := F) ei)))
    (Host.gather ReferenceIdeal.gather_S100000_S1100000x1_S1100000_n_0_n_n_0_1_1 (dinvT (F := F) ei) (normT (colsT (F := F) ei)))

/-- One layer of the reference: the features times the weights, gathered by source node, scaled by the edge weight,
    scatter-added by target node; the bias added; negative entries replaced by zero. -/
def refLayerT (h : FVec F S100000x64 .f32) (W : FVec F S64x64 .f32) (b : FVec F S64 .f32)
    (ei : (⟨S2x1000000, .i32⟩ : BufTy).Contents (Elt F)) : FVec F S100000x64 .f32 :=
  maximumf
    (addf
      (Host.scatterAdd scatter_S100000x64_S1100000x1_S1100000x64_1_0_0_1
        (broadcastInDim S100000x64 ![] bcast_S_S100000x64 (constant (F := F) S_ .f32 0x00000000#32))
        (broadcastInDim S1100000x1 ![0] bcast_S1100000_S1100000x1_0 (colsT (F := F) ei))
        (mulf
          (Host.gather gather_S100000x64_S1100000x1_S1100000x64_1_0_n_n_0_1_164
            (Host.dotGeneral ReferenceIdeal.dot_S100000x64_S64x64_S100000x64_1_0_0_1_n_n none h W)
            (normT (rowsT (F := F) ei)))
          (broadcastInDim S1100000x64 ![0, 1] ReferenceIdeal.Gen.bcast_S1100000x1_S1100000x64_0_1
            (broadcastInDim S1100000x1 ![0] bcast_S1100000_S1100000x1_0 (nrmT (F := F) ei)))))
      (broadcastInDim S100000x64 ![0, 1] ReferenceIdeal.Gen.bcast_S1x64_S100000x64_0_1
        (broadcastInDim S1x64 ![1] ReferenceIdeal.Gen.bcast_S64_S1x64_1 b)))
    (broadcastInDim S100000x64 ![] bcast_S_S100000x64 (constant (F := F) S_ .f32 0x00000000#32))

/-- The pooled features: the second layer's rows scatter-added by graph id. -/
def refPoolT (x : FVec F S100000x64 .f32) (ei : (⟨S2x1000000, .i32⟩ : BufTy).Contents (Elt F)) (bt : IVec S100000 32)
    (W1 : FVec F S64x64 .f32) (b1 : FVec F S64 .f32) (W2 : FVec F S64x64 .f32) (b2 : FVec F S64 .f32) : FVec F S1024x64 .f32 :=
  Host.scatterAdd ReferenceIdeal.scatter_S1024x64_S100000x1_S100000x64_1_0_0_1
    (broadcastInDim S1024x64 ![] ReferenceIdeal.Gen.bcast_S_S1024x64 (constant (F := F) S_ .f32 0x00000000#32))
    (broadcastInDim S100000x1 ![0] ReferenceIdeal.Gen.bcast_S100000_S100000x1_0 bt)
    (refLayerT (refLayerT x W1 b1 ei) W2 b2 ei)

end Terms

/-! ## The pieces of a layer read at an index, at the ideal instance -/

/-- The zero the scatter-adds start from and the rectifier compares with. -/
theorem zeroNF_apply (n : Fin 100000) (f : Fin 64) :
    (broadcastInDim S100000x64 ![] bcast_S_S100000x64 (constant (F := Ideal) S_ .f32 0x00000000#32)) (ix2 n f) = (0 : EReal) :=
  Ideal.ofBits_zero_f32

/-- The bias as a row, repeated over the nodes, read at (n, f): the bias at f. -/
theorem biasNF_apply (b : S64.Idx → EReal) (n : Fin 100000) (f : Fin 64) :
    (broadcastInDim S100000x64 ![0, 1] ReferenceIdeal.Gen.bcast_S1x64_S100000x64_0_1
      (broadcastInDim S1x64 ![1] ReferenceIdeal.Gen.bcast_S64_S1x64_1 b)) (ix2 n f) = b (ix1 f) := by
  refine (broadcastInDim_apply _ _ _ (ix2 n f) (ix2 (0 : Fin 1) f) fun a => ?_).trans
    (broadcastInDim_apply _ _ b (ix2 (0 : Fin 1) f) (ix1 f) fun a => ?_)
  · match a with
    | ⟨0, _⟩ => rfl
    | ⟨1, _⟩ => rfl
  · match a with
    | ⟨0, _⟩ => rfl

/-- A weight per edge, as a column repeated over the features, read at (e, f): the weight of edge e. -/
theorem wEF_apply (v : S1100000.Idx → EReal) (e : Fin 1100000) (f : Fin 64) :
    (broadcastInDim S1100000x64 ![0, 1] ReferenceIdeal.Gen.bcast_S1100000x1_S1100000x64_0_1
      (broadcastInDim S1100000x1 ![0] bcast_S1100000_S1100000x1_0 v)) (ix2 e f) = v (ix1 e) := by
  refine (broadcastInDim_apply _ _ _ (ix2 e f) (ix2 e (0 : Fin 1)) fun a => ?_).trans
    (broadcastInDim_apply _ _ v (ix2 e (0 : Fin 1)) (ix1 e) fun a => ?_)
  · match a with
    | ⟨0, _⟩ => rfl
    | ⟨1, _⟩ => rfl
  · match a with
    | ⟨0, _⟩ => rfl

/-- The gather of feature rows by an index column, read at (e, f). -/
theorem gatherNF_apply (x : S100000x64.Idx → EReal) (idx : IVec S1100000x1 32) (e : Fin 1100000) (f : Fin 64) :
    Host.gather gather_S100000x64_S1100000x1_S1100000x64_1_0_n_n_0_1_164 x idx (ix2 e f)
      = x (ix2 (⟨min (idx (ix2 e 0)).toInt.toNat (100000 - 1), by omega⟩ : Fin 100000) f) :=
  gather_rows_apply (by decide) gather_S100000x64_S1100000x1_S1100000x64_1_0_n_n_0_1_164 rfl rfl rfl rfl rfl rfl rfl x idx e f

/-- The gather of per-node values by an index column, read at e. -/
theorem gatherN_apply (x : S100000.Idx → EReal) (idx : IVec S1100000x1 32) (e : Fin 1100000) :
    Host.gather ReferenceIdeal.gather_S100000_S1100000x1_S1100000_n_0_n_n_0_1_1 x idx (ix1 e)
      = x (ix1 (⟨min (idx (ix2 e 0)).toInt.toNat (100000 - 1), by omega⟩ : Fin 100000)) :=
  gather_elems_apply (by decide) ReferenceIdeal.gather_S100000_S1100000x1_S1100000_n_0_n_n_0_1_1 rfl rfl rfl rfl rfl rfl rfl x idx e

/-- The scatter-add of edge rows into node rows, read at (n, f). -/
theorem scatterNF_apply (x : S100000x64.Idx → EReal) (idx : IVec S1100000x1 32) (upd : S1100000x64.Idx → EReal)
    (n : Fin 100000) (f : Fin 64) :
    Host.scatterAdd (F := Ideal) (φ := .f32) scatter_S100000x64_S1100000x1_S1100000x64_1_0_0_1 x idx upd (ix2 n f)
      = x (ix2 n f) + ∑ e : Fin 1100000, if (idx (ix2 e 0)).toInt = (n.val : ℤ) then upd (ix2 e f) else 0 :=
  scatterAdd_rows_apply scatter_S100000x64_S1100000x1_S1100000x64_1_0_0_1 rfl rfl rfl rfl x idx upd n f

/-- The operand indices of the product [100000, 64] x [64, 64]: the left operand is read at (row, k), -/
theorem lhs_ref_0 (i : S100000x64.Idx) (q : ReferenceIdeal.dot_S100000x64_S64x64_S100000x64_1_0_0_1_n_n.contr.Idx) :
    (ReferenceIdeal.dot_S100000x64_S64x64_S100000x64_1_0_0_1_n_n.lhsIdx i q 0).val = (i 0).val := by
  unfold DotDims.lhsIdx
  rw [dif_neg (show ¬(0 : Fin S100000x64.rank) ∈ ReferenceIdeal.dot_S100000x64_S64x64_S100000x64_1_0_0_1_n_n.lhsBatch by decide), dif_pos (show (0 : Fin S100000x64.rank) ∈ ReferenceIdeal.dot_S100000x64_S64x64_S100000x64_1_0_0_1_n_n.lhsNonContracting by decide)]
  rfl
theorem lhs_ref_1 (i : S100000x64.Idx) (q : ReferenceIdeal.dot_S100000x64_S64x64_S100000x64_1_0_0_1_n_n.contr.Idx) :
    (ReferenceIdeal.dot_S100000x64_S64x64_S100000x64_1_0_0_1_n_n.lhsIdx i q 1).val = (q ⟨0, by decide⟩).val :=
  ReferenceIdeal.dot_S100000x64_S64x64_S100000x64_1_0_0_1_n_n.lhsIdx_val_of_single rfl i q
/-- the right operand at (k, column). -/
theorem rhs_ref_0 (i : S100000x64.Idx) (q : ReferenceIdeal.dot_S100000x64_S64x64_S100000x64_1_0_0_1_n_n.contr.Idx) :
    (ReferenceIdeal.dot_S100000x64_S64x64_S100000x64_1_0_0_1_n_n.rhsIdx i q 0).val = (q ⟨0, by decide⟩).val :=
  ReferenceIdeal.dot_S100000x64_S64x64_S100000x64_1_0_0_1_n_n.rhsIdx_val_of_single rfl i q
theorem rhs_ref_1 (i : S100000x64.Idx) (q : ReferenceIdeal.dot_S100000x64_S64x64_S100000x64_1_0_0_1_n_n.contr.Idx) :
    (ReferenceIdeal.dot_S100000x64_S64x64_S100000x64_1_0_0_1_n_n.rhsIdx i q 1).val = (i 1).val := by
  unfold DotDims.rhsIdx
  rw [dif_neg (show ¬(1 : Fin S64x64.rank) ∈ ReferenceIdeal.dot_S100000x64_S64x64_S100000x64_1_0_0_1_n_n.rhsBatch by decide), dif_pos (show (1 : Fin S64x64.rank) ∈ ReferenceIdeal.dot_S100000x64_S64x64_S100000x64_1_0_0_1_n_n.rhsNonContracting by decide)]
  rfl

/-- The features times the weights, read at (r, f): the sum over k of feature (r, k) times weight (k, f). -/
theorem dotNF_apply (h : FVec Ideal S100000x64 .f32) (W : FVec Ideal S64x64 .f32) (r : Fin 100000) (f : Fin 64) :
    Host.dotGeneral (F := Ideal) ReferenceIdeal.dot_S100000x64_S64x64_S100000x64_1_0_0_1_n_n none h W (ix2 r f)
      = ∑ k : Fin 64, h (ix2 r k) * W (ix2 k f) := by
  simp only [Host.dotGeneral]
  rw [Ideal.dotGeneral_apply, ← Equiv.sum_comp (ValueIdx.contrEquiv1 ReferenceIdeal.dot_S100000x64_S64x64_S100000x64_1_0_0_1_n_n 64 rfl rfl).symm]
  refine Finset.sum_congr rfl fun k _ => ?_
  have hk := ValueIdx.contrEquiv1_symm_val ReferenceIdeal.dot_S100000x64_S64x64_S100000x64_1_0_0_1_n_n 64 rfl rfl k
  have el : ReferenceIdeal.dot_S100000x64_S64x64_S100000x64_1_0_0_1_n_n.lhsIdx (ix2 r f) ((ValueIdx.contrEquiv1 ReferenceIdeal.dot_S100000x64_S64x64_S100000x64_1_0_0_1_n_n 64 rfl rfl).symm k) = ix2 r k := funext fun a => Fin.ext (by
    match a with
    | ⟨0, _⟩ => exact lhs_ref_0 _ _
    | ⟨1, _⟩ => exact (lhs_ref_1 _ _).trans hk)
  have er : ReferenceIdeal.dot_S100000x64_S64x64_S100000x64_1_0_0_1_n_n.rhsIdx (ix2 r f) ((ValueIdx.contrEquiv1 ReferenceIdeal.dot_S100000x64_S64x64_S100000x64_1_0_0_1_n_n 64 rfl rfl).symm k) = ix2 k f := funext fun a => Fin.ext (by
    match a with
    | ⟨0, _⟩ => exact (rhs_ref_0 _ _).trans hk
    | ⟨1, _⟩ => exact rhs_ref_1 _ _)
  rw [el, er]

/-! ## One layer read at an index -/

section Layer
variable (ei : (⟨S2x1000000, .i32⟩ : BufTy).Contents (Elt Ideal))

/-- The weight of edge e: the inverse square-root degrees of its source and of its target, multiplied. -/
theorem nrmT_apply (e : Fin 1100000) :
    nrmT (F := Ideal) ei (ix1 e) = dinvT (F := Ideal) ei (ix1 (rowc ei e)) * dinvT (F := Ideal) ei (ix1 (colc ei e)) := by
  unfold nrmT
  rw [mulf_apply, gatherN_apply, gatherN_apply]
  rfl

/-- ONE LAYER AT (n, f): over the edges whose target word is n, the sum of the source row's product with column f of
    the weights, scaled by the edge's weight; plus the bias at f; cut below at zero. -/
theorem refLayer_apply (h : S100000x64.Idx → EReal) (W : S64x64.Idx → EReal) (b : S64.Idx → EReal) (n : Fin 100000) (f : Fin 64) :
    refLayerT (F := Ideal) h W b ei (ix2 n f)
      = max ((0 + ∑ e : Fin 1100000, if colz ei e = (n.val : ℤ)
              then (∑ k : Fin 64, h (ix2 (rowc ei e) k) * W (ix2 k f))
                * (dinvT (F := Ideal) ei (ix1 (rowc ei e)) * dinvT (F := Ideal) ei (ix1 (colc ei e)))
              else 0) + b (ix1 f)) 0 := by
  unfold refLayerT
  rw [maximumf_apply, addf_apply, zeroNF_apply, biasNF_apply, scatterNF_apply, zeroNF_apply]
  refine congrArg (fun s => max ((0 + s) + b (ix1 f)) 0) (Finset.sum_congr rfl fun e _ => ?_)
  rw [colB_apply]
  refine if_congr Iff.rfl ?_ rfl
  rw [mulf_apply, gatherNF_apply, wEF_apply, dotNF_apply, nrmT_apply]
  rfl

end Layer

/-! ## The pooled features read at an index -/

/-- The graph ids as one column, read at row n: node n's graph id. -/
theorem btB_apply (bt : IVec S100000 32) (n : Fin 100000) :
    (broadcastInDim S100000x1 ![0] ReferenceIdeal.Gen.bcast_S100000_S100000x1_0 bt) (ix2 n 0) = bt (ix1 n) := by
  refine broadcastInDim_apply _ _ bt (ix2 n 0) (ix1 n) fun a => ?_
  match a with
  | ⟨0, _⟩ => rfl

/-- THE POOLED FEATURES AT (g, f): the sum, over the nodes whose graph id read signed is g, of the second layer's
    entry (n, f). -/
theorem refPool_apply (x : S100000x64.Idx → EReal) (ei : (⟨S2x1000000, .i32⟩ : BufTy).Contents (Elt Ideal))
    (bt : IVec S100000 32) (W1 : S64x64.Idx → EReal) (b1 : S64.Idx → EReal) (W2 : S64x64.Idx → EReal) (b2 : S64.Idx → EReal)
    (g : Fin 1024) (f : Fin 64) :
    refPoolT (F := Ideal) x ei bt W1 b1 W2 b2 (ix2 g f)
      = 0 + ∑ n : Fin 100000, if (bt (ix1 n)).toInt = (g.val : ℤ)
          then refLayerT (F := Ideal) (refLayerT (F := Ideal) x W1 b1 ei) W2 b2 ei (ix2 n f) else 0 := by
  unfold refPoolT
  rw [scatterAdd_rows_apply ReferenceIdeal.scatter_S1024x64_S100000x1_S100000x64_1_0_0_1 rfl rfl rfl rfl]
  refine congrArg₂ (· + ·) Ideal.ofBits_zero_f32 (Finset.sum_congr rfl fun n _ => ?_)
  rw [btB_apply]

/-! ## The reference's result is the projection of the pooled features -/

section Result
variable {F : FTy → Type} [FloatOps F]

/-- The reference's result as the named terms: the pooled features times the output weights, plus the output bias. -/
theorem res_eq (m : (ℓ : Loc ReferenceIdeal.nD ReferenceIdeal.τ ReferenceIdeal.sig) → Buf (Elt F) ℓ) (c : Dev ReferenceIdeal.nD) :
    (ReferenceIdeal.ValueP.res_main_v72 (F := F) m c : (⟨S1024x1, .f32⟩ : BufTy).Contents (Elt F))
      = addf (Host.dotGeneral dot_S1024x64_S64x1_S1024x1_1_0_0_1_n_n none
          (refPoolT (F := F)
            (m ((c.tc : Thread ReferenceIdeal.nD ReferenceIdeal.τ).loc ReferenceIdeal.main_arg0))
            (m ((c.tc : Thread ReferenceIdeal.nD ReferenceIdeal.τ).loc ReferenceIdeal.main_arg1))
            (m ((c.tc : Thread ReferenceIdeal.nD ReferenceIdeal.τ).loc ReferenceIdeal.main_arg2))
            (m ((c.tc : Thread ReferenceIdeal.nD ReferenceIdeal.τ).loc ReferenceIdeal.main_arg3))
            (m ((c.tc : Thread ReferenceIdeal.nD ReferenceIdeal.τ).loc ReferenceIdeal.main_arg4))
            (m ((c.tc : Thread ReferenceIdeal.nD ReferenceIdeal.τ).loc ReferenceIdeal.main_arg5))
            (m ((c.tc : Thread ReferenceIdeal.nD ReferenceIdeal.τ).loc ReferenceIdeal.main_arg6)))
          (m ((c.tc : Thread ReferenceIdeal.nD ReferenceIdeal.τ).loc ReferenceIdeal.main_arg7)))
        (broadcastInDim S1024x1 ![0, 1] bcast_S1x1_S1024x1_0_1
          (broadcastInDim S1x1 ![1] bcast_S1_S1x1_1 (m ((c.tc : Thread ReferenceIdeal.nD ReferenceIdeal.τ).loc ReferenceIdeal.main_arg8)))) := by
  unfold ReferenceIdeal.ValueP.res_main_v72 refPoolT refLayerT nrmT dinvT degT rowsT colsT normT
  rfl

end Result

end Cert.KernelIdeal.Gen

end
-- ==== Proof.KI.Final.lean ====
/-
  The two programs' results agree. The kernel program's pooled features (the two cores' partial sums added) are, entry by
  entry, the sum over the nodes of the one-hot graph factor times the second layer's feature in the kernel's arrangement;
  the reference's are the sum over the nodes whose graph id is the entry's row of the second layer's feature in the
  reference's arrangement. The arrangements agree layer by layer, a one-hot factor times a term is the term on the
  selected nodes, and both programs then apply the same output projection and bias.
-/
import proofs.«400187_j27350351741543_3_alg».proof.Proof.KI.KVals
import proofs.«400187_j27350351741543_3_alg».proof.Proof.KI.RefLayer
import proofs.«400187_j27350351741543_3_alg».proof.Proof.KI.Forms
import proofs.«400187_j27350351741543_3_alg».proof.Proof.KI.KChain
import proofs.«400187_j27350351741543_3_alg».proof.Proof.KI.PadFacts

noncomputable section

namespace Cert.KernelIdeal.Gen

open Idealize.ShloMosaic Idealize.ShloMosaic.TcCoe Idealize.ShloMosaic.ValueIdx Idealize.ShloMosaic.RowScatter
open Idealize.SL.Sem

section Layers
variable (ei : (⟨S2x1000000, .i32⟩ : BufTy).Contents (Elt Ideal))

/-- The reference's layer term read at a node and a feature is the reference's arrangement of the layer. -/
theorem refLayer_rLayer (h : S100000x64.Idx → EReal) (W : S64x64.Idx → EReal) (b : S64.Idx → EReal) (n : Fin 100000) (f : Fin 64) :
    refLayerT (F := Ideal) h W b ei (ix2 n f) = rLayer ei (fun r k => h (ix2 r k)) W b n f := by
  rw [refLayer_apply]; rfl

/-- The reference's pooled term read at a graph and a feature: the sum over the graph's nodes of the second layer. -/
theorem refPool_rLayer (x : S100000x64.Idx → EReal) (bt : S100000.Idx → BitVec 32) (W1 : S64x64.Idx → EReal) (b1 : S64.Idx → EReal)
    (W2 : S64x64.Idx → EReal) (b2 : S64.Idx → EReal) (g : Fin 1024) (f : Fin 64) :
    refPoolT (F := Ideal) x ei bt W1 b1 W2 b2 (ix2 g f)
      = ∑ n : Fin 100000, if (bt (ix1 n)).toInt = (g.val : ℤ) then rLayer ei (rLayer ei (fun r k => x (ix2 r k)) W1 b1) W2 b2 n f else 0 := by
  rw [refPool_apply, zero_add]
  refine Finset.sum_congr rfl fun n _ => ?_
  rw [refLayer_rLayer]
  have hin : (fun (r : Fin 100000) (k : Fin 64) => refLayerT (F := Ideal) x W1 b1 ei (ix2 r k)) = rLayer ei (fun r k => x (ix2 r k)) W1 b1 := by
    funext r k; exact refLayer_rLayer ei x W1 b1 r k
  rw [hin]

end Layers

section Value
variable (m : (ℓ : Loc nD τ sig) → Buf (Elt Ideal) ℓ) (c : Dev nD)

/-- THE POOLED FEATURES AGREE: the kernel program's two partial sums added are the reference's pooled term of the same
    launch arrays. -/
theorem pooled_eq :
    (addf (F := Ideal) (φ := .f32)
        (shapeCast S1024x64 (extractStridedSlice S1x1024x64 ![0, 0, 0] (o12 m c) slices_S2x1024x64_S1x1024x64_0_0_0) shapeCasts_S1x1024x64_S1024x64)
        (shapeCast S1024x64 (extractStridedSlice S1x1024x64 ![1, 0, 0] (o12 m c) slices_S2x1024x64_S1x1024x64_1_0_0) shapeCasts_S1x1024x64_S1024x64))
      = refPoolT (F := Ideal) (xA m c) (eiA m c) (btA m c) (w1A m c) (b1A m c) (w2A m c) (b2A m c) := by
  funext i
  obtain ⟨g, f, rfl⟩ : ∃ (g : Fin 1024) (f : Fin 64), i = ix2 g f := ⟨i 0, i 1, eq_ix2 i⟩
  rw [kpool_apply m c g f, refPool_rLayer]
  refine Finset.sum_congr rfl fun n _ => ?_
  rw [Cert.GcnCore.onehot_mul, kLayer_eq_rLayer, kLayer_eq_rLayer]
  by_cases h : BitVec.ofNat 32 g.val = btA m c (ix1 n)
  · rw [if_pos h, if_pos ((ofNat_eq_iff_toInt g _).mp h)]
  · rw [if_neg h, if_neg (fun h' => h ((ofNat_eq_iff_toInt g _).mpr h'))]

/-- THE RESULTS AGREE: from memories that agree on the nine arguments, the kernel program's result array is the reference's. -/
theorem value_eq (m' : (ℓ : Loc ReferenceIdeal.nD ReferenceIdeal.τ ReferenceIdeal.sig) → Buf (Elt Ideal) ℓ)
    (h0 : m' ((c.tc : Thread ReferenceIdeal.nD ReferenceIdeal.τ).loc ReferenceIdeal.main_arg0) = m ((c.tc : Thread nD τ).loc main_arg0))
    (h1 : m' ((c.tc : Thread ReferenceIdeal.nD ReferenceIdeal.τ).loc ReferenceIdeal.main_arg1) = m ((c.tc : Thread nD τ).loc main_arg1))
    (h2 : m' ((c.tc : Thread ReferenceIdeal.nD ReferenceIdeal.τ).loc ReferenceIdeal.main_arg2) = m ((c.tc : Thread nD τ).loc main_arg2))
    (h3 : m' ((c.tc : Thread ReferenceIdeal.nD ReferenceIdeal.τ).loc ReferenceIdeal.main_arg3) = m ((c.tc : Thread nD τ).loc main_arg3))
    (h4 : m' ((c.tc : Thread ReferenceIdeal.nD ReferenceIdeal.τ).loc ReferenceIdeal.main_arg4) = m ((c.tc : Thread nD τ).loc main_arg4))
    (h5 : m' ((c.tc : Thread ReferenceIdeal.nD ReferenceIdeal.τ).loc ReferenceIdeal.main_arg5) = m ((c.tc : Thread nD τ).loc main_arg5))
    (h6 : m' ((c.tc : Thread ReferenceIdeal.nD ReferenceIdeal.τ).loc ReferenceIdeal.main_arg6) = m ((c.tc : Thread nD τ).loc main_arg6))
    (h7 : m' ((c.tc : Thread ReferenceIdeal.nD ReferenceIdeal.τ).loc ReferenceIdeal.main_arg7) = m ((c.tc : Thread nD τ).loc main_arg7))
    (h8 : m' ((c.tc : Thread ReferenceIdeal.nD ReferenceIdeal.τ).loc ReferenceIdeal.main_arg8) = m ((c.tc : Thread nD τ).loc main_arg8)) :
    U13 m c main_v52 = ReferenceIdeal.ValueP.res_main_v72 (F := Ideal) m' c := by
  refine (K13_v52 m c).trans ?_
  refine Eq.trans ?_ (res_eq m' c).symm
  rw [h0, h1, h2, h3, h4, h5, h6, h7, h8, pooled_eq m c]

end Value

end Cert.KernelIdeal.Gen

end
-- ==== Proof.lean ====
/-
  The certificate of the two-layer graph convolution with sum pooling: the kernel program (three Pallas kernels — the
  degree-scaled feature transform, the fused rectifier and second transform, the one-hot pooling over two cores — among
  host gathers and scatter-adds) against its reference.
  The three frames: each kernel program's run through its host stretches and its three regions (the word-level program's
  and the idealized one's are one text, generic in the float instance), and the reference's run.
  The idealization rewrote nothing, so `preserves` has nothing to state.
  The equivalence over the extended reals: both programs end with the same projection of the pooled features; the
  pooled features agree entry by entry because the two arrangements of a layer agree (the target node's inverse
  square-root degree is one nonnegative real for all the edges into a node, and goes through their sum) and the
  one-hot product over padded rows is the sum over a graph's nodes.
-/
import proofs.«400187_j27350351741543_3_alg».proof.Defs
import proofs.«400187_j27350351741543_3_alg».proof.Proof.Gen.Kernel
import proofs.«400187_j27350351741543_3_alg».proof.Proof.Gen.KernelIdeal
import proofs.«400187_j27350351741543_3_alg».proof.Proof.Gen.ReferenceIdeal
import proofs.«400187_j27350351741543_3_alg».proof.Proof.Gen.Pre_finite_inputs
import proofs.«400187_j27350351741543_3_alg».proof.Proof.KB.Frame
import proofs.«400187_j27350351741543_3_alg».proof.Proof.KI.Frame
import proofs.«400187_j27350351741543_3_alg».proof.Proof.KI.Final
import proofs.«400187_j27350351741543_3_alg».proof.Proof.RefRunP

noncomputable section

namespace Cert.Proof

open Idealize.ShloMosaic Idealize.ShloMosaic.TcCoe Idealize.SL.Sem

/-- The word-level program runs and leaves its arguments. -/
theorem frame_k : Cert.frame_Kernel := fun m ρ _ => Cert.Kernel.Gen.frame_run (F := Bits) m ρ

/-- The idealized program runs and leaves its arguments. -/
theorem frame_ki : Cert.frame_KernelIdeal := fun m ρ _ => Cert.KernelIdeal.Gen.frame_run (F := Ideal) m ρ

/-- The reference runs and leaves its arguments: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- From memories that agree on the arguments both programs end with equal results. -/
theorem algebraic : Cert.algebraic_KernelIdeal_ReferenceIdeal := by
  intro m ρ m' ρ' _ hagree
  refine ⟨fun c => Cert.KernelIdeal.Gen.U13 m c Cert.KernelIdeal.main_v52, Cert.KernelIdeal.Gen.value_run (F := Ideal) m ρ, ?_⟩
  refine (θ_run Cert.ReferenceIdeal.defs _ _).mono (fun _ h c => ⟨(h c).1.trans ?_, (h c).2⟩)
    (Cert.ReferenceIdeal.ValueP.run (F := Ideal) m' ρ')
  exact (Cert.KernelIdeal.Gen.value_eq m c m' (hagree c).1 (hagree c).2.1 (hagree c).2.2.1 (hagree c).2.2.2.1 (hagree c).2.2.2.2.1
    (hagree c).2.2.2.2.2.1 (hagree c).2.2.2.2.2.2.1 (hagree c).2.2.2.2.2.2.2.1 (hagree c).2.2.2.2.2.2.2.2).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
